-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S8x4096x1024 : Shape := ⟨3, ![8, 4096, 1024]⟩
abbrev S8x1024x2048 : Shape := ⟨3, ![8, 1024, 2048]⟩
abbrev S1024x2 : Shape := ⟨2, ![1024, 2]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_arg4 : IVec S1024x2 32) (main_v13 : IVec S_ 1) (main_v16 : IVec S1024x2 1) : IVec S_ 1 :=
  let main_c_5 : IVec S_ 1 := constantI S_ 1 1#1
  let main_v17 : IVec S_ 1 := (fun x v => Host.reduce IntOp.andi x v reducesTo_S1024x2_S_d0_1 h_S_) main_v16 main_c_5
  let main_v18 : IVec S_ 1 := andi main_v13 main_v17
  let main_c_6 : IVec S_ 32 := constantI S_ 32 0#32
  let main_v19 : IVec S1024x2 32 := broadcastInDim S1024x2 ![] bcast_S_S1024x2 main_c_6
  let main_v20 : IVec S1024x2 1 := cmpi .sge main_arg4 main_v19
  let main_c_7 : IVec S_ 1 := constantI S_ 1 1#1
  let main_v21 : IVec S_ 1 := (fun x v => Host.reduce IntOp.andi x v reducesTo_S1024x2_S_d0_1 h_S_) main_v20 main_c_7
  let main_v22 : IVec S_ 1 := andi main_v18 main_v21
  let main_c_8 : IVec S_ 32 := constantI S_ 32 8#32
  let main_v23 : IVec S1024x2 32 := broadcastInDim S1024x2 ![] bcast_S_S1024x2 main_c_8
  let main_v24 : IVec S1024x2 1 := cmpi .slt main_arg4 main_v23
  let main_c_9 : IVec S_ 1 := constantI S_ 1 1#1
  let main_v25 : IVec S_ 1 := (fun x v => Host.reduce IntOp.andi x v reducesTo_S1024x2_S_d0_1 h_S_) main_v24 main_c_9
  let main_v26 : IVec S_ 1 := andi main_v22 main_v25
  main_v26

def fn {F : FTy → Type} [FloatOps F] (main_arg0 : FVec F S1024x1024 .f32) (main_arg1 : FVec F S8x4096x1024 .f32) (main_arg2 : FVec F S8x1024x2048 .f32) (main_arg3 : FVec F S1024x2 .f32) (main_arg4 : IVec S1024x2 32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1024x2048 .f32 := Host.absf main_arg2
  let main_cst_2 : FVec F S_ .f32 := constant S_ .f32 0x7F800000#32
  let main_v10 : FVec F S8x1024x2048 .f32 := broadcastInDim S8x1024x2048 ![] bcast_S_S8x1024x2048 main_cst_2
  let main_v11 : IVec S8x1024x2048 1 := cmpf .olt main_v9 main_v10
  let main_c_3 : IVec S_ 1 := constantI S_ 1 1#1
  let main_v12 : IVec S_ 1 := (fun x v => Host.reduce IntOp.andi x v reducesTo_S8x1024x2048_S_d0_1_2 h_S_) main_v11 main_c_3
  let main_v13 : IVec S_ 1 := andi main_v8 main_v12
  let main_v14 : FVec F S1024x2 .f32 := Host.absf main_arg3
  let main_cst_4 : FVec F S_ .f32 := constant S_ .f32 0x7F800000#32
  let main_v15 : FVec F S1024x2 .f32 := broadcastInDim S1024x2 ![] bcast_S_S1024x2 main_cst_4
  let main_v16 : IVec S1024x2 1 := cmpf .olt main_v14 main_v15
  fn_part1 (F := F) main_arg4 main_v13 main_v16
-- ==== Kernel.lean ====
abbrev S1024x1024 : Shape := ⟨2, ![1024, 1024]⟩
abbrev S8x4096x1024 : Shape := ⟨3, ![8, 4096, 1024]⟩
abbrev S8x1024x2048 : Shape := ⟨3, ![8, 1024, 2048]⟩
abbrev S1024x2 : Shape := ⟨2, ![1024, 2]⟩
abbrev S_ : Shape := ⟨0, ![]⟩
abbrev S8 : Shape := ⟨1, ![8]⟩
abbrev S1024x2x1 : Shape := ⟨3, ![1024, 2, 1]⟩
abbrev S1x1x8 : Shape := ⟨3, ![1, 1, 8]⟩
abbrev S1024x2x8 : Shape := ⟨3, ![1024, 2, 8]⟩
abbrev S1024x8 : Shape := ⟨2, ![1024, 8]⟩
abbrev S8x1024 : Shape := ⟨2, ![8, 1024]⟩
abbrev S8x1024x1 : Shape := ⟨3, ![8, 1024, 1]⟩
abbrev S512x1024 : Shape := ⟨2, ![512, 1024]⟩
abbrev S1x512x1024 : Shape := ⟨3, ![1, 512, 1024]⟩
abbrev S1x1024x512 : Shape := ⟨3, ![1, 1024, 512]⟩
abbrev S1x512x1 : Shape := ⟨3, ![1, 512, 1]⟩
abbrev S1024x512 : Shape := ⟨2, ![1024, 512]⟩
abbrev S512x512 : Shape := ⟨2, ![512, 512]⟩
abbrev S512x1 : Shape := ⟨2, ![512, 1]⟩

abbrev nBuf : Space → Nat
  | .hbm => 28
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S8x4096x1024, .f32⟩
  | .hbm, ⟨2, _⟩ => ⟨S8x1024x2048, .f32⟩
  | .hbm, ⟨3, _⟩ => ⟨S1024x2, .f32⟩
  | .hbm, ⟨4, _⟩ => ⟨S1024x2, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1024x2, .i32⟩
  | .hbm, ⟨9, _⟩ => ⟨S1024x2, .i32⟩
  | .hbm, ⟨10, _⟩ => ⟨S_, .i32⟩
  | .hbm, ⟨11, _⟩ => ⟨S1024x2, .i32⟩
  | .hbm, ⟨12, _⟩ => ⟨S1024x2, .i32⟩
  | .hbm, ⟨13, _⟩ => ⟨S8, .i32⟩
  | .hbm, ⟨14, _⟩ => ⟨S1024x2x1, .i32⟩
  | .hbm, ⟨15, _⟩ => ⟨S1x1x8, .i32⟩
  | .hbm, ⟨16, _⟩ => ⟨S1024x2x8, .i32⟩
  | .hbm, ⟨17, _⟩ => ⟨S1024x2x8, .i32⟩
  | .hbm, ⟨18, _⟩ => ⟨S1024x2x8, .i1⟩
  | .hbm, ⟨19, _⟩ => ⟨S1024x2x8, .f32⟩
  | .hbm, ⟨20, _⟩ => ⟨S1024x2x1, .f32⟩
  | .hbm, ⟨21, _⟩ => ⟨S1024x2x8, .f32⟩
  | .hbm, ⟨22, _⟩ => ⟨S1024x2x8, .f32⟩
  | .hbm, ⟨23, _⟩ => ⟨S_, .f32⟩
  | .hbm, ⟨24, _⟩ => ⟨S1024x8, .f32⟩
  | .hbm, ⟨25, _⟩ => ⟨S8x1024, .f32⟩
  | .hbm, ⟨26, _⟩ => ⟨S8x1024x1, .f32⟩
  | .hbm, ⟨27, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1, .f32⟩
  | .local _ .vmem, ⟨9, _⟩ => ⟨S1x512x1, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c3_i32_21 : BitVec 32 := 3#32
  let v35 : BitVec 1 := Scalar.cmpi .eq arg2 c3_i32_21
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![arg1.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S1024x2 : S_.BroadcastsInDim S1024x2 (![] : Fin 0 → Fin S1024x2.rank)
  bcast_S1024x2_S1024x2x1_0_1 : S1024x2.BroadcastsInDim S1024x2x1 (![0, 1] : Fin 2 → Fin S1024x2x1.rank)
  bcast_S8_S1x1x8_2 : S8.BroadcastsInDim S1x1x8 (![2] : Fin 1 → Fin S1x1x8.rank)
  bcast_S1024x2x1_S1024x2x8_0_1_2 : S1024x2x1.BroadcastsInDim S1024x2x8 (![0, 1, 2] : Fin 3 → Fin S1024x2x8.rank)
  bcast_S1x1x8_S1024x2x8_0_1_2 : S1x1x8.BroadcastsInDim S1024x2x8 (![0, 1, 2] : Fin 3 → Fin S1024x2x8.rank)
  reducesTo_S1024x2x8_S1024x8_d1 : S1024x2x8.ReducesTo [1] S1024x8
  h_S_ : 0 < S_.numel
  transposes_S1024x8_S8x1024_1_0 : S1024x8.Transposes [1, 0] S8x1024
  bcast_S8x1024_S8x1024x1_0_1 : S8x1024.BroadcastsInDim S8x1024x1 (![0, 1] : Fin 2 → Fin S8x1024x1.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  dot_S512x1024_S512x1024_S512x512_1_1_0_0_n_n_wf : DotDims.WF S512x1024 S512x1024 S512x512 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x2048.size a
  hwx0_3 : ∀ i : grid0.Coords, EltTy.bits .f32 = 32 ∨ (Rect.block (s := S8x1024x2048) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x1024x1.size a
  hwx0_4 : ∀ i : grid0.Coords, EltTy.bits .f32 = 32 ∨ (Rect.block (s := S8x1024x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S1024x1024.size a
  hwx0_5 : ∀ i : grid0.Coords, EltTy.bits .f32 = 32 ∨ (Rect.block (s := S1024x1024) S512x1024.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S1024x1024 : Shape := ⟨2, ![1024, 1024]⟩
abbrev S8x4096x1024 : Shape := ⟨3, ![8, 4096, 1024]⟩
abbrev S8x1024x2048 : Shape := ⟨3, ![8, 1024, 2048]⟩
abbrev S1024x2 : Shape := ⟨2, ![1024, 2]⟩
abbrev S8x1024x4096 : Shape := ⟨3, ![8, 1024, 4096]⟩
abbrev S_ : Shape := ⟨0, ![]⟩
abbrev S8x1024x1024 : Shape := ⟨3, ![8, 1024, 1024]⟩
abbrev S1024x8x1024 : Shape := ⟨3, ![1024, 8, 1024]⟩
abbrev S1024x2x1 : Shape := ⟨3, ![1024, 2, 1]⟩
abbrev S1 : Shape := ⟨1, ![1]⟩
abbrev S1x1x1 : Shape := ⟨3, ![1, 1, 1]⟩
abbrev S1024x2x1024 : Shape := ⟨3, ![1024, 2, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8x4096x1024, .f32⟩
  | .hbm, ⟨2, _⟩ => ⟨S8x1024x2048, .f32⟩
  | .hbm, ⟨3, _⟩ => ⟨S1024x2, .f32⟩
  | .hbm, ⟨4, _⟩ => ⟨S1024x2, .i32⟩
  | .hbm, ⟨5, _⟩ => ⟨S8x4096x1024, .f32⟩
  | .hbm, ⟨6, _⟩ => ⟨S8x1024x4096, .f32⟩
  | .hbm, ⟨7, _⟩ => ⟨S8x1024x2048, .f32⟩
  | .hbm, ⟨8, _⟩ => ⟨S8x1024x2048, .f32⟩
  | .hbm, ⟨9, _⟩ => ⟨S8x1024x2048, .f32⟩
  | .hbm, ⟨10, _⟩ => ⟨S8x1024x2048, .f32⟩
  | .hbm, ⟨11, _⟩ => ⟨S_, .f32⟩
  | .hbm, ⟨12, _⟩ => ⟨S8x1024x2048, .f32⟩
  | .hbm, ⟨13, _⟩ => ⟨S8x1024x2048, .f32⟩
  | .hbm, ⟨14, _⟩ => ⟨S_, .f32⟩
  | .hbm, ⟨15, _⟩ => ⟨S8x1024x2048, .f32⟩
  | .hbm, ⟨16, _⟩ => ⟨S8x1024x2048, .f32⟩
  | .hbm, ⟨17, _⟩ => ⟨S8x1024x2048, .f32⟩
  | .hbm, ⟨18, _⟩ => ⟨S8x1024x2048, .f32⟩
  | .hbm, ⟨19, _⟩ => ⟨S8x1024x1024, .f32⟩
  | .hbm, ⟨20, _⟩ => ⟨S1024x8x1024, .f32⟩
  | .hbm, ⟨21, _⟩ => ⟨S1024x2x1, .i32⟩
  | .hbm, ⟨22, _⟩ => ⟨S_, .i32⟩
  | .hbm, ⟨23, _⟩ => ⟨S1024x2x1, .i32⟩
  | .hbm, ⟨24, _⟩ => ⟨S1024x2x1, .i1⟩
  | .hbm, ⟨25, _⟩ => ⟨S_, .i32⟩
  | .hbm, ⟨26, _⟩ => ⟨S1024x2x1, .i32⟩
  | .hbm, ⟨27, _⟩ => ⟨S1024x2x1, .i32⟩
  | .hbm, ⟨28, _⟩ => ⟨S1024x2x1, .i32⟩
  | .hbm, ⟨29, _⟩ => ⟨S1, .i32⟩
  | .hbm, ⟨30, _⟩ => ⟨S_, .i32⟩
  | .hbm, ⟨31, _⟩ => ⟨S1024x2x1, .i32⟩
  | .hbm, ⟨32, _⟩ => ⟨S1024x2x1, .i1⟩
  | .hbm, ⟨33, _⟩ => ⟨S1x1x1, .i32⟩
  | .hbm, ⟨34, _⟩ => ⟨S1024x2x1, .i32⟩
  | .hbm, ⟨35, _⟩ => ⟨S1024x2x1, .i1⟩
  | .hbm, ⟨36, _⟩ => ⟨S1024x2x1, .i1⟩
  | .hbm, ⟨37, _⟩ => ⟨S_, .i1⟩
  | .hbm, ⟨38, _⟩ => ⟨S1024x2, .i1⟩
  | .hbm, ⟨39, _⟩ => ⟨S1024x2x1024, .f32⟩
  | .hbm, ⟨40, _⟩ => ⟨S1024x2x1024, .i1⟩
  | .hbm, ⟨41, _⟩ => ⟨S_, .f32⟩
  | .hbm, ⟨42, _⟩ => ⟨S1024x2x1024, .f32⟩
  | .hbm, ⟨43, _⟩ => ⟨S1024x2x1024, .f32⟩
  | .hbm, ⟨44, _⟩ => ⟨S1024x2x1, .f32⟩
  | .hbm, ⟨45, _⟩ => ⟨S1024x2x1024, .f32⟩
  | .hbm, ⟨46, _⟩ => ⟨S1024x2x1024, .f32⟩
  | .hbm, ⟨47, _⟩ => ⟨S_, .f32⟩
  | .hbm, ⟨48, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_c_2 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_c_3 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩

abbrev nD : Nat := 1
abbrev τ : Topo := Topo.v7x

variable {F : FTy → Type} [FloatOps F]

class Facts₀ : Prop where
  transposes_S8x4096x1024_S8x1024x4096_0_2_1 : S8x4096x1024.Transposes [0, 2, 1] S8x1024x4096
  slices_S8x1024x4096_S8x1024x2048_0_0_0 : S8x1024x4096.Slices ![0, 0, 0] S8x1024x2048
  slices_S8x1024x4096_S8x1024x2048_0_0_2048 : S8x1024x4096.Slices ![0, 0, 2048] S8x1024x2048
  bcast_S_S8x1024x2048 : S_.BroadcastsInDim S8x1024x2048 (![] : Fin 0 → Fin S8x1024x2048.rank)
  transposes_S8x1024x1024_S1024x8x1024_1_0_2 : S8x1024x1024.Transposes [1, 0, 2] S1024x8x1024
  bcast_S1024x2_S1024x2x1_0_1 : S1024x2.BroadcastsInDim S1024x2x1 (![0, 1] : Fin 2 → Fin S1024x2x1.rank)
  bcast_S_S1024x2x1 : S_.BroadcastsInDim S1024x2x1 (![] : Fin 0 → Fin S1024x2x1.rank)
  bcast_S1_S1x1x1_2 : S1.BroadcastsInDim S1x1x1 (![2] : Fin 1 → Fin S1x1x1.rank)
  bcast_S1x1x1_S1024x2x1_0_1_2 : S1x1x1.BroadcastsInDim S1024x2x1 (![0, 1, 2] : Fin 3 → Fin S1024x2x1.rank)
  reducesTo_S1024x2x1_S1024x2_d2 : S1024x2x1.ReducesTo [2] S1024x2
  h_S_ : 0 < S_.numel
  bcast_S1024x2_S1024x2x1024_0_1 : S1024x2.BroadcastsInDim S1024x2x1024 (![0, 1] : Fin 2 → Fin S1024x2x1024.rank)
  bcast_S_S1024x2x1024 : S_.BroadcastsInDim S1024x2x1024 (![] : Fin 0 → Fin S1024x2x1024.rank)
  bcast_S1024x2x1_S1024x2x1024_0_1_2 : S1024x2x1.BroadcastsInDim S1024x2x1024 (![0, 1, 2] : Fin 3 → Fin S1024x2x1024.rank)
  reducesTo_S1024x2x1024_S1024x1024_d1 : S1024x2x1024.ReducesTo [1] S1024x1024
  dot_S8x4096x1024_S1024x1024_S8x4096x1024_2_1_01_0_n_n_wf : DotDims.WF S8x4096x1024 S1024x1024 S8x4096x1024 [2] [1] [0, 1] [0] [] []
  dot_S8x1024x2048_S8x1024x2048_S8x1024x1024_2_2_1_1_0_0_wf : DotDims.WF S8x1024x2048 S8x1024x2048 S8x1024x1024 [2] [2] [1] [1] [0] [0]
  gather_S1024x8x1024_S1024x2x1_S1024x2x1024_2_1_0_0_1_2_111024_wf : GatherDims.WF S1024x8x1024 S1024x2x1 S1024x2x1024 [2] [1] [0] [1] [0] 2 ![1, 1, 1024]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x1024x2048_S8x1024x2048_S8x1024x1024_2_2_1_1_0_0 : DotDims S8x1024x2048 S8x1024x2048 S8x1024x1024 where
  lhsContracting := [2]
  rhsContracting := [2]
  lhsNonContracting := [1]
  rhsNonContracting := [1]
  lhsBatch := [0]
  rhsBatch := [0]
  wf := dot_S8x1024x2048_S8x1024x2048_S8x1024x1024_2_2_1_1_0_0_wf
def gather_S1024x8x1024_S1024x2x1_S1024x2x1024_2_1_0_0_1_2_111024 : GatherDims S1024x8x1024 S1024x2x1 S1024x2x1024 where
  offsetDims := [2]
  collapsedSliceDims := [1]
  operandBatchingDims := [0]
  startIndicesBatchingDims := [0]
  startIndexMap := [1]
  indexVectorDim := 2
  sliceSizes := ![1, 1, 1024]
  wf := gather_S1024x8x1024_S1024x2x1_S1024x2x1024_2_1_0_0_1_2_111024_wf

class Facts : Prop extends Facts₀ where

variable [Facts]
-- ==== Proof.KB.Entry.lean ====
/-
  The fused mixture-of-experts kernel: @main up to its one pallas_call, and the vocabulary the body's runs share.

  @main first builds, with plain host operations, the table of total routing weights per expert and token
  (clip the expert ids, compare against 0..7, multiply by the routing weights, add over the two slots,
  transpose); then one pallas_call on the grid (row tile, expert, chunk) = (2, 8, 4), 64 points in that order.
  `V` is what each buffer holds when the call is entered; `iblk` the block of a window's array at a point.
  The body branches on four conditions of the grid point: first point of a row tile (expert 0, chunk 0: clear the
  output accumulator), first chunk of an expert (clear the expert accumulator), last chunk of an expert (fold the
  expert accumulator, weighted, into the output accumulator), last point of a row tile (store the output block).
-/
import proofs.«420278_j20899310863256_3_alg».proof.Proof.Gen.Kernel.Launch
import proofs.«420278_j20899310863256_3_alg».proof.Proof.Gen.Kernel.Skeleton
import proofs.«420278_j20899310863256_3_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument: the call finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when not
    fetched the block index has not moved), for any proof data whose array is `V`'s and whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's four conditions, as functions of the grid point -/

/-- Expert 0 and chunk 0: the first point of a row tile. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0 : ∀ t : Fin cfg0.N, cond0 (grid0.coords t) ↔ t.val % 32 = 0 :=
  (by decide +kernel : ∀ t : Fin grid0.N, cond0 (grid0.coords t) ↔ t.val % 32 = 0)
/-- Chunk 0: the first chunk of an expert. -/
abbrev cond1 (i : grid0.Coords) : Prop :=
  (Scalar.cmpi .ne (Scalar.extui (Scalar.cmpi .eq (BitVec.ofNat 32 (i 2).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)
/-- Chunk 3: the last chunk of an expert. -/
abbrev cond2 (i : grid0.Coords) : Prop :=
  (Scalar.cmpi .ne (Scalar.extui (Scalar.cmpi .eq (BitVec.ofNat 32 (i 2).val) 3#32)) 0#32) = 1#1
theorem hcond2 : ∀ t : Fin cfg0.N, cond2 (grid0.coords t) ↔ t.val % 4 = 3 :=
  (by decide +kernel : ∀ t : Fin grid0.N, cond2 (grid0.coords t) ↔ t.val % 4 = 3)
/-- Expert 7 and chunk 3: the last point of a row tile. -/
abbrev cond3 (i : grid0.Coords) : Prop := k0_cond4 i = 1#1
theorem hcond3 : ∀ t : Fin cfg0.N, cond3 (grid0.coords t) ↔ t.val % 32 = 31 :=
  (by decide +kernel : ∀ t : Fin grid0.N, cond3 (grid0.coords t) ↔ t.val % 32 = 31)

/-! ## Where the output window is idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
theorem live_in4 : ∀ t : Fin cfg0.N, cfg0.idle 4 (grid0.coords t) = false := by decide +kernel
/-- Away from a row tile's last point the body stores nothing into the output block and it is not written back. -/
theorem idle_out : ∀ t : Fin cfg0.N, ¬cond3 (grid0.coords t) → cfg0.idle 5 (grid0.coords t) = true := by decide +kernel
theorem noFlush_out : ∀ t : Fin cfg0.N, ¬cond3 (grid0.coords t) → (cfg0.win 5).flush t = false := by decide +kernel
/-- At a row tile's last point the body stores the output block. -/
theorem live_out : ∀ t : Fin cfg0.N, cond3 (grid0.coords t) → cfg0.idle 5 (grid0.coords t) = false := by decide +kernel

/-! ## The memrefs the body is called on -/

abbrev VO : View sig .tc .vmem S512x1024 .f32 := (Memref.whole cc0_stg5_0 : Memref sig .tc .vmem S512x1024 .f32).view
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
/-- The expert accumulator and the output accumulator: scratch the kernel carries from point to point. -/
abbrev scY : Memref sig .tc .vmem S512x1024 .f32 := Memref.whole cc0_scratch0
abbrev scO : Memref sig .tc .vmem S512x1024 .f32 := Memref.whole cc0_scratch1
abbrev VS : View sig .tc .vmem S512x1024 .f32 := scY.view
abbrev VT : View sig .tc .vmem S512x1024 .f32 := scO.view

/-- The scoped buffers that are no staging buffer are the two accumulators. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scY fullShare d) ∗ (∃ d, owns (c : Thread nD τ) scO fullShare d)) := by
  rw [scopedRest0_eq]; simp only [scY, scO, owns_whole]; try rfl

end Cert.Kernel.Fr

end
-- ==== Proof.KB.RunA.lean ====
/-
  The body at the first point of a row tile (expert 0, chunk 0): both accumulators are cleared, then the
  chunk's contribution is added onto the cleared expert accumulator.  What the stores leave in the two
  accumulators is found by running the body; the pieces are the witness.
-/
import proofs.«420278_j20899310863256_3_alg».proof.Proof.KB.Entry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First point of a row tile: from the four input blocks, both accumulators at anything, the body runs and leaves
    each accumulator with its pieces written. -/
noncomputable def runA (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : cond0 i) (hc1 : cond1 i) (hc2 : ¬cond2 i) (hc3 : ¬cond3 i) (x0 : Vec F S512x1024 .f32) (x1 : Vec F S1x512x1024 .f32) (x2 : Vec F S1x512x1024 .f32) (x3 : Vec F S1x1024x512 .f32) :
    Σ' (LY : List (View.Piece (Elt F) S512x1024 .f32)), { LO : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg9.view.loc (c : Thread nD τ) ↦[arg9.view.set]{fullShare} arg9.view.writes (Elt F) f LY) ∗ (∃ f, arg10.view.loc (c : Thread nD τ) ↦[arg10.view.set]{fullShare} arg10.view.writes (Elt F) f LO)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, ?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%dY, %fY, -, HY⟩, ⟨%dO, %fO, -, HO⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HY]; · iexists _; iexact HY
    iexists _; iexact HO

end Cert.Kernel.Fr

end
-- ==== Proof.KB.RunB.lean ====
/-
  The body at the first chunk of an expert other than the first: the expert accumulator is cleared and the chunk's
  contribution added onto it; the output accumulator is not touched.
-/
import proofs.«420278_j20899310863256_3_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first chunk of an expert other than the first: the expert accumulator is cleared and the chunk's -/
noncomputable def runB (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : cond1 i) (hc2 : ¬cond2 i) (hc3 : ¬cond3 i) (x0 : Vec F S512x1024 .f32) (x1 : Vec F S1x512x1024 .f32) (x2 : Vec F S1x512x1024 .f32) (x3 : Vec F S1x1024x512 .f32) :
    { LY : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg9.view.loc (c : Thread nD τ) ↦[arg9.view.set]{fullShare} arg9.view.writes (Elt F) f LY)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%dY, %fY, -, HY⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HY

end Cert.Kernel.Fr

end
-- ==== Proof.KB.RunC.lean ====
/-
  The body at a middle chunk of an expert: the chunk's contribution is added onto the expert accumulator as the
  point before left it; the output accumulator is not touched.
-/
import proofs.«420278_j20899310863256_3_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle chunk of an expert: the chunk's contribution is added onto the expert accumulator as the -/
noncomputable def runC (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : ¬cond1 i) (hc2 : ¬cond2 i) (hc3 : ¬cond3 i) (x0 : Vec F S512x1024 .f32) (x1 : Vec F S1x512x1024 .f32) (x2 : Vec F S1x512x1024 .f32) (x3 : Vec F S1x1024x512 .f32) (xY : Vec F S512x1024 .f32) :
    { LY : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg9 fullShare xY
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg9.view.loc (c : Thread nD τ) ↦[arg9.view.set]{fullShare} arg9.view.writes (Elt F) f LY)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%fY, %hfY, HY⟩, Hk⟩
    obtain rfl := harg3.eq_unread hf0; obtain rfl := harg4.eq_unread hf1; obtain rfl := harg5.eq_unread hf2; obtain rfl := harg6.eq_unread hf3; obtain rfl := harg9.eq_unread hfY
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HY

end Cert.Kernel.Fr

end
-- ==== Proof.KB.RunD.lean ====
/-
  The body at the last chunk of an expert other than the last: the chunk's contribution is added onto the expert
  accumulator, and the finished expert accumulator, each row scaled by the token's routing weight for the
  expert, is added onto the output accumulator.
-/
import proofs.«420278_j20899310863256_3_alg».proof.Proof.KB.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last chunk of an expert other than the last: the chunk's contribution is added onto the expert -/
noncomputable def runD (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : ¬cond1 i) (hc2 : cond2 i) (hc3 : ¬cond3 i) (x0 : Vec F S512x1024 .f32) (x1 : Vec F S1x512x1024 .f32) (x2 : Vec F S1x512x1024 .f32) (x3 : Vec F S1x1024x512 .f32) (x4 : Vec F S1x512x1 .f32) (xY : Vec F S512x1024 .f32) (xO : Vec F S512x1024 .f32) :
    Σ' (LY : List (View.Piece (Elt F) S512x1024 .f32)), { LO : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare xY ∗ owns (c : Thread nD τ) arg10 fullShare xO
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg9.view.loc (c : Thread nD τ) ↦[arg9.view.set]{fullShare} arg9.view.writes (Elt F) f LY) ∗ (∃ f, arg10.view.loc (c : Thread nD τ) ↦[arg10.view.set]{fullShare} arg10.view.writes (Elt F) f LO)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, ?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fY, %hfY, HY⟩, ⟨%fO, %hfO, HO⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfY; obtain rfl := harg10.eq_unread hfO
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HY]; · iexists _; iexact HY
    iexists _; iexact HO

end Cert.Kernel.Fr

end
-- ==== Proof.KB.RunE.lean ====
/-
  The body at the last point of a row tile (expert 7, chunk 3): as at any last chunk, and then the finished output
  accumulator is stored into the output block.
-/
import proofs.«420278_j20899310863256_3_alg».proof.Proof.KB.RunD

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a row tile (expert 7, chunk 3): as at any last chunk, and then the finished output -/
noncomputable def runE (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : ¬cond1 i) (hc2 : cond2 i) (hc3 : cond3 i) (x0 : Vec F S512x1024 .f32) (x1 : Vec F S1x512x1024 .f32) (x2 : Vec F S1x512x1024 .f32) (x3 : Vec F S1x1024x512 .f32) (x4 : Vec F S1x512x1 .f32) (xY : Vec F S512x1024 .f32) (xO : Vec F S512x1024 .f32) :
    Σ' (L5 : List (View.Piece (Elt F) S512x1024 .f32)) (LY : List (View.Piece (Elt F) S512x1024 .f32)), { LO : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xY ∗ owns (c : Thread nD τ) arg10 fullShare xO
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LY) ∗ (∃ f, arg10.view.loc (c : Thread nD τ) ↦[arg10.view.set]{fullShare} arg10.view.writes (Elt F) f LO)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, ?_, ?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fY, %hfY, HY⟩, ⟨%fO, %hfO, HO⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfY; obtain rfl := harg10.eq_unread hfO
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HY]; · iexists _; iexact HY
    iexists _; iexact HO

end Cert.Kernel.Fr

end
-- ==== Proof.KB.Frame.lean ====
/-
  The frame of the fused mixture-of-experts kernel: what the two accumulators and the output block hold after
  each grid point, the proof data of the pipeline, the body obligation at every point, the launch, and the run.

  Points run in the order (row tile, expert, chunk); point t has chunk t % 4 and expert (t / 4) % 8.  Five kinds
  of point: A (t % 32 = 0) clears both accumulators and adds chunk 0; B (t % 4 = 0 otherwise) clears the expert
  accumulator and adds chunk 0; C (t % 4 = 1, 2) adds a chunk; D (t % 4 = 3, t % 32 ≠ 31) adds the last chunk and
  folds the expert accumulator, weighted, into the output accumulator; E (t % 32 = 31) does the same and stores
  the output accumulator into the output block, which the pipeline then writes back.

  The first weight array is handed to the call twice (gate rows and up rows are two windows on one array): the
  array is held at half shares by the two windows, which only read it.
-/
import proofs.«420278_j20899310863256_3_alg».proof.Proof.KB.RunE

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a point of each kind -/

/-- The run at a point of kind A, on the point's staging memrefs and input blocks. -/
abbrev rA (c : Dev nD) (t : Fin cfg0.N) (h0 : t.val % 32 = 0) :=
  runA (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    ((hcond0 t).mpr h0) ((hcond1 t).mpr (by omega)) (fun h => by have := (hcond2 t).mp h; omega) (fun h => by have := (hcond3 t).mp h; omega)
    (iblk m c 0 t) (iblk m c 1 t) (iblk m c 2 t) (iblk m c 3 t)
/-- Kind B. -/
abbrev rB (c : Dev nD) (t : Fin cfg0.N) (h0 : ¬t.val % 32 = 0) (h1 : t.val % 4 = 0) :=
  runB (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => h0 ((hcond0 t).mp h)) ((hcond1 t).mpr h1) (fun h => by have := (hcond2 t).mp h; omega) (fun h => by have := (hcond3 t).mp h; omega)
    (iblk m c 0 t) (iblk m c 1 t) (iblk m c 2 t) (iblk m c 3 t)
/-- Kind C, over what the point before left in the expert accumulator. -/
abbrev rC (c : Dev nD) (t : Fin cfg0.N) (h1 : ¬t.val % 4 = 0) (h2 : ¬t.val % 4 = 3) (xY : Vec F S512x1024 .f32) :=
  runC (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => by have := (hcond0 t).mp h; omega) (fun h => h1 ((hcond1 t).mp h)) (fun h => h2 ((hcond2 t).mp h)) (fun h => by have := (hcond3 t).mp h; omega)
    (iblk m c 0 t) (iblk m c 1 t) (iblk m c 2 t) (iblk m c 3 t) xY
/-- Kind D, over what the point before left in both accumulators. -/
abbrev rD (c : Dev nD) (t : Fin cfg0.N) (h2 : t.val % 4 = 3) (h3 : ¬t.val % 32 = 31) (xY xO : Vec F S512x1024 .f32) :=
  runD (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => by have := (hcond0 t).mp h; omega) (fun h => by have := (hcond1 t).mp h; omega) ((hcond2 t).mpr h2) (fun h => h3 ((hcond3 t).mp h))
    (iblk m c 0 t) (iblk m c 1 t) (iblk m c 2 t) (iblk m c 3 t) (iblk m c 4 t) xY xO
/-- Kind E. -/
abbrev rE (c : Dev nD) (t : Fin cfg0.N) (h3 : t.val % 32 = 31) (xY xO : Vec F S512x1024 .f32) :=
  runE (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => by have := (hcond0 t).mp h; omega) (fun h => by have := (hcond1 t).mp h; omega) ((hcond2 t).mpr (by omega)) ((hcond3 t).mpr h3)
    (iblk m c 0 t) (iblk m c 1 t) (iblk m c 2 t) (iblk m c 3 t) (iblk m c 4 t) xY xO

/-- A list of pieces read back over contents nothing names. -/
abbrev rd (L : List (View.Piece (Elt F) S512x1024 .f32)) : Vec F S512x1024 .f32 := VS.read (Elt F) (VS.writes (Elt F) VS.junk L)

/-- What a point of each kind leaves in the expert accumulator (`sY·`), in the output accumulator (`sO·`), in the
    output block (`o5E`): the run's pieces read back. -/
def sYA (c : Dev nD) (t : Fin cfg0.N) (h0 : t.val % 32 = 0) : Vec F S512x1024 .f32 := rd (rA m c t h0).1
def sOA (c : Dev nD) (t : Fin cfg0.N) (h0 : t.val % 32 = 0) : Vec F S512x1024 .f32 := rd (rA m c t h0).2.1
def sYB (c : Dev nD) (t : Fin cfg0.N) (h0 : ¬t.val % 32 = 0) (h1 : t.val % 4 = 0) : Vec F S512x1024 .f32 := rd (rB m c t h0 h1).1
def sYC (c : Dev nD) (t : Fin cfg0.N) (h1 : ¬t.val % 4 = 0) (h2 : ¬t.val % 4 = 3) (xY : Vec F S512x1024 .f32) : Vec F S512x1024 .f32 := rd (rC m c t h1 h2 xY).1
def sYD (c : Dev nD) (t : Fin cfg0.N) (h2 : t.val % 4 = 3) (h3 : ¬t.val % 32 = 31) (xY xO : Vec F S512x1024 .f32) : Vec F S512x1024 .f32 := rd (rD m c t h2 h3 xY xO).1
def sOD (c : Dev nD) (t : Fin cfg0.N) (h2 : t.val % 4 = 3) (h3 : ¬t.val % 32 = 31) (xY xO : Vec F S512x1024 .f32) : Vec F S512x1024 .f32 := rd (rD m c t h2 h3 xY xO).2.1
def o5E (c : Dev nD) (t : Fin cfg0.N) (h3 : t.val % 32 = 31) (xY xO : Vec F S512x1024 .f32) : Vec F S512x1024 .f32 := rd (rE m c t h3 xY xO).1
def sYE (c : Dev nD) (t : Fin cfg0.N) (h3 : t.val % 32 = 31) (xY xO : Vec F S512x1024 .f32) : Vec F S512x1024 .f32 := rd (rE m c t h3 xY xO).2.1
def sOE (c : Dev nD) (t : Fin cfg0.N) (h3 : t.val % 32 = 31) (xY xO : Vec F S512x1024 .f32) : Vec F S512x1024 .f32 := rd (rE m c t h3 xY xO).2.2.1

/-- Each list of pieces covers its buffer: whole-buffer stores. -/
theorem covYA (c : Dev nD) (t : Fin cfg0.N) (h0 : t.val % 32 = 0) (y : S512x1024.Idx) : ∃ pc ∈ (rA m c t h0).1, y ∈ pc.1.set :=
  View.cover_of_tiledL (rA m c t h0).1 S512x1024.size (by sl_kernel_rfl) y
theorem covOA (c : Dev nD) (t : Fin cfg0.N) (h0 : t.val % 32 = 0) (y : S512x1024.Idx) : ∃ pc ∈ (rA m c t h0).2.1, y ∈ pc.1.set :=
  View.cover_of_tiledL (rA m c t h0).2.1 S512x1024.size (by sl_kernel_rfl) y
theorem covYB (c : Dev nD) (t : Fin cfg0.N) (h0 : ¬t.val % 32 = 0) (h1 : t.val % 4 = 0) (y : S512x1024.Idx) : ∃ pc ∈ (rB m c t h0 h1).1, y ∈ pc.1.set :=
  View.cover_of_tiledL (rB m c t h0 h1).1 S512x1024.size (by sl_kernel_rfl) y
theorem covYC (c : Dev nD) (t : Fin cfg0.N) (h1 : ¬t.val % 4 = 0) (h2 : ¬t.val % 4 = 3) (xY : Vec F S512x1024 .f32) (y : S512x1024.Idx) : ∃ pc ∈ (rC m c t h1 h2 xY).1, y ∈ pc.1.set :=
  View.cover_of_tiledL (rC m c t h1 h2 xY).1 S512x1024.size (by sl_kernel_rfl) y
theorem covYD (c : Dev nD) (t : Fin cfg0.N) (h2 : t.val % 4 = 3) (h3 : ¬t.val % 32 = 31) (xY xO : Vec F S512x1024 .f32) (y : S512x1024.Idx) : ∃ pc ∈ (rD m c t h2 h3 xY xO).1, y ∈ pc.1.set :=
  View.cover_of_tiledL (rD m c t h2 h3 xY xO).1 S512x1024.size (by sl_kernel_rfl) y
theorem covOD (c : Dev nD) (t : Fin cfg0.N) (h2 : t.val % 4 = 3) (h3 : ¬t.val % 32 = 31) (xY xO : Vec F S512x1024 .f32) (y : S512x1024.Idx) : ∃ pc ∈ (rD m c t h2 h3 xY xO).2.1, y ∈ pc.1.set :=
  View.cover_of_tiledL (rD m c t h2 h3 xY xO).2.1 S512x1024.size (by sl_kernel_rfl) y
theorem cov5E (c : Dev nD) (t : Fin cfg0.N) (h3 : t.val % 32 = 31) (xY xO : Vec F S512x1024 .f32) (y : S512x1024.Idx) : ∃ pc ∈ (rE m c t h3 xY xO).1, y ∈ pc.1.set :=
  View.cover_of_tiledL (rE m c t h3 xY xO).1 S512x1024.size (by sl_kernel_rfl) y
theorem covYE (c : Dev nD) (t : Fin cfg0.N) (h3 : t.val % 32 = 31) (xY xO : Vec F S512x1024 .f32) (y : S512x1024.Idx) : ∃ pc ∈ (rE m c t h3 xY xO).2.1, y ∈ pc.1.set :=
  View.cover_of_tiledL (rE m c t h3 xY xO).2.1 S512x1024.size (by sl_kernel_rfl) y
theorem covOE (c : Dev nD) (t : Fin cfg0.N) (h3 : t.val % 32 = 31) (xY xO : Vec F S512x1024 .f32) (y : S512x1024.Idx) : ∃ pc ∈ (rE m c t h3 xY xO).2.2.1, y ∈ pc.1.set :=
  View.cover_of_tiledL (rE m c t h3 xY xO).2.2.1 S512x1024.size (by sl_kernel_rfl) y

/-! ## What the buffers hold after each point -/

/-- Contents nothing names: the output block's component at the points that do not store it. -/
abbrev junk5 : Vec F S512x1024 .f32 := VO.read (Elt F) VO.junk

/-- One point's step: (output block, expert accumulator, output accumulator) after point `t`, from the two
    accumulators as the point before left them. -/
def stepAt (c : Dev nD) (t : Fin cfg0.N) (xY xO : Vec F S512x1024 .f32) : Vec F S512x1024 .f32 × Vec F S512x1024 .f32 × Vec F S512x1024 .f32 :=
  if h0 : t.val % 32 = 0 then (junk5, sYA m c t h0, sOA m c t h0)
  else if h1 : t.val % 4 = 0 then (junk5, sYB m c t h0 h1, xO)
  else if h2 : t.val % 4 = 3 then
    if h3 : t.val % 32 = 31 then (o5E m c t h3 xY xO, sYE m c t h3 xY xO, sOE m c t h3 xY xO)
    else (junk5, sYD m c t h2 h3 xY xO, sOD m c t h2 h3 xY xO)
  else (junk5, sYC m c t h1 h2 xY, xO)

/-- THE ACCUMULATION: the three buffers after the body at position `n`, by recursion on the position. -/
def outsAt (c : Dev nD) : (n : ℕ) → n < cfg0.N → Vec F S512x1024 .f32 × Vec F S512x1024 .f32 × Vec F S512x1024 .f32
  | 0, hn => stepAt m c ⟨0, hn⟩ junk5 junk5
  | n + 1, hn => stepAt m c ⟨n + 1, hn⟩ (outsAt c n (Nat.lt_of_succ_lt hn)).2.1 (outsAt c n (Nat.lt_of_succ_lt hn)).2.2

/-- The accumulators as point `t` finds them. -/
def prevY (c : Dev nD) (t : Fin cfg0.N) : Vec F S512x1024 .f32 :=
  if h : t.val = 0 then junk5 else (outsAt m c (t.val - 1) (Nat.lt_of_le_of_lt (Nat.sub_le _ _) t.isLt)).2.1
def prevO (c : Dev nD) (t : Fin cfg0.N) : Vec F S512x1024 .f32 :=
  if h : t.val = 0 then junk5 else (outsAt m c (t.val - 1) (Nat.lt_of_le_of_lt (Nat.sub_le _ _) t.isLt)).2.2

theorem outsAt_eq (c : Dev nD) (t : Fin cfg0.N) : outsAt m c t.val t.isLt = stepAt m c t (prevY m c t) (prevO m c t) := by
  obtain ⟨n, hn⟩ := t
  cases n with
  | zero => rfl
  | succ n => rfl

/-! ## The invariant: the two accumulators, at what the point before left -/

def PhiS (c : Dev nD) : (n : ℕ) → n ≤ cfg0.N → sProp 𝕄
  | 0, _ => iprop((∃ d, owns (c : Thread nD τ) scY fullShare d) ∗ (∃ d, owns (c : Thread nD τ) scO fullShare d))
  | n + 1, hn => iprop(owns (c : Thread nD τ) scY fullShare (outsAt m c n hn).2.1 ∗ owns (c : Thread nD τ) scO fullShare (outsAt m c n hn).2.2)

theorem PhiS_zero (c : Dev nD) (n : ℕ) (h : n ≤ cfg0.N) (hz : n = 0) :
    PhiS m c n h = iprop((∃ d, owns (c : Thread nD τ) scY fullShare d) ∗ (∃ d, owns (c : Thread nD τ) scO fullShare d)) := by
  subst hz; rfl

theorem PhiS_succ (c : Dev nD) (n : ℕ) (hn : n < cfg0.N) :
    PhiS m c (n + 1) hn = iprop(owns (c : Thread nD τ) scY fullShare (outsAt m c n hn).2.1 ∗ owns (c : Thread nD τ) scO fullShare (outsAt m c n hn).2.2) := rfl

/-- Before a point that is not the first: the accumulators at what the point before left. -/
theorem PhiS_at (c : Dev nD) (t : Fin cfg0.N) (hz : t.val ≠ 0) :
    PhiS m c t.val (Nat.le_of_lt t.isLt) = iprop(owns (c : Thread nD τ) scY fullShare (prevY m c t) ∗ owns (c : Thread nD τ) scO fullShare (prevO m c t)) := by
  obtain ⟨n, hn⟩ := t
  cases n with
  | zero => exact absurd rfl hz
  | succ n => unfold prevY prevO; rw [dif_neg hz, dif_neg hz]; rfl

/-- Before any point the accumulators are owned at some contents. -/
theorem PhiS_weak (c : Dev nD) (n : ℕ) (h : n ≤ cfg0.N) :
    PhiS m c n h ⊢ iprop((∃ d, owns (c : Thread nD τ) scY fullShare d) ∗ (∃ d, owns (c : Thread nD τ) scO fullShare d)) := by
  cases n with
  | zero => exact Idealize.SL.BI.Entails.refl _
  | succ n =>
    rw [PhiS_succ]
    iintro ⟨HY, HO⟩
    isplitl [HY]
    · iexists _; iexact HY
    · iexists _; iexact HO

/-! ## The pipeline's proof data -/

/-- The arrays as the call finds them; after the body at point `t` each input's buffer at its block, the output
    block at `outsAt`'s first component; the invariant `PhiS`; nothing owed; the first weight array held at half
    shares by its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leaves_in0 (c : Dev nD) (t : Fin cfg0.N) : (dats m 0 c).leavesExact 0 t = owns (c : Thread nD τ) (ms0 t) fullShare (iblk m c 0 t) := by
  unfold Dat.leavesExact; rw [live_in0 t, after0]
theorem leaves_in1 (c : Dev nD) (t : Fin cfg0.N) : (dats m 0 c).leavesExact 1 t = owns (c : Thread nD τ) (ms1 t) fullShare (iblk m c 1 t) := by
  unfold Dat.leavesExact; rw [live_in1 t, after1]
theorem leaves_in2 (c : Dev nD) (t : Fin cfg0.N) : (dats m 0 c).leavesExact 2 t = owns (c : Thread nD τ) (ms2 t) fullShare (iblk m c 2 t) := by
  unfold Dat.leavesExact; rw [live_in2 t, after2]
theorem leaves_in3 (c : Dev nD) (t : Fin cfg0.N) : (dats m 0 c).leavesExact 3 t = owns (c : Thread nD τ) (ms3 t) fullShare (iblk m c 3 t) := by
  unfold Dat.leavesExact; rw [live_in3 t, after3]
theorem leaves_in4 (c : Dev nD) (t : Fin cfg0.N) : (dats m 0 c).leavesExact 4 t = owns (c : Thread nD τ) (ms4 t) fullShare (iblk m c 4 t) := by
  unfold Dat.leavesExact; rw [live_in4 t, after4]
/-- Away from a row tile's last point the output block's buffer is handed back as it was found. -/
theorem leaves_out_idle (c : Dev nD) (t : Fin cfg0.N) (h3 : ¬t.val % 32 = 31) :
    (dats m 0 c).leavesExact 5 t = iprop(∃ d, owns (c : Thread nD τ) (ms5 t) fullShare ((dats m 0 c).before 5 t d)) :=
  Dat.leavesExact_idle (dats m 0 c) 5 t (idle_out t (fun h => h3 ((hcond3 t).mp h))) (noFlush_out t (fun h => h3 ((hcond3 t).mp h)))
/-- At a row tile's last point it holds what the body stored. -/
theorem leaves_out_live (c : Dev nD) (t : Fin cfg0.N) (h3 : t.val % 32 = 31) :
    (dats m 0 c).leavesExact 5 t = owns (c : Thread nD τ) (ms5 t) fullShare ((outsAt m c t.val t.isLt).1) := by
  unfold Dat.leavesExact; rw [live_out t ((hcond3 t).mpr h3), after5]

theorem stepAt_A (c : Dev nD) (t : Fin cfg0.N) (xY xO : Vec F S512x1024 .f32) (h0 : t.val % 32 = 0) :
    stepAt m c t xY xO = (junk5, sYA m c t h0, sOA m c t h0) := by unfold stepAt; rw [dif_pos h0]
theorem stepAt_B (c : Dev nD) (t : Fin cfg0.N) (xY xO : Vec F S512x1024 .f32) (h0 : ¬t.val % 32 = 0) (h1 : t.val % 4 = 0) :
    stepAt m c t xY xO = (junk5, sYB m c t h0 h1, xO) := by unfold stepAt; rw [dif_neg h0, dif_pos h1]
theorem stepAt_C (c : Dev nD) (t : Fin cfg0.N) (xY xO : Vec F S512x1024 .f32) (h1 : ¬t.val % 4 = 0) (h2 : ¬t.val % 4 = 3) :
    stepAt m c t xY xO = (junk5, sYC m c t h1 h2 xY, xO) := by
  unfold stepAt; rw [dif_neg (show ¬t.val % 32 = 0 by omega), dif_neg h1, dif_neg h2]
theorem stepAt_D (c : Dev nD) (t : Fin cfg0.N) (xY xO : Vec F S512x1024 .f32) (h2 : t.val % 4 = 3) (h3 : ¬t.val % 32 = 31) :
    stepAt m c t xY xO = (junk5, sYD m c t h2 h3 xY xO, sOD m c t h2 h3 xY xO) := by
  unfold stepAt; rw [dif_neg (show ¬t.val % 32 = 0 by omega), dif_neg (show ¬t.val % 4 = 0 by omega), dif_pos h2, dif_neg h3]
theorem stepAt_E (c : Dev nD) (t : Fin cfg0.N) (xY xO : Vec F S512x1024 .f32) (h3 : t.val % 32 = 31) :
    stepAt m c t xY xO = (o5E m c t h3 xY xO, sYE m c t h3 xY xO, sOE m c t h3 xY xO) := by
  unfold stepAt; rw [dif_neg (show ¬t.val % 32 = 0 by omega), dif_neg (show ¬t.val % 4 = 0 by omega), dif_pos (show t.val % 4 = 3 by omega), dif_pos h3]

set_option maxHeartbeats 4800000 in
/-- The body at any point: the inputs' buffers hold their blocks; the point's position says which kind it is; the
    invariant hands the body the accumulators at what the point before left and takes them back at this point's
    contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, Phi_castSucc]
  by_cases h0 : t.val % 32 = 0
  · rw [leaves_out_idle m c t (by omega), outsAt_eq m c t, stepAt_A m c t _ _ h0]
    unfold sYA sOA; dsimp only
    iintro ⟨HΦ, Ho, ⟨%d0, H0⟩, ⟨%d1, H1⟩, ⟨%d2, H2⟩, ⟨%d3, H3⟩, ⟨%d4, H4⟩, ⟨%d5, H5⟩⟩
    ihave HΦ' := (PhiS_weak m c _ _) $$ HΦ
    icases HΦ' with ⟨HY, HO⟩
    iapply ((rA m c t h0).2.2 Set.univ _)
    isplitl [H0]; · iexact H0
    isplitl [H1]; · iexact H1
    isplitl [H2]; · iexact H2
    isplitl [H3]; · iexact H3
    isplitl [HY]; · iexact HY
    isplitl [HO]; · iexact HO
    iintro ⟨H0, H1, H2, H3, ⟨%eY, HY⟩, ⟨%eO, HO⟩⟩
    isplitl [HY HO]
    · isplitl [HY]
      · unfold owns; iexists _; isplitr
        swap; · iexact HY
        ipureintro; exact View.read_writes_of_cover _ _ _ _ _ (covYA m c t h0)
      · unfold owns; iexists _; isplitr
        swap; · iexact HO
        ipureintro; exact View.read_writes_of_cover _ _ _ _ _ (covOA m c t h0)
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 4 = 0
    · have hz : t.val ≠ 0 := by omega
      rw [leaves_out_idle m c t (by omega), outsAt_eq m c t, stepAt_B m c t _ _ h0 h1, PhiS_at m c t hz]
      unfold sYB; dsimp only
      iintro ⟨⟨HY, HO⟩, Ho, ⟨%d0, H0⟩, ⟨%d1, H1⟩, ⟨%d2, H2⟩, ⟨%d3, H3⟩, ⟨%d4, H4⟩, ⟨%d5, H5⟩⟩
      iapply ((rB m c t h0 h1).2 Set.univ _)
      isplitl [H0]; · iexact H0
      isplitl [H1]; · iexact H1
      isplitl [H2]; · iexact H2
      isplitl [H3]; · iexact H3
      isplitl [HY]; · iexists _; iexact HY
      iintro ⟨H0, H1, H2, H3, ⟨%eY, HY⟩⟩
      isplitl [HY HO]
      · isplitl [HY]
        · unfold owns; iexists _; isplitr
          swap; · iexact HY
          ipureintro; exact View.read_writes_of_cover _ _ _ _ _ (covYB m c t h0 h1)
        · iexact HO
      isplitl [Ho]; · iexact Ho
      isplitl [H0]; · iexact H0
      isplitl [H1]; · iexact H1
      isplitl [H2]; · iexact H2
      isplitl [H3]; · iexact H3
      isplitl [H4]; · iexact H4
      iexists _; iexact H5
    · have hz : t.val ≠ 0 := by omega
      rw [PhiS_at m c t hz]
      by_cases h2 : t.val % 4 = 3
      · by_cases h3 : t.val % 32 = 31
        · rw [leaves_out_live m c t h3, outsAt_eq m c t, stepAt_E m c t _ _ h3]
          unfold o5E sYE sOE; dsimp only
          iintro ⟨⟨HY, HO⟩, Ho, ⟨%d0, H0⟩, ⟨%d1, H1⟩, ⟨%d2, H2⟩, ⟨%d3, H3⟩, ⟨%d4, H4⟩, ⟨%d5, H5⟩⟩
          iapply ((rE m c t h3 (prevY m c t) (prevO m c t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HY]; · iexact HY
          isplitl [HO]; · iexact HO
          iintro ⟨H0, H1, H2, H3, H4, ⟨%e5, H5⟩, ⟨%eY, HY⟩, ⟨%eO, HO⟩⟩
          isplitl [HY HO]
          · isplitl [HY]
            · unfold owns; iexists _; isplitr
              swap; · iexact HY
              ipureintro; exact View.read_writes_of_cover _ _ _ _ _ (covYE m c t h3 _ _)
            · unfold owns; iexists _; isplitr
              swap; · iexact HO
              ipureintro; exact View.read_writes_of_cover _ _ _ _ _ (covOE m c t h3 _ _)
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cov5E m c t h3 _ _)
        · rw [leaves_out_idle m c t h3, outsAt_eq m c t, stepAt_D m c t _ _ h2 h3]
          unfold sYD sOD; dsimp only
          iintro ⟨⟨HY, HO⟩, Ho, ⟨%d0, H0⟩, ⟨%d1, H1⟩, ⟨%d2, H2⟩, ⟨%d3, H3⟩, ⟨%d4, H4⟩, ⟨%d5, H5⟩⟩
          iapply ((rD m c t h2 h3 (prevY m c t) (prevO m c t)).2.2 Set.univ _)
          isplitl [H0]; · iexact H0
          isplitl [H1]; · iexact H1
          isplitl [H2]; · iexact H2
          isplitl [H3]; · iexact H3
          isplitl [H4]; · iexact H4
          isplitl [HY]; · iexact HY
          isplitl [HO]; · iexact HO
          iintro ⟨H0, H1, H2, H3, H4, ⟨%eY, HY⟩, ⟨%eO, HO⟩⟩
          isplitl [HY HO]
          · isplitl [HY]
            · unfold owns; iexists _; isplitr
              swap; · iexact HY
              ipureintro; exact View.read_writes_of_cover _ _ _ _ _ (covYD m c t h2 h3 _ _)
            · unfold owns; iexists _; isplitr
              swap; · iexact HO
              ipureintro; exact View.read_writes_of_cover _ _ _ _ _ (covOD m c t h2 h3 _ _)
          isplitl [Ho]; · iexact Ho
          isplitl [H0]; · iexact H0
          isplitl [H1]; · iexact H1
          isplitl [H2]; · iexact H2
          isplitl [H3]; · iexact H3
          isplitl [H4]; · iexact H4
          iexists _; iexact H5
      · rw [leaves_out_idle m c t (by omega), outsAt_eq m c t, stepAt_C m c t _ _ h1 h2]
        unfold sYC; dsimp only
        iintro ⟨⟨HY, HO⟩, Ho, ⟨%d0, H0⟩, ⟨%d1, H1⟩, ⟨%d2, H2⟩, ⟨%d3, H3⟩, ⟨%d4, H4⟩, ⟨%d5, H5⟩⟩
        iapply ((rC m c t h1 h2 (prevY m c t)).2 Set.univ _)
        isplitl [H0]; · iexact H0
        isplitl [H1]; · iexact H1
        isplitl [H2]; · iexact H2
        isplitl [H3]; · iexact H3
        isplitl [HY]; · iexact HY
        iintro ⟨H0, H1, H2, H3, ⟨%eY, HY⟩⟩
        isplitl [HY HO]
        · isplitl [HY]
          · unfold owns; iexists _; isplitr
            swap; · iexact HY
            ipureintro; exact View.read_writes_of_cover _ _ _ _ _ (covYC m c t h1 h2 _)
          · iexact HO
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The buffers behind the windows' arrays: the tokens, the first weight (behind two windows), the second weight,
    the routing-weight table, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v13) ↦{fullShare} W main_v13)
          ∗ (((c : Thread nD τ).loc main_v14) ↦{fullShare} W main_v14)) := by
  unfold Pipeline.arrBufs
  exact bigSep_eq_bigSepL_of_eq [main_arg0, main_arg1, main_arg2, main_v13, main_v14] (by decide) (by decide) _

/-- The arrays at entry from the buffers behind them: the first weight's buffer is split into its two half
    shares, one for the gate-rows window and one for the up-rows window. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq]
  unfold Dat.arrays
  rw [bigSep_W0]
  rw [(arr_whole0 0).set_eq_univ, (arr_whole0 1).set_eq_univ, (arr_whole0 3).set_eq_univ,
    (arr_whole0 4).set_eq_univ, (arr_whole0 5).set_eq_univ]
  iintro ⟨H0, H1, H2, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  iexact H4

/-- What the launch hands the call's invariant: the two accumulators at anything. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, scoped_eq]
  iintro ⟨-, H⟩; iexact H

/-- After the last point the accumulators' named contents are forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl, scoped_eq]
  iintro H
  isplitr; · iempintro
  iapply (PhiS_weak m c _ _); iexact H

set_option backward.isDefEq.respectTransparency.types false in
/-- From any memory with zero counters, every weakly fair execution of @main terminates, and in every final state each
    array of the call holds what the proof data compute (an input its entry contents, the result the output blocks
    written back) and every other unscoped buffer what it held when the call was entered. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the argument arrays end as they were launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Fr

end
-- ==== Proof.KI.Entry.lean ====
/-
  The fused mixture-of-experts kernel: @main up to its one pallas_call, and the vocabulary the body's runs share.

  @main first builds, with plain host operations, the table of total routing weights per expert and token
  (clip the expert ids, compare against 0..7, multiply by the routing weights, add over the two slots,
  transpose); then one pallas_call on the grid (row tile, expert, chunk) = (2, 8, 4), 64 points in that order.
  `V` is what each buffer holds when the call is entered; `iblk` the block of a window's array at a point.
  The body branches on four conditions of the grid point: first point of a row tile (expert 0, chunk 0: clear the
  output accumulator), first chunk of an expert (clear the expert accumulator), last chunk of an expert (fold the
  expert accumulator, weighted, into the output accumulator), last point of a row tile (store the output block).
-/
import proofs.«420278_j20899310863256_3_alg».proof.Proof.Gen.KernelIdeal.Launch
import proofs.«420278_j20899310863256_3_alg».proof.Proof.Gen.KernelIdeal.Skeleton
import proofs.«420278_j20899310863256_3_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument: the call finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (when not
    fetched the block index has not moved), for any proof data whose array is `V`'s and whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's four conditions, as functions of the grid point -/

/-- Expert 0 and chunk 0: the first point of a row tile. -/
abbrev cond0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0 : ∀ t : Fin cfg0.N, cond0 (grid0.coords t) ↔ t.val % 32 = 0 :=
  (by decide +kernel : ∀ t : Fin grid0.N, cond0 (grid0.coords t) ↔ t.val % 32 = 0)
/-- Chunk 0: the first chunk of an expert. -/
abbrev cond1 (i : grid0.Coords) : Prop :=
  (Scalar.cmpi .ne (Scalar.extui (Scalar.cmpi .eq (BitVec.ofNat 32 (i 2).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)
/-- Chunk 3: the last chunk of an expert. -/
abbrev cond2 (i : grid0.Coords) : Prop :=
  (Scalar.cmpi .ne (Scalar.extui (Scalar.cmpi .eq (BitVec.ofNat 32 (i 2).val) 3#32)) 0#32) = 1#1
theorem hcond2 : ∀ t : Fin cfg0.N, cond2 (grid0.coords t) ↔ t.val % 4 = 3 :=
  (by decide +kernel : ∀ t : Fin grid0.N, cond2 (grid0.coords t) ↔ t.val % 4 = 3)
/-- Expert 7 and chunk 3: the last point of a row tile. -/
abbrev cond3 (i : grid0.Coords) : Prop := k0_cond4 i = 1#1
theorem hcond3 : ∀ t : Fin cfg0.N, cond3 (grid0.coords t) ↔ t.val % 32 = 31 :=
  (by decide +kernel : ∀ t : Fin grid0.N, cond3 (grid0.coords t) ↔ t.val % 32 = 31)

/-! ## Where the output window is idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
theorem live_in4 : ∀ t : Fin cfg0.N, cfg0.idle 4 (grid0.coords t) = false := by decide +kernel
/-- Away from a row tile's last point the body stores nothing into the output block and it is not written back. -/
theorem idle_out : ∀ t : Fin cfg0.N, ¬cond3 (grid0.coords t) → cfg0.idle 5 (grid0.coords t) = true := by decide +kernel
theorem noFlush_out : ∀ t : Fin cfg0.N, ¬cond3 (grid0.coords t) → (cfg0.win 5).flush t = false := by decide +kernel
/-- At a row tile's last point the body stores the output block. -/
theorem live_out : ∀ t : Fin cfg0.N, cond3 (grid0.coords t) → cfg0.idle 5 (grid0.coords t) = false := by decide +kernel

/-! ## The memrefs the body is called on -/

abbrev VO : View sig .tc .vmem S512x1024 .f32 := (Memref.whole cc0_stg5_0 : Memref sig .tc .vmem S512x1024 .f32).view
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .f32 := win0_5.stage (cfg0.slots t 5)
abbrev hs5 (t : Fin cfg0.N) : (ms5 t).IsWhole := hstage0_5 ((cfg0.slots t 5).cast nbuf0_5)
/-- The expert accumulator and the output accumulator: scratch the kernel carries from point to point. -/
abbrev scY : Memref sig .tc .vmem S512x1024 .f32 := Memref.whole cc0_scratch0
abbrev scO : Memref sig .tc .vmem S512x1024 .f32 := Memref.whole cc0_scratch1
abbrev VS : View sig .tc .vmem S512x1024 .f32 := scY.view
abbrev VT : View sig .tc .vmem S512x1024 .f32 := scO.view

/-- The scoped buffers that are no staging buffer are the two accumulators. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scY fullShare d) ∗ (∃ d, owns (c : Thread nD τ) scO fullShare d)) := by
  rw [scopedRest0_eq]; simp only [scY, scO, owns_whole]; try rfl

end Cert.KernelIdeal.Fr

end
-- ==== Proof.KI.RunA.lean ====
/-
  The body at the first point of a row tile (expert 0, chunk 0): both accumulators are cleared, then the
  chunk's contribution is added onto the cleared expert accumulator.  What the stores leave in the two
  accumulators is found by running the body; the pieces are the witness.
-/
import proofs.«420278_j20899310863256_3_alg».proof.Proof.KI.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First point of a row tile: from the four input blocks, both accumulators at anything, the body runs and leaves
    each accumulator with its pieces written. -/
noncomputable def runA (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : cond0 i) (hc1 : cond1 i) (hc2 : ¬cond2 i) (hc3 : ¬cond3 i) (x0 : Vec F S512x1024 .f32) (x1 : Vec F S1x512x1024 .f32) (x2 : Vec F S1x512x1024 .f32) (x3 : Vec F S1x1024x512 .f32) :
    Σ' (LY : List (View.Piece (Elt F) S512x1024 .f32)), { LO : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg9.view.loc (c : Thread nD τ) ↦[arg9.view.set]{fullShare} arg9.view.writes (Elt F) f LY) ∗ (∃ f, arg10.view.loc (c : Thread nD τ) ↦[arg10.view.set]{fullShare} arg10.view.writes (Elt F) f LO)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, ?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%dY, %fY, -, HY⟩, ⟨%dO, %fO, -, HO⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HY]; · iexists _; iexact HY
    iexists _; iexact HO

end Cert.KernelIdeal.Fr

end
-- ==== Proof.KI.RunB.lean ====
/-
  The body at the first chunk of an expert other than the first: the expert accumulator is cleared and the chunk's
  contribution added onto it; the output accumulator is not touched.
-/
import proofs.«420278_j20899310863256_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first chunk of an expert other than the first: the expert accumulator is cleared and the chunk's -/
noncomputable def runB (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : cond1 i) (hc2 : ¬cond2 i) (hc3 : ¬cond3 i) (x0 : Vec F S512x1024 .f32) (x1 : Vec F S1x512x1024 .f32) (x2 : Vec F S1x512x1024 .f32) (x3 : Vec F S1x1024x512 .f32) :
    { LY : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg9.view.loc (c : Thread nD τ) ↦[arg9.view.set]{fullShare} arg9.view.writes (Elt F) f LY)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%dY, %fY, -, HY⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HY

end Cert.KernelIdeal.Fr

end
-- ==== Proof.KI.RunC.lean ====
/-
  The body at a middle chunk of an expert: the chunk's contribution is added onto the expert accumulator as the
  point before left it; the output accumulator is not touched.
-/
import proofs.«420278_j20899310863256_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle chunk of an expert: the chunk's contribution is added onto the expert accumulator as the -/
noncomputable def runC (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : ¬cond1 i) (hc2 : ¬cond2 i) (hc3 : ¬cond3 i) (x0 : Vec F S512x1024 .f32) (x1 : Vec F S1x512x1024 .f32) (x2 : Vec F S1x512x1024 .f32) (x3 : Vec F S1x1024x512 .f32) (xY : Vec F S512x1024 .f32) :
    { LY : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg9 fullShare xY
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg9.view.loc (c : Thread nD τ) ↦[arg9.view.set]{fullShare} arg9.view.writes (Elt F) f LY)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%fY, %hfY, HY⟩, Hk⟩
    obtain rfl := harg3.eq_unread hf0; obtain rfl := harg4.eq_unread hf1; obtain rfl := harg5.eq_unread hf2; obtain rfl := harg6.eq_unread hf3; obtain rfl := harg9.eq_unread hfY
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HY

end Cert.KernelIdeal.Fr

end
-- ==== Proof.KI.RunD.lean ====
/-
  The body at the last chunk of an expert other than the last: the chunk's contribution is added onto the expert
  accumulator, and the finished expert accumulator, each row scaled by the token's routing weight for the
  expert, is added onto the output accumulator.
-/
import proofs.«420278_j20899310863256_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last chunk of an expert other than the last: the chunk's contribution is added onto the expert -/
noncomputable def runD (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : ¬cond1 i) (hc2 : cond2 i) (hc3 : ¬cond3 i) (x0 : Vec F S512x1024 .f32) (x1 : Vec F S1x512x1024 .f32) (x2 : Vec F S1x512x1024 .f32) (x3 : Vec F S1x1024x512 .f32) (x4 : Vec F S1x512x1 .f32) (xY : Vec F S512x1024 .f32) (xO : Vec F S512x1024 .f32) :
    Σ' (LY : List (View.Piece (Elt F) S512x1024 .f32)), { LO : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare xY ∗ owns (c : Thread nD τ) arg10 fullShare xO
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg9.view.loc (c : Thread nD τ) ↦[arg9.view.set]{fullShare} arg9.view.writes (Elt F) f LY) ∗ (∃ f, arg10.view.loc (c : Thread nD τ) ↦[arg10.view.set]{fullShare} arg10.view.writes (Elt F) f LO)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, ?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fY, %hfY, HY⟩, ⟨%fO, %hfO, HO⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfY; obtain rfl := harg10.eq_unread hfO
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HY]; · iexists _; iexact HY
    iexists _; iexact HO

end Cert.KernelIdeal.Fr

end
-- ==== Proof.KI.RunE.lean ====
/-
  The body at the last point of a row tile (expert 7, chunk 3): as at any last chunk, and then the finished output
  accumulator is stored into the output block.
-/
import proofs.«420278_j20899310863256_3_alg».proof.Proof.KI.RunD

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a row tile (expert 7, chunk 3): as at any last chunk, and then the finished output -/
noncomputable def runE (c : Dev nD) (i : grid0.Coords) (arg3 : Memref sig .tc .vmem S512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1024x512 .f32) (harg6 : arg6.IsWhole) (arg7 : Memref sig .tc .vmem S1x512x1 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S512x1024 .f32) (harg10 : arg10.IsWhole)
    (hc0 : ¬cond0 i) (hc1 : ¬cond1 i) (hc2 : cond2 i) (hc3 : cond3 i) (x0 : Vec F S512x1024 .f32) (x1 : Vec F S1x512x1024 .f32) (x2 : Vec F S1x512x1024 .f32) (x3 : Vec F S1x1024x512 .f32) (x4 : Vec F S1x512x1 .f32) (xY : Vec F S512x1024 .f32) (xO : Vec F S512x1024 .f32) :
    Σ' (L5 : List (View.Piece (Elt F) S512x1024 .f32)) (LY : List (View.Piece (Elt F) S512x1024 .f32)), { LO : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xY ∗ owns (c : Thread nD τ) arg10 fullShare xO
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LY) ∗ (∃ f, arg10.view.loc (c : Thread nD τ) ↦[arg10.view.set]{fullShare} arg10.view.writes (Elt F) f LO)) -∗ K ⟨⟩))
          ⊢ wp frame (wpE (defs₀ (F := F)) Variants.none c none) E (cc0__kernel_fused i arg3 harg3 arg4 harg4 arg5 harg5 arg6 harg6 arg7 harg7 arg8 harg8 arg9 harg9 arg10 harg10) K } := by
  refine ⟨?_, ?_, ?_, fun E K => ?run⟩
  case run =>
    simp only [cc0__kernel_fused_eq_skeleton]; unfold cc0__kernel_fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fY, %hfY, HY⟩, ⟨%fO, %hfO, HO⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfY; obtain rfl := harg10.eq_unread hfO
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HY]; · iexists _; iexact HY
    iexists _; iexact HO

end Cert.KernelIdeal.Fr

end
-- ==== Proof.KI.Frame.lean ====
/-
  The frame of the fused mixture-of-experts kernel: what the two accumulators and the output block hold after
  each grid point, the proof data of the pipeline, the body obligation at every point, the launch, and the run.

  Points run in the order (row tile, expert, chunk); point t has chunk t % 4 and expert (t / 4) % 8.  Five kinds
  of point: A (t % 32 = 0) clears both accumulators and adds chunk 0; B (t % 4 = 0 otherwise) clears the expert
  accumulator and adds chunk 0; C (t % 4 = 1, 2) adds a chunk; D (t % 4 = 3, t % 32 ≠ 31) adds the last chunk and
  folds the expert accumulator, weighted, into the output accumulator; E (t % 32 = 31) does the same and stores
  the output accumulator into the output block, which the pipeline then writes back.

  The first weight array is handed to the call twice (gate rows and up rows are two windows on one array): the
  array is held at half shares by the two windows, which only read it.
-/
import proofs.«420278_j20899310863256_3_alg».proof.Proof.KI.RunE

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a point of each kind -/

/-- The run at a point of kind A, on the point's staging memrefs and input blocks. -/
abbrev rA (c : Dev nD) (t : Fin cfg0.N) (h0 : t.val % 32 = 0) :=
  runA (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    ((hcond0 t).mpr h0) ((hcond1 t).mpr (by omega)) (fun h => by have := (hcond2 t).mp h; omega) (fun h => by have := (hcond3 t).mp h; omega)
    (iblk m c 0 t) (iblk m c 1 t) (iblk m c 2 t) (iblk m c 3 t)
/-- Kind B. -/
abbrev rB (c : Dev nD) (t : Fin cfg0.N) (h0 : ¬t.val % 32 = 0) (h1 : t.val % 4 = 0) :=
  runB (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => h0 ((hcond0 t).mp h)) ((hcond1 t).mpr h1) (fun h => by have := (hcond2 t).mp h; omega) (fun h => by have := (hcond3 t).mp h; omega)
    (iblk m c 0 t) (iblk m c 1 t) (iblk m c 2 t) (iblk m c 3 t)
/-- Kind C, over what the point before left in the expert accumulator. -/
abbrev rC (c : Dev nD) (t : Fin cfg0.N) (h1 : ¬t.val % 4 = 0) (h2 : ¬t.val % 4 = 3) (xY : Vec F S512x1024 .f32) :=
  runC (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => by have := (hcond0 t).mp h; omega) (fun h => h1 ((hcond1 t).mp h)) (fun h => h2 ((hcond2 t).mp h)) (fun h => by have := (hcond3 t).mp h; omega)
    (iblk m c 0 t) (iblk m c 1 t) (iblk m c 2 t) (iblk m c 3 t) xY
/-- Kind D, over what the point before left in both accumulators. -/
abbrev rD (c : Dev nD) (t : Fin cfg0.N) (h2 : t.val % 4 = 3) (h3 : ¬t.val % 32 = 31) (xY xO : Vec F S512x1024 .f32) :=
  runD (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => by have := (hcond0 t).mp h; omega) (fun h => by have := (hcond1 t).mp h; omega) ((hcond2 t).mpr h2) (fun h => h3 ((hcond3 t).mp h))
    (iblk m c 0 t) (iblk m c 1 t) (iblk m c 2 t) (iblk m c 3 t) (iblk m c 4 t) xY xO
/-- Kind E. -/
abbrev rE (c : Dev nD) (t : Fin cfg0.N) (h3 : t.val % 32 = 31) (xY xO : Vec F S512x1024 .f32) :=
  runE (F := F) c (grid0.coords t) (ms0 t) (hs0 t) (ms1 t) (hs1 t) (ms2 t) (hs2 t) (ms3 t) (hs3 t) (ms4 t) (hs4 t) (ms5 t) (hs5 t) scY (Memref.isWhole_whole _) scO (Memref.isWhole_whole _)
    (fun h => by have := (hcond0 t).mp h; omega) (fun h => by have := (hcond1 t).mp h; omega) ((hcond2 t).mpr (by omega)) ((hcond3 t).mpr h3)
    (iblk m c 0 t) (iblk m c 1 t) (iblk m c 2 t) (iblk m c 3 t) (iblk m c 4 t) xY xO

/-- A list of pieces read back over contents nothing names. -/
abbrev rd (L : List (View.Piece (Elt F) S512x1024 .f32)) : Vec F S512x1024 .f32 := VS.read (Elt F) (VS.writes (Elt F) VS.junk L)

/-- What a point of each kind leaves in the expert accumulator (`sY·`), in the output accumulator (`sO·`), in the
    output block (`o5E`): the run's pieces read back. -/
def sYA (c : Dev nD) (t : Fin cfg0.N) (h0 : t.val % 32 = 0) : Vec F S512x1024 .f32 := rd (rA m c t h0).1
def sOA (c : Dev nD) (t : Fin cfg0.N) (h0 : t.val % 32 = 0) : Vec F S512x1024 .f32 := rd (rA m c t h0).2.1
def sYB (c : Dev nD) (t : Fin cfg0.N) (h0 : ¬t.val % 32 = 0) (h1 : t.val % 4 = 0) : Vec F S512x1024 .f32 := rd (rB m c t h0 h1).1
def sYC (c : Dev nD) (t : Fin cfg0.N) (h1 : ¬t.val % 4 = 0) (h2 : ¬t.val % 4 = 3) (xY : Vec F S512x1024 .f32) : Vec F S512x1024 .f32 := rd (rC m c t h1 h2 xY).1
def sYD (c : Dev nD) (t : Fin cfg0.N) (h2 : t.val % 4 = 3) (h3 : ¬t.val % 32 = 31) (xY xO : Vec F S512x1024 .f32) : Vec F S512x1024 .f32 := rd (rD m c t h2 h3 xY xO).1
def sOD (c : Dev nD) (t : Fin cfg0.N) (h2 : t.val % 4 = 3) (h3 : ¬t.val % 32 = 31) (xY xO : Vec F S512x1024 .f32) : Vec F S512x1024 .f32 := rd (rD m c t h2 h3 xY xO).2.1
def o5E (c : Dev nD) (t : Fin cfg0.N) (h3 : t.val % 32 = 31) (xY xO : Vec F S512x1024 .f32) : Vec F S512x1024 .f32 := rd (rE m c t h3 xY xO).1
def sYE (c : Dev nD) (t : Fin cfg0.N) (h3 : t.val % 32 = 31) (xY xO : Vec F S512x1024 .f32) : Vec F S512x1024 .f32 := rd (rE m c t h3 xY xO).2.1
def sOE (c : Dev nD) (t : Fin cfg0.N) (h3 : t.val % 32 = 31) (xY xO : Vec F S512x1024 .f32) : Vec F S512x1024 .f32 := rd (rE m c t h3 xY xO).2.2.1

/-- Each list of pieces covers its buffer: whole-buffer stores. -/
theorem covYA (c : Dev nD) (t : Fin cfg0.N) (h0 : t.val % 32 = 0) (y : S512x1024.Idx) : ∃ pc ∈ (rA m c t h0).1, y ∈ pc.1.set :=
  View.cover_of_tiledL (rA m c t h0).1 S512x1024.size (by sl_kernel_rfl) y
theorem covOA (c : Dev nD) (t : Fin cfg0.N) (h0 : t.val % 32 = 0) (y : S512x1024.Idx) : ∃ pc ∈ (rA m c t h0).2.1, y ∈ pc.1.set :=
  View.cover_of_tiledL (rA m c t h0).2.1 S512x1024.size (by sl_kernel_rfl) y
theorem covYB (c : Dev nD) (t : Fin cfg0.N) (h0 : ¬t.val % 32 = 0) (h1 : t.val % 4 = 0) (y : S512x1024.Idx) : ∃ pc ∈ (rB m c t h0 h1).1, y ∈ pc.1.set :=
  View.cover_of_tiledL (rB m c t h0 h1).1 S512x1024.size (by sl_kernel_rfl) y
theorem covYC (c : Dev nD) (t : Fin cfg0.N) (h1 : ¬t.val % 4 = 0) (h2 : ¬t.val % 4 = 3) (xY : Vec F S512x1024 .f32) (y : S512x1024.Idx) : ∃ pc ∈ (rC m c t h1 h2 xY).1, y ∈ pc.1.set :=
  View.cover_of_tiledL (rC m c t h1 h2 xY).1 S512x1024.size (by sl_kernel_rfl) y
theorem covYD (c : Dev nD) (t : Fin cfg0.N) (h2 : t.val % 4 = 3) (h3 : ¬t.val % 32 = 31) (xY xO : Vec F S512x1024 .f32) (y : S512x1024.Idx) : ∃ pc ∈ (rD m c t h2 h3 xY xO).1, y ∈ pc.1.set :=
  View.cover_of_tiledL (rD m c t h2 h3 xY xO).1 S512x1024.size (by sl_kernel_rfl) y
theorem covOD (c : Dev nD) (t : Fin cfg0.N) (h2 : t.val % 4 = 3) (h3 : ¬t.val % 32 = 31) (xY xO : Vec F S512x1024 .f32) (y : S512x1024.Idx) : ∃ pc ∈ (rD m c t h2 h3 xY xO).2.1, y ∈ pc.1.set :=
  View.cover_of_tiledL (rD m c t h2 h3 xY xO).2.1 S512x1024.size (by sl_kernel_rfl) y
theorem cov5E (c : Dev nD) (t : Fin cfg0.N) (h3 : t.val % 32 = 31) (xY xO : Vec F S512x1024 .f32) (y : S512x1024.Idx) : ∃ pc ∈ (rE m c t h3 xY xO).1, y ∈ pc.1.set :=
  View.cover_of_tiledL (rE m c t h3 xY xO).1 S512x1024.size (by sl_kernel_rfl) y
theorem covYE (c : Dev nD) (t : Fin cfg0.N) (h3 : t.val % 32 = 31) (xY xO : Vec F S512x1024 .f32) (y : S512x1024.Idx) : ∃ pc ∈ (rE m c t h3 xY xO).2.1, y ∈ pc.1.set :=
  View.cover_of_tiledL (rE m c t h3 xY xO).2.1 S512x1024.size (by sl_kernel_rfl) y
theorem covOE (c : Dev nD) (t : Fin cfg0.N) (h3 : t.val % 32 = 31) (xY xO : Vec F S512x1024 .f32) (y : S512x1024.Idx) : ∃ pc ∈ (rE m c t h3 xY xO).2.2.1, y ∈ pc.1.set :=
  View.cover_of_tiledL (rE m c t h3 xY xO).2.2.1 S512x1024.size (by sl_kernel_rfl) y

/-! ## What the buffers hold after each point -/

/-- Contents nothing names: the output block's component at the points that do not store it. -/
abbrev junk5 : Vec F S512x1024 .f32 := VO.read (Elt F) VO.junk

/-- One point's step: (output block, expert accumulator, output accumulator) after point `t`, from the two
    accumulators as the point before left them. -/
def stepAt (c : Dev nD) (t : Fin cfg0.N) (xY xO : Vec F S512x1024 .f32) : Vec F S512x1024 .f32 × Vec F S512x1024 .f32 × Vec F S512x1024 .f32 :=
  if h0 : t.val % 32 = 0 then (junk5, sYA m c t h0, sOA m c t h0)
  else if h1 : t.val % 4 = 0 then (junk5, sYB m c t h0 h1, xO)
  else if h2 : t.val % 4 = 3 then
    if h3 : t.val % 32 = 31 then (o5E m c t h3 xY xO, sYE m c t h3 xY xO, sOE m c t h3 xY xO)
    else (junk5, sYD m c t h2 h3 xY xO, sOD m c t h2 h3 xY xO)
  else (junk5, sYC m c t h1 h2 xY, xO)

/-- THE ACCUMULATION: the three buffers after the body at position `n`, by recursion on the position. -/
def outsAt (c : Dev nD) : (n : ℕ) → n < cfg0.N → Vec F S512x1024 .f32 × Vec F S512x1024 .f32 × Vec F S512x1024 .f32
  | 0, hn => stepAt m c ⟨0, hn⟩ junk5 junk5
  | n + 1, hn => stepAt m c ⟨n + 1, hn⟩ (outsAt c n (Nat.lt_of_succ_lt hn)).2.1 (outsAt c n (Nat.lt_of_succ_lt hn)).2.2

/-- The accumulators as point `t` finds them. -/
def prevY (c : Dev nD) (t : Fin cfg0.N) : Vec F S512x1024 .f32 :=
  if h : t.val = 0 then junk5 else (outsAt m c (t.val - 1) (Nat.lt_of_le_of_lt (Nat.sub_le _ _) t.isLt)).2.1
def prevO (c : Dev nD) (t : Fin cfg0.N) : Vec F S512x1024 .f32 :=
  if h : t.val = 0 then junk5 else (outsAt m c (t.val - 1) (Nat.lt_of_le_of_lt (Nat.sub_le _ _) t.isLt)).2.2

theorem outsAt_eq (c : Dev nD) (t : Fin cfg0.N) : outsAt m c t.val t.isLt = stepAt m c t (prevY m c t) (prevO m c t) := by
  obtain ⟨n, hn⟩ := t
  cases n with
  | zero => rfl
  | succ n => rfl

/-! ## The invariant: the two accumulators, at what the point before left -/

def PhiS (c : Dev nD) : (n : ℕ) → n ≤ cfg0.N → sProp 𝕄
  | 0, _ => iprop((∃ d, owns (c : Thread nD τ) scY fullShare d) ∗ (∃ d, owns (c : Thread nD τ) scO fullShare d))
  | n + 1, hn => iprop(owns (c : Thread nD τ) scY fullShare (outsAt m c n hn).2.1 ∗ owns (c : Thread nD τ) scO fullShare (outsAt m c n hn).2.2)

theorem PhiS_zero (c : Dev nD) (n : ℕ) (h : n ≤ cfg0.N) (hz : n = 0) :
    PhiS m c n h = iprop((∃ d, owns (c : Thread nD τ) scY fullShare d) ∗ (∃ d, owns (c : Thread nD τ) scO fullShare d)) := by
  subst hz; rfl

theorem PhiS_succ (c : Dev nD) (n : ℕ) (hn : n < cfg0.N) :
    PhiS m c (n + 1) hn = iprop(owns (c : Thread nD τ) scY fullShare (outsAt m c n hn).2.1 ∗ owns (c : Thread nD τ) scO fullShare (outsAt m c n hn).2.2) := rfl

/-- Before a point that is not the first: the accumulators at what the point before left. -/
theorem PhiS_at (c : Dev nD) (t : Fin cfg0.N) (hz : t.val ≠ 0) :
    PhiS m c t.val (Nat.le_of_lt t.isLt) = iprop(owns (c : Thread nD τ) scY fullShare (prevY m c t) ∗ owns (c : Thread nD τ) scO fullShare (prevO m c t)) := by
  obtain ⟨n, hn⟩ := t
  cases n with
  | zero => exact absurd rfl hz
  | succ n => unfold prevY prevO; rw [dif_neg hz, dif_neg hz]; rfl

/-- Before any point the accumulators are owned at some contents. -/
theorem PhiS_weak (c : Dev nD) (n : ℕ) (h : n ≤ cfg0.N) :
    PhiS m c n h ⊢ iprop((∃ d, owns (c : Thread nD τ) scY fullShare d) ∗ (∃ d, owns (c : Thread nD τ) scO fullShare d)) := by
  cases n with
  | zero => exact Idealize.SL.BI.Entails.refl _
  | succ n =>
    rw [PhiS_succ]
    iintro ⟨HY, HO⟩
    isplitl [HY]
    · iexists _; iexact HY
    · iexists _; iexact HO

/-! ## The pipeline's proof data -/

/-- The arrays as the call finds them; after the body at point `t` each input's buffer at its block, the output
    block at `outsAt`'s first component; the invariant `PhiS`; nothing owed; the first weight array held at half
    shares by its two windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

theorem leaves_in0 (c : Dev nD) (t : Fin cfg0.N) : (dats m 0 c).leavesExact 0 t = owns (c : Thread nD τ) (ms0 t) fullShare (iblk m c 0 t) := by
  unfold Dat.leavesExact; rw [live_in0 t, after0]
theorem leaves_in1 (c : Dev nD) (t : Fin cfg0.N) : (dats m 0 c).leavesExact 1 t = owns (c : Thread nD τ) (ms1 t) fullShare (iblk m c 1 t) := by
  unfold Dat.leavesExact; rw [live_in1 t, after1]
theorem leaves_in2 (c : Dev nD) (t : Fin cfg0.N) : (dats m 0 c).leavesExact 2 t = owns (c : Thread nD τ) (ms2 t) fullShare (iblk m c 2 t) := by
  unfold Dat.leavesExact; rw [live_in2 t, after2]
theorem leaves_in3 (c : Dev nD) (t : Fin cfg0.N) : (dats m 0 c).leavesExact 3 t = owns (c : Thread nD τ) (ms3 t) fullShare (iblk m c 3 t) := by
  unfold Dat.leavesExact; rw [live_in3 t, after3]
theorem leaves_in4 (c : Dev nD) (t : Fin cfg0.N) : (dats m 0 c).leavesExact 4 t = owns (c : Thread nD τ) (ms4 t) fullShare (iblk m c 4 t) := by
  unfold Dat.leavesExact; rw [live_in4 t, after4]
/-- Away from a row tile's last point the output block's buffer is handed back as it was found. -/
theorem leaves_out_idle (c : Dev nD) (t : Fin cfg0.N) (h3 : ¬t.val % 32 = 31) :
    (dats m 0 c).leavesExact 5 t = iprop(∃ d, owns (c : Thread nD τ) (ms5 t) fullShare ((dats m 0 c).before 5 t d)) :=
  Dat.leavesExact_idle (dats m 0 c) 5 t (idle_out t (fun h => h3 ((hcond3 t).mp h))) (noFlush_out t (fun h => h3 ((hcond3 t).mp h)))
/-- At a row tile's last point it holds what the body stored. -/
theorem leaves_out_live (c : Dev nD) (t : Fin cfg0.N) (h3 : t.val % 32 = 31) :
    (dats m 0 c).leavesExact 5 t = owns (c : Thread nD τ) (ms5 t) fullShare ((outsAt m c t.val t.isLt).1) := by
  unfold Dat.leavesExact; rw [live_out t ((hcond3 t).mpr h3), after5]

theorem stepAt_A (c : Dev nD) (t : Fin cfg0.N) (xY xO : Vec F S512x1024 .f32) (h0 : t.val % 32 = 0) :
    stepAt m c t xY xO = (junk5, sYA m c t h0, sOA m c t h0) := by unfold stepAt; rw [dif_pos h0]
theorem stepAt_B (c : Dev nD) (t : Fin cfg0.N) (xY xO : Vec F S512x1024 .f32) (h0 : ¬t.val % 32 = 0) (h1 : t.val % 4 = 0) :
    stepAt m c t xY xO = (junk5, sYB m c t h0 h1, xO) := by unfold stepAt; rw [dif_neg h0, dif_pos h1]
theorem stepAt_C (c : Dev nD) (t : Fin cfg0.N) (xY xO : Vec F S512x1024 .f32) (h1 : ¬t.val % 4 = 0) (h2 : ¬t.val % 4 = 3) :
    stepAt m c t xY xO = (junk5, sYC m c t h1 h2 xY, xO) := by
  unfold stepAt; rw [dif_neg (show ¬t.val % 32 = 0 by omega), dif_neg h1, dif_neg h2]
theorem stepAt_D (c : Dev nD) (t : Fin cfg0.N) (xY xO : Vec F S512x1024 .f32) (h2 : t.val % 4 = 3) (h3 : ¬t.val % 32 = 31) :
    stepAt m c t xY xO = (junk5, sYD m c t h2 h3 xY xO, sOD m c t h2 h3 xY xO) := by
  unfold stepAt; rw [dif_neg (show ¬t.val % 32 = 0 by omega), dif_neg (show ¬t.val % 4 = 0 by omega), dif_pos h2, dif_neg h3]
theorem stepAt_E (c : Dev nD) (t : Fin cfg0.N) (xY xO : Vec F S512x1024 .f32) (h3 : t.val % 32 = 31) :
    stepAt m c t xY xO = (o5E m c t h3 xY xO, sYE m c t h3 xY xO, sOE m c t h3 xY xO) := by
  unfold stepAt; rw [dif_neg (show ¬t.val % 32 = 0 by omega), dif_neg (show ¬t.val % 4 = 0 by omega), dif_pos (show t.val % 4 = 3 by omega), dif_pos h3]

set_option maxHeartbeats 4800000 in
/-- The body at any point: the inputs' buffers hold their blocks; the point's position says which kind it is; the
    invariant hands the body the accumulators at what the point before left and takes them back at this point's
    contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, Phi_castSucc]
  by_cases h0 : t.val % 32 = 0
  · rw [leaves_out_idle m c t (by omega), outsAt_eq m c t, stepAt_A m c t _ _ h0]
    unfold sYA sOA; dsimp only
    iintro ⟨HΦ, Ho, ⟨%d0, H0⟩, ⟨%d1, H1⟩, ⟨%d2, H2⟩, ⟨%d3, H3⟩, ⟨%d4, H4⟩, ⟨%d5, H5⟩⟩
    ihave HΦ' := (PhiS_weak m c _ _) $$ HΦ
    icases HΦ' with ⟨HY, HO⟩
    iapply ((rA m c t h0).2.2 Set.univ _)
    isplitl [H0]; · iexact H0
    isplitl [H1]; · iexact H1
    isplitl [H2]; · iexact H2
    isplitl [H3]; · iexact H3
    isplitl [HY]; · iexact HY
    isplitl [HO]; · iexact HO
    iintro ⟨H0, H1, H2, H3, ⟨%eY, HY⟩, ⟨%eO, HO⟩⟩
    isplitl [HY HO]
    · isplitl [HY]
      · unfold owns; iexists _; isplitr
        swap; · iexact HY
        ipureintro; exact View.read_writes_of_cover _ _ _ _ _ (covYA m c t h0)
      · unfold owns; iexists _; isplitr
        swap; · iexact HO
        ipureintro; exact View.read_writes_of_cover _ _ _ _ _ (covOA m c t h0)
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 4 = 0
    · have hz : t.val ≠ 0 := by omega
      rw [leaves_out_idle m c t (by omega), outsAt_eq m c t, stepAt_B m c t _ _ h0 h1, PhiS_at m c t hz]
      unfold sYB; dsimp only
      iintro ⟨⟨HY, HO⟩, Ho, ⟨%d0, H0⟩, ⟨%d1, H1⟩, ⟨%d2, H2⟩, ⟨%d3, H3⟩, ⟨%d4, H4⟩, ⟨%d5, H5⟩⟩
      iapply ((rB m c t h0 h1).2 Set.univ _)
      isplitl [H0]; · iexact H0
      isplitl [H1]; · iexact H1
      isplitl [H2]; · iexact H2
      isplitl [H3]; · iexact H3
      isplitl [HY]; · iexists _; iexact HY
      iintro ⟨H0, H1, H2, H3, ⟨%eY, HY⟩⟩
      isplitl [HY HO]
      · isplitl [HY]
        · unfold owns; iexists _; isplitr
          swap; · iexact HY
          ipureintro; exact View.read_writes_of_cover _ _ _ _ _ (covYB m c t h0 h1)
        · iexact HO
      isplitl [Ho]; · iexact Ho
      isplitl [H0]; · iexact H0
      isplitl [H1]; · iexact H1
      isplitl [H2]; · iexact H2
      isplitl [H3]; · iexact H3
      isplitl [H4]; · iexact H4
      iexists _; iexact H5
    · have hz : t.val ≠ 0 := by omega
      rw [PhiS_at m c t hz]
      by_cases h2 : t.val % 4 = 3
      · by_cases h3 : t.val % 32 = 31
        · rw [leaves_out_live m c t h3, outsAt_eq m c t, stepAt_E m c t _ _ h3]
          unfold o5E sYE sOE; dsimp only
          iintro ⟨⟨HY, HO⟩, Ho, ⟨%d0, H0⟩, ⟨%d1, H1⟩, ⟨%d2, H2⟩, ⟨%d3, H3⟩, ⟨%d4, H4⟩, ⟨%d5, H5⟩⟩
          iapply ((rE m c t h3 (prevY m c t) (prevO m c t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HY]; · iexact HY
          isplitl [HO]; · iexact HO
          iintro ⟨H0, H1, H2, H3, H4, ⟨%e5, H5⟩, ⟨%eY, HY⟩, ⟨%eO, HO⟩⟩
          isplitl [HY HO]
          · isplitl [HY]
            · unfold owns; iexists _; isplitr
              swap; · iexact HY
              ipureintro; exact View.read_writes_of_cover _ _ _ _ _ (covYE m c t h3 _ _)
            · unfold owns; iexists _; isplitr
              swap; · iexact HO
              ipureintro; exact View.read_writes_of_cover _ _ _ _ _ (covOE m c t h3 _ _)
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cov5E m c t h3 _ _)
        · rw [leaves_out_idle m c t h3, outsAt_eq m c t, stepAt_D m c t _ _ h2 h3]
          unfold sYD sOD; dsimp only
          iintro ⟨⟨HY, HO⟩, Ho, ⟨%d0, H0⟩, ⟨%d1, H1⟩, ⟨%d2, H2⟩, ⟨%d3, H3⟩, ⟨%d4, H4⟩, ⟨%d5, H5⟩⟩
          iapply ((rD m c t h2 h3 (prevY m c t) (prevO m c t)).2.2 Set.univ _)
          isplitl [H0]; · iexact H0
          isplitl [H1]; · iexact H1
          isplitl [H2]; · iexact H2
          isplitl [H3]; · iexact H3
          isplitl [H4]; · iexact H4
          isplitl [HY]; · iexact HY
          isplitl [HO]; · iexact HO
          iintro ⟨H0, H1, H2, H3, H4, ⟨%eY, HY⟩, ⟨%eO, HO⟩⟩
          isplitl [HY HO]
          · isplitl [HY]
            · unfold owns; iexists _; isplitr
              swap; · iexact HY
              ipureintro; exact View.read_writes_of_cover _ _ _ _ _ (covYD m c t h2 h3 _ _)
            · unfold owns; iexists _; isplitr
              swap; · iexact HO
              ipureintro; exact View.read_writes_of_cover _ _ _ _ _ (covOD m c t h2 h3 _ _)
          isplitl [Ho]; · iexact Ho
          isplitl [H0]; · iexact H0
          isplitl [H1]; · iexact H1
          isplitl [H2]; · iexact H2
          isplitl [H3]; · iexact H3
          isplitl [H4]; · iexact H4
          iexists _; iexact H5
      · rw [leaves_out_idle m c t (by omega), outsAt_eq m c t, stepAt_C m c t _ _ h1 h2]
        unfold sYC; dsimp only
        iintro ⟨⟨HY, HO⟩, Ho, ⟨%d0, H0⟩, ⟨%d1, H1⟩, ⟨%d2, H2⟩, ⟨%d3, H3⟩, ⟨%d4, H4⟩, ⟨%d5, H5⟩⟩
        iapply ((rC m c t h1 h2 (prevY m c t)).2 Set.univ _)
        isplitl [H0]; · iexact H0
        isplitl [H1]; · iexact H1
        isplitl [H2]; · iexact H2
        isplitl [H3]; · iexact H3
        isplitl [HY]; · iexact HY
        iintro ⟨H0, H1, H2, H3, ⟨%eY, HY⟩⟩
        isplitl [HY HO]
        · isplitl [HY]
          · unfold owns; iexists _; isplitr
            swap; · iexact HY
            ipureintro; exact View.read_writes_of_cover _ _ _ _ _ (covYC m c t h1 h2 _)
          · iexact HO
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The buffers behind the windows' arrays: the tokens, the first weight (behind two windows), the second weight,
    the routing-weight table, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v13) ↦{fullShare} W main_v13)
          ∗ (((c : Thread nD τ).loc main_v14) ↦{fullShare} W main_v14)) := by
  unfold Pipeline.arrBufs
  exact bigSep_eq_bigSepL_of_eq [main_arg0, main_arg1, main_arg2, main_v13, main_v14] (by decide) (by decide) _

/-- The arrays at entry from the buffers behind them: the first weight's buffer is split into its two half
    shares, one for the gate-rows window and one for the up-rows window. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq]
  unfold Dat.arrays
  rw [bigSep_W0]
  rw [(arr_whole0 0).set_eq_univ, (arr_whole0 1).set_eq_univ, (arr_whole0 3).set_eq_univ,
    (arr_whole0 4).set_eq_univ, (arr_whole0 5).set_eq_univ]
  iintro ⟨H0, H1, H2, H3, H4⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H2]; · iexact H2
  isplitl [H3]; · iexact H3
  iexact H4

/-- What the launch hands the call's invariant: the two accumulators at anything. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, scoped_eq]
  iintro ⟨-, H⟩; iexact H

/-- After the last point the accumulators' named contents are forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl, scoped_eq]
  iintro H
  isplitr; · iempintro
  iapply (PhiS_weak m c _ _); iexact H

set_option backward.isDefEq.respectTransparency.types false in
/-- From any memory with zero counters, every weakly fair execution of @main terminates, and in every final state each
    array of the call holds what the proof data compute (an input its entry contents, the result the output blocks
    written back) and every other unscoped buffer what it held when the call was entered. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the argument arrays end as they were launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Fr

end
-- ==== Proof.KI.Blocks.lean ====
/-
  The windows' blocks read at an index.  Point t of the grid has row tile t / 32, expert (t / 4) % 8 and chunk
  t % 4.  At that point the tokens' block is rows tile·512 … of the tokens; the gate-rows block is rows
  chunk·512 … of the expert's first weight and the up-rows block rows 2048 + chunk·512 …; the second weight's
  block is columns chunk·512 … of the expert's second weight; the routing-weight block is rows tile·512 … of
  the expert's row of the table.
-/
import proofs.«420278_j20899310863256_3_alg».proof.Proof.KI.Entry
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

theorem N_lt (t : Fin cfg0.N) : t.val < 64 := lt_of_lt_of_eq t.isLt (show cfg0.N = 64 from N_0)

/-- The expert of point `t`. -/
def expOf (t : Fin cfg0.N) : Fin 8 := ⟨(t.val / 4) % 8, Nat.mod_lt _ (by norm_num)⟩
/-- The chunk of point `t`. -/
def chunkOf (t : Fin cfg0.N) : Fin 4 := ⟨t.val % 4, Nat.mod_lt _ (by norm_num)⟩
/-- Row `r` of point `t`'s row tile, as a token. -/
def rowOf (t : Fin cfg0.N) (r : Fin 512) : Fin 1024 := ⟨(t.val / 32) * 512 + r.val, by have := N_lt t; omega⟩
/-- Row `i` of point `t`'s chunk, as a gate row of the first weight, -/
def gateOf (t : Fin cfg0.N) (i : Fin 512) : Fin 4096 := ⟨(t.val % 4) * 512 + i.val, by omega⟩
/-- as an up row of the first weight, -/
def upOf (t : Fin cfg0.N) (i : Fin 512) : Fin 4096 := ⟨2048 + (t.val % 4) * 512 + i.val, by omega⟩
/-- and as an activation column of the second weight. -/
def colOf (t : Fin cfg0.N) (i : Fin 512) : Fin 2048 := ⟨(t.val % 4) * 512 + i.val, by omega⟩

/-- The arrays the windows read, typed by their literal shapes. -/
abbrev arrA (c : Dev nD) : Vec F S1024x1024 .f32 := V m c main_arg0
abbrev arrW1 (c : Dev nD) : Vec F S8x4096x1024 .f32 := V m c main_arg1
abbrev arrW2 (c : Dev nD) : Vec F S8x1024x2048 .f32 := V m c main_arg2
abbrev arrWt (c : Dev nD) : Vec F S8x1024x1 .f32 := V m c main_v13
/-- The blocks at a point, typed by their literal shapes. -/
abbrev blkA (c : Dev nD) (t : Fin cfg0.N) : Vec F S512x1024 .f32 := iblk m c 0 t
abbrev blkG (c : Dev nD) (t : Fin cfg0.N) : Vec F S1x512x1024 .f32 := iblk m c 1 t
abbrev blkU (c : Dev nD) (t : Fin cfg0.N) : Vec F S1x512x1024 .f32 := iblk m c 2 t
abbrev blkW2 (c : Dev nD) (t : Fin cfg0.N) : Vec F S1x1024x512 .f32 := iblk m c 3 t
abbrev blkWt (c : Dev nD) (t : Fin cfg0.N) : Vec F S1x512x1 .f32 := iblk m c 4 t

/-- The windows' index maps, decided once over the grid. -/
theorem idx0 : ∀ t : Fin cfg0.N, win0_0.index t (0 : Fin 2) = t.val / 32 ∧ win0_0.index t (1 : Fin 2) = 0 :=
  (by decide +kernel : ∀ t : Fin grid0.N, _)
theorem idx1 : ∀ t : Fin cfg0.N, win0_1.index t (0 : Fin 3) = (t.val / 4) % 8 ∧ win0_1.index t (1 : Fin 3) = t.val % 4
    ∧ win0_1.index t (2 : Fin 3) = 0 :=
  (by decide +kernel : ∀ t : Fin grid0.N, _)
theorem idx2 : ∀ t : Fin cfg0.N, win0_2.index t (0 : Fin 3) = (t.val / 4) % 8 ∧ win0_2.index t (1 : Fin 3) = 4 + t.val % 4
    ∧ win0_2.index t (2 : Fin 3) = 0 :=
  (by decide +kernel : ∀ t : Fin grid0.N, _)
theorem idx3 : ∀ t : Fin cfg0.N, win0_3.index t (0 : Fin 3) = (t.val / 4) % 8 ∧ win0_3.index t (1 : Fin 3) = 0
    ∧ win0_3.index t (2 : Fin 3) = t.val % 4 :=
  (by decide +kernel : ∀ t : Fin grid0.N, _)
theorem idx4 : ∀ t : Fin cfg0.N, win0_4.index t (0 : Fin 3) = (t.val / 4) % 8 ∧ win0_4.index t (1 : Fin 3) = t.val / 32
    ∧ win0_4.index t (2 : Fin 3) = 0 :=
  (by decide +kernel : ∀ t : Fin grid0.N, _)

theorem blkA_apply (c : Dev nD) (t : Fin cfg0.N) (r : Fin 512) (k : Fin 1024) :
    blkA m c t (ix2 r k) = arrA m c (ix2 (rowOf t r) k) := by
  obtain ⟨e0, e1⟩ := idx0 t
  show V m c main_arg0 (((cfg0.win 0).blk t).view.emb (ix2 r k)) = V m c main_arg0 (ix2 (rowOf t r) k)
  congr 1
  funext a; apply Fin.ext
  match a with
  | ⟨0, _⟩ => show win0_0.index t (0 : Fin 2) * 512 + 1 * r.val = (t.val / 32) * 512 + r.val; omega
  | ⟨1, _⟩ => show win0_0.index t (1 : Fin 2) * 1024 + 1 * k.val = k.val; omega
theorem blkG_apply (c : Dev nD) (t : Fin cfg0.N) (i : Fin 512) (k : Fin 1024) :
    blkG m c t (ix3 0 i k) = arrW1 m c (ix3 (expOf t) (gateOf t i) k) := by
  obtain ⟨e0, e1, e2⟩ := idx1 t
  show V m c main_arg1 (((cfg0.win 1).blk t).view.emb (ix3 0 i k)) = V m c main_arg1 (ix3 (expOf t) (gateOf t i) k)
  congr 1
  funext a; apply Fin.ext
  match a with
  | ⟨0, _⟩ => show win0_1.index t (0 : Fin 3) * 1 + 1 * 0 = (t.val / 4) % 8; omega
  | ⟨1, _⟩ => show win0_1.index t (1 : Fin 3) * 512 + 1 * i.val = (t.val % 4) * 512 + i.val; omega
  | ⟨2, _⟩ => show win0_1.index t (2 : Fin 3) * 1024 + 1 * k.val = k.val; omega
theorem blkU_apply (c : Dev nD) (t : Fin cfg0.N) (i : Fin 512) (k : Fin 1024) :
    blkU m c t (ix3 0 i k) = arrW1 m c (ix3 (expOf t) (upOf t i) k) := by
  obtain ⟨e0, e1, e2⟩ := idx2 t
  show V m c main_arg1 (((cfg0.win 2).blk t).view.emb (ix3 0 i k)) = V m c main_arg1 (ix3 (expOf t) (upOf t i) k)
  congr 1
  funext a; apply Fin.ext
  match a with
  | ⟨0, _⟩ => show win0_2.index t (0 : Fin 3) * 1 + 1 * 0 = (t.val / 4) % 8; omega
  | ⟨1, _⟩ => show win0_2.index t (1 : Fin 3) * 512 + 1 * i.val = 2048 + (t.val % 4) * 512 + i.val; omega
  | ⟨2, _⟩ => show win0_2.index t (2 : Fin 3) * 1024 + 1 * k.val = k.val; omega
theorem blkW2_apply (c : Dev nD) (t : Fin cfg0.N) (k : Fin 1024) (i : Fin 512) :
    blkW2 m c t (ix3 0 k i) = arrW2 m c (ix3 (expOf t) k (colOf t i)) := by
  obtain ⟨e0, e1, e2⟩ := idx3 t
  show V m c main_arg2 (((cfg0.win 3).blk t).view.emb (ix3 0 k i)) = V m c main_arg2 (ix3 (expOf t) k (colOf t i))
  congr 1
  funext a; apply Fin.ext
  match a with
  | ⟨0, _⟩ => show win0_3.index t (0 : Fin 3) * 1 + 1 * 0 = (t.val / 4) % 8; omega
  | ⟨1, _⟩ => show win0_3.index t (1 : Fin 3) * 1024 + 1 * k.val = k.val; omega
  | ⟨2, _⟩ => show win0_3.index t (2 : Fin 3) * 512 + 1 * i.val = (t.val % 4) * 512 + i.val; omega
theorem blkWt_apply (c : Dev nD) (t : Fin cfg0.N) (r : Fin 512) :
    blkWt m c t (ix3 0 r 0) = arrWt m c (ix3 (expOf t) (rowOf t r) 0) := by
  obtain ⟨e0, e1, e2⟩ := idx4 t
  show V m c main_v13 (((cfg0.win 4).blk t).view.emb (ix3 0 r 0)) = V m c main_v13 (ix3 (expOf t) (rowOf t r) 0)
  congr 1
  funext a; apply Fin.ext
  match a with
  | ⟨0, _⟩ => show win0_4.index t (0 : Fin 3) * 1 + 1 * 0 = (t.val / 4) % 8; omega
  | ⟨1, _⟩ => show win0_4.index t (1 : Fin 3) * 512 + 1 * r.val = (t.val / 32) * 512 + r.val; omega
  | ⟨2, _⟩ => show win0_4.index t (2 : Fin 3) * 1 + 1 * 0 = 0; omega

end Cert.KernelIdeal.Fr

end
-- ==== Proof.KI.Pieces.lean ====
/-
  What each kind of point leaves in the accumulators and the output block, as the body's pure payloads of the
  point's input blocks and of the accumulators the point found: the pieces the runs found, read back.
-/
import proofs.«420278_j20899310863256_3_alg».proof.Proof.KI.Frame
import proofs.«420278_j20899310863256_3_alg».proof.Proof.KI.Blocks
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The chunk's contribution added onto an accumulator `acc`, at point `t`. -/
abbrev addChunk (c : Dev nD) (t : Fin cfg0.N) (acc : Vec F S512x1024 .f32) : Vec F S512x1024 .f32 :=
  k0_pay4 (blkA m c t) (blkG m c t) (blkU m c t) (blkW2 m c t) acc

/-- The zero offsets of a whole-buffer rectangle, of rank two and of rank three. -/
theorem pieces_off2 : (![0, 0] : Fin 2 → Nat) = fun _ => 0 := funext fun a => by fin_cases a <;> rfl
theorem pieces_off3 : (![0, 0, 0] : Fin 3 → Nat) = fun _ => 0 := funext fun a => by fin_cases a <;> rfl

/-- First point of a row tile: the expert accumulator is cleared and the cleared contents, read back, take the chunk;
    the later of the two whole-buffer stores is what is left. -/
theorem sYA_eq (c : Dev nD) (t : Fin cfg0.N) (h0 : t.val % 32 = 0) : sYA m c t h0 = addChunk m c t (k0_pay3 (F := F)) := by
  unfold sYA rd
  rw [View.read_writes_eq_canon _ _ _ (covYA m c t h0)]
  unfold rA runA
  dsimp only
  sl_unfold_words
  rw [View.canon_cons_unit_zero (S := S512x1024) pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]
/-- and the output accumulator is left cleared. -/
theorem sOA_eq (c : Dev nD) (t : Fin cfg0.N) (h0 : t.val % 32 = 0) : sOA m c t h0 = k0_pay2 (F := F) := by
  unfold sOA rd
  rw [View.read_writes_eq_canon _ _ _ (covOA m c t h0)]
  unfold rA runA
  dsimp only
  sl_unfold_words
  rw [View.canon_unit_zero pieces_off2]
/-- First chunk of a later expert: the same for the expert accumulator. -/
theorem sYB_eq (c : Dev nD) (t : Fin cfg0.N) (h0 : ¬t.val % 32 = 0) (h1 : t.val % 4 = 0) : sYB m c t h0 h1 = addChunk m c t (k0_pay3 (F := F)) := by
  unfold sYB rd
  rw [View.read_writes_eq_canon _ _ _ (covYB m c t h0 h1)]
  unfold rB runB
  dsimp only
  sl_unfold_words
  rw [View.canon_cons_unit_zero (S := S512x1024) pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]
/-- A middle chunk: one whole-buffer store, the chunk added onto what the accumulator held. -/
theorem sYC_eq (c : Dev nD) (t : Fin cfg0.N) (h1 : ¬t.val % 4 = 0) (h2 : ¬t.val % 4 = 3) (xY : Vec F S512x1024 .f32) :
    sYC m c t h1 h2 xY = addChunk m c t xY := by
  unfold sYC rd
  rw [View.read_writes_eq_canon _ _ _ (covYC m c t h1 h2 xY)]
  unfold rC runC
  dsimp only
  sl_unfold_words
  rw [View.canon_unit_zero pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]
/-- The last chunk of an expert: the chunk is added, -/
theorem sYD_eq (c : Dev nD) (t : Fin cfg0.N) (h2 : t.val % 4 = 3) (h3 : ¬t.val % 32 = 31) (xY xO : Vec F S512x1024 .f32) :
    sYD m c t h2 h3 xY xO = addChunk m c t xY := by
  unfold sYD rd
  rw [View.read_writes_eq_canon _ _ _ (covYD m c t h2 h3 xY xO)]
  unfold rD runD
  dsimp only
  sl_unfold_words
  rw [View.canon_unit_zero pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]
/-- and the finished expert accumulator, weighted, is folded into the output accumulator. -/
theorem sOD_eq (c : Dev nD) (t : Fin cfg0.N) (h2 : t.val % 4 = 3) (h3 : ¬t.val % 32 = 31) (xY xO : Vec F S512x1024 .f32) :
    sOD m c t h2 h3 xY xO = k0_pay1 (blkWt m c t) xO (addChunk m c t xY) := by
  unfold sOD rd
  rw [View.read_writes_eq_canon _ _ _ (covOD m c t h2 h3 xY xO)]
  unfold rD runD
  dsimp only
  sl_unfold_words
  rw [View.canon_unit_zero pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]
/-- The last point of a row tile: as at any last chunk, -/
theorem sYE_eq (c : Dev nD) (t : Fin cfg0.N) (h3 : t.val % 32 = 31) (xY xO : Vec F S512x1024 .f32) :
    sYE m c t h3 xY xO = addChunk m c t xY := by
  unfold sYE rd
  rw [View.read_writes_eq_canon _ _ _ (covYE m c t h3 xY xO)]
  unfold rE runE
  dsimp only
  sl_unfold_words
  rw [View.canon_unit_zero pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]
theorem sOE_eq (c : Dev nD) (t : Fin cfg0.N) (h3 : t.val % 32 = 31) (xY xO : Vec F S512x1024 .f32) :
    sOE m c t h3 xY xO = k0_pay1 (blkWt m c t) xO (addChunk m c t xY) := by
  unfold sOE rd
  rw [View.read_writes_eq_canon _ _ _ (covOE m c t h3 xY xO)]
  unfold rE runE
  dsimp only
  sl_unfold_words
  rw [View.canon_unit_zero pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]
/-- and the output block takes the output accumulator as just left. -/
theorem o5E_eq (c : Dev nD) (t : Fin cfg0.N) (h3 : t.val % 32 = 31) (xY xO : Vec F S512x1024 .f32) :
    o5E m c t h3 xY xO = k0_pay1 (blkWt m c t) xO (addChunk m c t xY) := by
  unfold o5E rd
  rw [View.read_writes_eq_canon _ _ _ (cov5E m c t h3 xY xO)]
  unfold rE runE
  dsimp only
  sl_unfold_words
  rw [View.canon_unit_zero pieces_off2]
  simp only [View.readAt_eq_ld, (hs0 t).read_unread, (hs1 t).read_unread, (hs2 t).read_unread, (hs3 t).read_unread,
    (hs4 t).read_unread, (Memref.isWhole_whole _).read_unread, View.ld_unit_zero (S := S512x1024) pieces_off2,
    View.ld_unit_zero (S := S1x512x1024) pieces_off3, View.ld_unit_zero (S := S1x1024x512) pieces_off3,
    View.ld_unit_zero (S := S1x512x1) pieces_off3, View.readCov_unit_zero (S := S512x1024) _ pieces_off2]

end Cert.KernelIdeal.Fr

end
-- ==== Proof.Payload.lean ====
import proofs.«420278_j20899310863256_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

/-! # The kernel body's payloads read at an index, at the ideal values

Each payload is a pure function of the blocks the body loads. Read at the output index `(r, k)`:
the partial product is the accumulator plus `∑ i, ((g i * logistic (g i)) * u i) * x3 (k, i)` with
`g i = ∑ k', x0 (r, k') * x1 (i, k')` and `u i = ∑ k', x0 (r, k') * x2 (i, k')`; the weighted accumulation is
`accO (r, k) + accY (r, k) * we r`; the two remaining payloads are the zero splat. -/

namespace Cert.KernelIdeal.Payload

open Cert.KernelIdeal Cert.KernelIdeal.Gen Idealize.ShloMosaic Idealize.SL.Sem Idealize.ShloMosaic.ValueIdx
open scoped BigOperators

/-! ## The two products' operand indices

Both products contract axis 1 of the left operand with axis 1 of the right one: at output index `(r, c)` and contraction
position `q` the left operand is read at `(r, q)` and the right operand at `(c, q)`. -/

theorem lhs_up_0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_up_1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q
theorem rhs_up_0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_up_1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

theorem lhs_down_0 (j : S512x1024.Idx) (q : dot_S512x512_S1024x512_S512x1024_1_1_0_0_n_n.contr.Idx) :
    (dot_S512x512_S1024x512_S512x1024_1_1_0_0_n_n.lhsIdx j q 0).val = (j 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_down_1 (j : S512x1024.Idx) (q : dot_S512x512_S1024x512_S512x1024_1_1_0_0_n_n.contr.Idx) :
    (dot_S512x512_S1024x512_S512x1024_1_1_0_0_n_n.lhsIdx j q 1).val = (q ⟨0, by decide⟩).val :=
  dot_S512x512_S1024x512_S512x1024_1_1_0_0_n_n.lhsIdx_val_of_single rfl j q
theorem rhs_down_0 (j : S512x1024.Idx) (q : dot_S512x512_S1024x512_S512x1024_1_1_0_0_n_n.contr.Idx) :
    (dot_S512x512_S1024x512_S512x1024_1_1_0_0_n_n.rhsIdx j q 0).val = (j 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_down_1 (j : S512x1024.Idx) (q : dot_S512x512_S1024x512_S512x1024_1_1_0_0_n_n.contr.Idx) :
    (dot_S512x512_S1024x512_S512x1024_1_1_0_0_n_n.rhsIdx j q 1).val = (q ⟨0, by decide⟩).val :=
  dot_S512x512_S1024x512_S512x1024_1_1_0_0_n_n.rhsIdx_val_of_single rfl j q

/-! ## The two products at an index -/

/-- A `[512, 1024]` by `[512, 1024]` product over the shared axis 1, into the zero splat: entry `(r, c)` is `∑ k', a (r, k') * b (c, k')`. -/
theorem matmul_up_apply (a : FVec Ideal S512x1024 .bf16) (b : FVec Ideal S512x1024 .bf16) (r : Fin 512) (c : Fin 512) :
    matmul (F := Ideal) dot_S512x1024_S512x1024_S512x512_1_1_0_0_n_n none a b (constant (F := Ideal) S512x512 .f32 0x00000000#32) (ix2 r c)
      = ∑ k' : Fin 1024, a (ix2 r k') * b (ix2 c k') := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r c) ((contrEquiv1 dot_S512x1024_S512x1024_S512x512_1_1_0_0_n_n 1024 rfl rfl).symm k) = ix2 r k := funext fun a => Fin.ext (by
    match a with
    | ⟨0, _⟩ => exact lhs_up_0 _ _
    | ⟨1, _⟩ => exact (lhs_up_1 _ _).trans hk)
  have er : dot_S512x1024_S512x1024_S512x512_1_1_0_0_n_n.rhsIdx (ix2 r c) ((contrEquiv1 dot_S512x1024_S512x1024_S512x512_1_1_0_0_n_n 1024 rfl rfl).symm k) = ix2 c k := funext fun a => Fin.ext (by
    match a with
    | ⟨0, _⟩ => exact rhs_up_0 _ _
    | ⟨1, _⟩ => exact (rhs_up_1 _ _).trans hk)
  rw [el, er]

/-- A `[512, 512]` by `[1024, 512]` product over the shared axis 1, into the zero splat: entry `(r, c)` is `∑ k', a (r, k') * b (c, k')`. -/
theorem matmul_down_apply (a : FVec Ideal S512x512 .bf16) (b : FVec Ideal S1024x512 .bf16) (r : Fin 512) (c : Fin 1024) :
    matmul (F := Ideal) dot_S512x512_S1024x512_S512x1024_1_1_0_0_n_n none a b (constant (F := Ideal) S512x1024 .f32 0x00000000#32) (ix2 r c)
      = ∑ k' : Fin 512, a (ix2 r k') * b (ix2 c k') := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 r c) ((contrEquiv1 dot_S512x512_S1024x512_S512x1024_1_1_0_0_n_n 512 rfl rfl).symm k) = ix2 r k := funext fun a => Fin.ext (by
    match a with
    | ⟨0, _⟩ => exact lhs_down_0 _ _
    | ⟨1, _⟩ => exact (lhs_down_1 _ _).trans hk)
  have er : dot_S512x512_S1024x512_S512x1024_1_1_0_0_n_n.rhsIdx (ix2 r c) ((contrEquiv1 dot_S512x512_S1024x512_S512x1024_1_1_0_0_n_n 512 rfl rfl).symm k) = ix2 c k := funext fun a => Fin.ext (by
    match a with
    | ⟨0, _⟩ => exact rhs_down_0 _ _
    | ⟨1, _⟩ => exact (rhs_down_1 _ _).trans hk)
  rw [el, er]

/-! ## A logistic and a column broadcast at an index -/

/-- The logistic of a vector, at an index, is the ideal logistic of the element. -/
theorem logistic_apply {s : Shape} {φ : FTy} (a : FVec Ideal s φ) (i : s.Idx) : logistic a i = Ideal.logistic (a i) := rfl

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The block's partial result: the accumulator plus, over the block's 512 hidden units `i`, the gated activation
`(g * logistic g) * u` of token `r` (`g`, `u` its products with gate row `i` and up row `i`) times the second weight at `(k, i)`. -/
theorem pay4_apply (x0 : Vec Ideal S512x1024 .f32) (x1 x2 : Vec Ideal S1x512x1024 .f32) (x3 : Vec Ideal S1x1024x512 .f32)
    (acc : Vec Ideal S512x1024 .f32) (r : Fin 512) (k : Fin 1024) :
    Cert.KernelIdeal.Gen.k0_pay4 (F := Ideal) x0 x1 x2 x3 acc (ix2 r k)
      = acc (ix2 r k) + ∑ i : Fin 512,
          (((∑ k' : Fin 1024, x0 (ix2 r k') * x1 (ix3 0 i k')) * Ideal.logistic (∑ k' : Fin 1024, x0 (ix2 r k') * x1 (ix3 0 i k')))
            * (∑ k' : Fin 1024, x0 (ix2 r k') * x2 (ix3 0 i k'))) * x3 (ix3 0 k i) := by
  simp only [Gen.k0_pay4]
  rw [shapeCast_self, addf_apply, matmul_down_apply]
  simp only [truncf_apply, mulf_apply, logistic_apply, matmul_up_apply, shapeCast_1ab_ab_apply]

/-- The weighted accumulation: the output accumulator plus the expert's result scaled by the token's weight. -/
theorem pay1_apply (we : Vec Ideal S1x512x1 .f32) (accO accY : Vec Ideal S512x1024 .f32) (r : Fin 512) (k : Fin 1024) :
    Cert.KernelIdeal.Gen.k0_pay1 (F := Ideal) we accO accY (ix2 r k) = accO (ix2 r k) + accY (ix2 r k) * we (ix3 0 r 0) := by
  simp only [Gen.k0_pay1]
  rw [shapeCast_self, addf_apply, mulf_apply, broadcastTo_a1_ab_apply, shapeCast_1ab_ab_apply]

/-- The zero splat. -/
theorem pay2_apply (j : S512x1024.Idx) : Cert.KernelIdeal.Gen.k0_pay2 (F := Ideal) j = 0 := by
  simp only [Gen.k0_pay2]
  rw [shapeCast_self, broadcast_apply]
  exact Ideal.ofBits_zero_f32

/-- The zero splat. -/
theorem pay3_apply (j : S512x1024.Idx) : Cert.KernelIdeal.Gen.k0_pay3 (F := Ideal) j = 0 := by
  simp only [Gen.k0_pay3]
  rw [shapeCast_self, broadcast_apply]
  exact Ideal.ofBits_zero_f32

end Cert.KernelIdeal.Payload

end
-- ==== Proof.Spec.lean ====
/-
  A dense mixture-of-experts layer over the extended reals, as plain finite sums.

  Tokens `m < 1024` with hidden width 1024, eight experts `e`.  Expert `e` projects token `m` onto the
  4096 rows of its first weight (`proj`); rows `i < 2048` are the gate, rows `2048 + i` the up projection;
  the activation is `silu(gate) · up` with `silu x = x · 1/(1 + e^(-x))` (`act`); the second weight contracts
  the 2048 activations back to the hidden width (`yE`).  A token's result is the sum over its two routed
  experts `ids m t` of that expert's output weighted by `tw m t` (`G`).

  The same numbers arranged the way a tiled accumulation meets them: the contraction over the 2048
  activations in four chunks of 512 added left to right onto zero (`part`, `accY`, `yK`), and the combine as
  a sum over ALL eight experts of `yK e · wt e m` added left to right onto zero (`accO`, `outK`), where
  `wt e m` is the total routing weight token `m` gives expert `e` (`wtS`).
-/
import Idealize.ShloMosaic.PureOps.Ideal
import Idealize.ShloMosaic.Lib.ValueIdx

noncomputable section

open scoped BigOperators

namespace Cert.MoeSpec

open Idealize.ShloMosaic Idealize.ShloMosaic.ValueIdx

/-- tokens × hidden -/
abbrev SA : Shape := ⟨2, ![1024, 1024]⟩
/-- experts × (gate rows, then up rows) × hidden -/
abbrev SW1 : Shape := ⟨3, ![8, 4096, 1024]⟩
/-- experts × hidden × activations -/
abbrev SW2 : Shape := ⟨3, ![8, 1024, 2048]⟩
/-- tokens × routed slots -/
abbrev ST : Shape := ⟨2, ![1024, 2]⟩

variable (a : SA.Idx → EReal) (w1 : SW1.Idx → EReal) (w2 : SW2.Idx → EReal) (tw : ST.Idx → EReal)
  (ids : ST.Idx → BitVec 32)

/-- Token `m` against row `n` of expert `e`'s first weight. -/
def proj (e : Fin 8) (m : Fin 1024) (n : Fin 4096) : EReal := ∑ k : Fin 1024, a (ix2 m k) * w1 (ix3 e n k)

/-- Gate row `i` of the first weight. -/
abbrev gateRow (i : Fin 2048) : Fin 4096 := ⟨i.val, by omega⟩
/-- Up row `i` of the first weight. -/
abbrev upRow (i : Fin 2048) : Fin 4096 := ⟨2048 + i.val, by omega⟩

/-- `silu(gate) · up`, with `silu x = x · logistic x`. -/
def act (e : Fin 8) (m : Fin 1024) (i : Fin 2048) : EReal :=
  (proj a w1 e m (gateRow i) * Ideal.logistic (proj a w1 e m (gateRow i))) * proj a w1 e m (upRow i)

/-- Expert `e`'s output for token `m` at hidden column `k`. -/
def yE (e : Fin 8) (m : Fin 1024) (k : Fin 1024) : EReal := ∑ i : Fin 2048, act a w1 e m i * w2 (ix3 e k i)

/-- The expert slot `t` of token `m` routes to (the word read unsigned, reduced into range). -/
def expert (m : Fin 1024) (t : Fin 2) : Fin 8 := ⟨(ids (ix2 m t)).toNat % 8, Nat.mod_lt _ (by norm_num)⟩

/-- The layer: each token's two routed expert outputs, weighted and added. -/
def G : SA.Idx → EReal := fun j => ∑ t : Fin 2, yE a w1 w2 (expert ids (j 0) t) (j 0) (j 1) * tw (ix2 (j 0) t)

/-! ## The tiled arrangement -/

/-- Activation `i` of chunk `c` (four chunks of 512). -/
abbrev chunkAt (c : Fin 4) (i : Fin 512) : Fin 2048 := ⟨c.val * 512 + i.val, by omega⟩

/-- Chunk `c`'s share of the contraction over the activations. -/
def part (e : Fin 8) (m : Fin 1024) (k : Fin 1024) (c : Fin 4) : EReal :=
  ∑ i : Fin 512, act a w1 e m (chunkAt c i) * w2 (ix3 e k (chunkAt c i))

/-- `part` at a natural chunk number (zero past the last chunk). -/
def partN (e : Fin 8) (m : Fin 1024) (k : Fin 1024) (c : ℕ) : EReal :=
  if h : c < 4 then part a w1 w2 e m k ⟨c, h⟩ else 0

/-- The first `n` chunks added left to right onto zero. -/
def accY (e : Fin 8) (m : Fin 1024) (k : Fin 1024) : ℕ → EReal
  | 0 => 0
  | n + 1 => accY e m k n + partN a w1 w2 e m k n

/-- All four chunks. -/
def yK (e : Fin 8) (m : Fin 1024) (k : Fin 1024) : EReal := accY a w1 w2 e m k 4

/-- Expert `e`'s weighted term of the combine at a natural expert number (zero past the last expert). -/
def termN (wt : Fin 8 → Fin 1024 → EReal) (m : Fin 1024) (k : Fin 1024) (e : ℕ) : EReal :=
  if h : e < 8 then yK a w1 w2 ⟨e, h⟩ m k * wt ⟨e, h⟩ m else 0

/-- The first `n` experts' terms added left to right onto zero. -/
def accO (wt : Fin 8 → Fin 1024 → EReal) (m : Fin 1024) (k : Fin 1024) : ℕ → EReal
  | 0 => 0
  | n + 1 => accO wt m k n + termN a w1 w2 wt m k n

/-- The combine over all eight experts. -/
def outK (wt : Fin 8 → Fin 1024 → EReal) : SA.Idx → EReal := fun j => accO a w1 w2 wt (j 0) (j 1) 8

/-- The total routing weight token `m` gives expert `e`. -/
def wtS (e : Fin 8) (m : Fin 1024) : EReal :=
  ∑ t : Fin 2, (if expert ids m t = e then (1 : EReal) else 0) * tw (ix2 m t)

end Cert.MoeSpec

end
-- ==== Proof.KernelValue.lean ====
/-
  The value of the fused mixture-of-experts kernel at the exact instance: what the accumulators hold after each
  grid point, and what the result array holds after the run.

  Point t = (row tile, expert e, chunk c).  After it the expert accumulator holds, at row r and column k of the
  tile, the first c + 1 chunk sums of expert e's output for that token added onto zero; the output accumulator
  holds the weighted outputs of the experts finished so far (e + 1 of them after a last chunk, e otherwise) added
  onto zero.  By induction on the point: a chunk's store adds that chunk's share of the contraction (the payload
  read at an index, the blocks read where the windows' index maps put them); a last chunk's fold adds the expert's
  weighted output.  At a row tile's last point all eight experts are in and the output block takes the sum.
-/
import proofs.«420278_j20899310863256_3_alg».proof.Proof.KI.Frame
import proofs.«420278_j20899310863256_3_alg».proof.Proof.KI.Blocks
import proofs.«420278_j20899310863256_3_alg».proof.Proof.KI.Pieces
import proofs.«420278_j20899310863256_3_alg».proof.Proof.Payload
import proofs.«420278_j20899310863256_3_alg».proof.Proof.Spec

set_option maxRecDepth 16384

noncomputable section

open scoped BigOperators

namespace Cert.KernelIdeal.KValue

open Cert.KernelIdeal Cert.KernelIdeal.Gen Cert.KernelIdeal.Fr Cert.MoeSpec
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The layer's arguments, and that the windows' blocks are read off them where the index maps say: tokens
    `a`, first weight `w1`, second weight `w2`, routing-weight table `wt`. -/
structure Reads (a : SA.Idx → EReal) (w1 : SW1.Idx → EReal) (w2 : SW2.Idx → EReal) (wt : Fin 8 → Fin 1024 → EReal) : Prop where
  tok : ∀ (t : Fin cfg0.N) (r : Fin 512) (k' : Fin 1024), blkA m c t (ix2 r k') = a (ix2 (rowOf t r) k')
  gate : ∀ (t : Fin cfg0.N) (i : Fin 512) (k' : Fin 1024), blkG m c t (ix3 0 i k') = w1 (ix3 (expOf t) (gateOf t i) k')
  up : ∀ (t : Fin cfg0.N) (i : Fin 512) (k' : Fin 1024), blkU m c t (ix3 0 i k') = w1 (ix3 (expOf t) (upOf t i) k')
  down : ∀ (t : Fin cfg0.N) (k : Fin 1024) (i : Fin 512), blkW2 m c t (ix3 0 k i) = w2 (ix3 (expOf t) k (colOf t i))
  route : ∀ (t : Fin cfg0.N) (r : Fin 512), blkWt m c t (ix3 0 r 0) = wt (expOf t) (rowOf t r)

theorem accY_succ (a : SA.Idx → EReal) (w1 : SW1.Idx → EReal) (w2 : SW2.Idx → EReal) (e : Fin 8) (mm k : Fin 1024) (n : ℕ) :
    accY a w1 w2 e mm k (n + 1) = accY a w1 w2 e mm k n + partN a w1 w2 e mm k n := rfl
theorem accO_succ (a : SA.Idx → EReal) (w1 : SW1.Idx → EReal) (w2 : SW2.Idx → EReal) (wt : Fin 8 → Fin 1024 → EReal) (mm k : Fin 1024) (n : ℕ) :
    accO a w1 w2 wt mm k (n + 1) = accO a w1 w2 wt mm k n + termN a w1 w2 wt mm k n := rfl

/-- The chunk of a point, as a natural chunk number. -/
theorem partN_chunk (a : SA.Idx → EReal) (w1 : SW1.Idx → EReal) (w2 : SW2.Idx → EReal) (e : Fin 8) (mm k : Fin 1024) (t : Fin cfg0.N) :
    partN a w1 w2 e mm k (t.val % 4) = part a w1 w2 e mm k (chunkOf t) := by
  unfold partN; rw [dif_pos (Nat.mod_lt _ (by norm_num))]; rfl

/-- The expert of a point, as a natural expert number. -/
theorem termN_exp (a : SA.Idx → EReal) (w1 : SW1.Idx → EReal) (w2 : SW2.Idx → EReal) (wt : Fin 8 → Fin 1024 → EReal) (mm k : Fin 1024) (t : Fin cfg0.N) :
    termN a w1 w2 wt mm k ((t.val / 4) % 8) = yK a w1 w2 (expOf t) mm k * wt (expOf t) mm := by
  unfold termN; rw [dif_pos (Nat.mod_lt _ (by norm_num))]; rfl

/-- One chunk's store, over any loaded blocks that read the arguments at the chunk's rows and columns: the
    accumulator plus the chunk's share of the contraction. -/
theorem chunk_formula (a : SA.Idx → EReal) (w1 : SW1.Idx → EReal) (w2 : SW2.Idx → EReal)
    (x0 : Vec Ideal S512x1024 .f32) (x1 x2 : Vec Ideal S1x512x1024 .f32) (x3 : Vec Ideal S1x1024x512 .f32)
    (acc : Vec Ideal S512x1024 .f32) (e : Fin 8) (mm k : Fin 1024) (ch : Fin 4) (r : Fin 512)
    (h0 : ∀ k' : Fin 1024, x0 (ix2 r k') = a (ix2 mm k'))
    (h1 : ∀ (i : Fin 512) (k' : Fin 1024), x1 (ix3 0 i k') = w1 (ix3 e (gateRow (chunkAt ch i)) k'))
    (h2 : ∀ (i : Fin 512) (k' : Fin 1024), x2 (ix3 0 i k') = w1 (ix3 e (upRow (chunkAt ch i)) k'))
    (h3 : ∀ i : Fin 512, x3 (ix3 0 k i) = w2 (ix3 e k (chunkAt ch i))) :
    k0_pay4 (F := Ideal) x0 x1 x2 x3 acc (ix2 r k) = acc (ix2 r k) + part a w1 w2 e mm k ch := by
  rw [Payload.pay4_apply]
  congr 1
  unfold part
  refine Finset.sum_congr rfl fun i _ => ?_
  simp only [h0, h1, h2, h3]
  rfl

variable (a : SA.Idx → EReal) (w1 : SW1.Idx → EReal) (w2 : SW2.Idx → EReal) (wt : Fin 8 → Fin 1024 → EReal)
variable (R : Reads m c a w1 w2 wt)

include R in
/-- A chunk's store at point `t` adds the chunk's share of the contraction for the point's expert and the row's token. -/
theorem addChunk_apply (t : Fin cfg0.N) (acc : Vec Ideal S512x1024 .f32) (r : Fin 512) (k : Fin 1024) :
    addChunk m c t acc (ix2 r k) = acc (ix2 r k) + part a w1 w2 (expOf t) (rowOf t r) k (chunkOf t) :=
  chunk_formula a w1 w2 (blkA m c t) (blkG m c t) (blkU m c t) (blkW2 m c t) acc (expOf t) (rowOf t r) k (chunkOf t) r
    (fun k' => R.tok t r k')
    (fun i k' => (R.gate t i k').trans (congrArg (fun n => w1 (ix3 (expOf t) n k')) (Fin.ext rfl)))
    (fun i k' => (R.up t i k').trans (congrArg (fun n => w1 (ix3 (expOf t) n k'))
      (Fin.ext (show 2048 + t.val % 4 * 512 + i.val = 2048 + (t.val % 4 * 512 + i.val) by omega))))
    (fun i => (R.down t k i).trans (congrArg (fun n => w2 (ix3 (expOf t) k n)) (Fin.ext rfl)))

/-- How many experts are folded into the output accumulator after point `t`. -/
def foldedAt (n : ℕ) : ℕ := if n % 4 = 3 then (n / 4) % 8 + 1 else (n / 4) % 8

include R in
/-- The expert accumulator after a first chunk. -/
theorem first_chunk (t : Fin cfg0.N) (r : Fin 512) (k : Fin 1024) (h1 : t.val % 4 = 0) :
    addChunk m c t (k0_pay3 (F := Ideal)) (ix2 r k) = accY a w1 w2 (expOf t) (rowOf t r) k (t.val % 4 + 1) := by
  rw [addChunk_apply m c a w1 w2 wt R, Payload.pay3_apply, accY_succ, partN_chunk, h1]
  rfl

include R in
/-- The expert accumulator after a later chunk, from the chunk sums so far. -/
theorem later_chunk (t : Fin cfg0.N) (xY : Vec Ideal S512x1024 .f32) (r : Fin 512) (k : Fin 1024)
    (hY : xY (ix2 r k) = accY a w1 w2 (expOf t) (rowOf t r) k (t.val % 4)) :
    addChunk m c t xY (ix2 r k) = accY a w1 w2 (expOf t) (rowOf t r) k (t.val % 4 + 1) := by
  rw [addChunk_apply m c a w1 w2 wt R, hY, accY_succ, partN_chunk]

include R in
/-- The output accumulator after a last chunk: the finished expert's weighted output added. -/
theorem fold_expert (t : Fin cfg0.N) (xY xO : Vec Ideal S512x1024 .f32) (r : Fin 512) (k : Fin 1024) (h2 : t.val % 4 = 3)
    (hY : xY (ix2 r k) = accY a w1 w2 (expOf t) (rowOf t r) k (t.val % 4))
    (hO : xO (ix2 r k) = accO a w1 w2 wt (rowOf t r) k ((t.val / 4) % 8)) :
    k0_pay1 (F := Ideal) (blkWt m c t) xO (addChunk m c t xY) (ix2 r k)
      = accO a w1 w2 wt (rowOf t r) k ((t.val / 4) % 8 + 1) := by
  rw [Payload.pay1_apply, later_chunk m c a w1 w2 wt R t xY r k hY, hO, accO_succ, termN_exp, R.route, h2]
  rfl

include R in
/-- One point's step: from the accumulators as the point finds them (the expert accumulator at the chunk sums so
    far unless this is a first chunk, the output accumulator at the experts folded so far unless this is a row
    tile's first point) to the accumulators as it leaves them, and at a row tile's last point the output block. -/
theorem step (t : Fin cfg0.N) (xY xO : Vec Ideal S512x1024 .f32)
    (hY : ¬t.val % 4 = 0 → ∀ (r : Fin 512) (k : Fin 1024), xY (ix2 r k) = accY a w1 w2 (expOf t) (rowOf t r) k (t.val % 4))
    (hO : ¬t.val % 32 = 0 → ∀ (r : Fin 512) (k : Fin 1024), xO (ix2 r k) = accO a w1 w2 wt (rowOf t r) k ((t.val / 4) % 8)) :
    (∀ (r : Fin 512) (k : Fin 1024), (stepAt m c t xY xO).2.1 (ix2 r k) = accY a w1 w2 (expOf t) (rowOf t r) k (t.val % 4 + 1))
    ∧ (∀ (r : Fin 512) (k : Fin 1024), (stepAt m c t xY xO).2.2 (ix2 r k) = accO a w1 w2 wt (rowOf t r) k (foldedAt t.val))
    ∧ (t.val % 32 = 31 → ∀ (r : Fin 512) (k : Fin 1024), (stepAt m c t xY xO).1 (ix2 r k) = accO a w1 w2 wt (rowOf t r) k 8) := by
  have hN := N_lt t
  by_cases h0 : t.val % 32 = 0
  · rw [stepAt_A m c t _ _ h0]; dsimp only
    refine ⟨fun r k => ?_, fun r k => ?_, fun h => by omega⟩
    · rw [sYA_eq]; exact first_chunk m c a w1 w2 wt R t r k (by omega)
    · rw [sOA_eq, Payload.pay2_apply]
      have : foldedAt t.val = 0 := by unfold foldedAt; rw [if_neg (by omega)]; omega
      rw [this]; rfl
  · by_cases h1 : t.val % 4 = 0
    · rw [stepAt_B m c t _ _ h0 h1]; dsimp only
      refine ⟨fun r k => ?_, fun r k => ?_, fun h => by omega⟩
      · rw [sYB_eq]; exact first_chunk m c a w1 w2 wt R t r k h1
      · rw [hO h0 r k]
        have : foldedAt t.val = (t.val / 4) % 8 := by unfold foldedAt; rw [if_neg (by omega)]
        rw [this]
    · by_cases h2 : t.val % 4 = 3
      · have hf : foldedAt t.val = (t.val / 4) % 8 + 1 := by unfold foldedAt; rw [if_pos h2]
        by_cases h3 : t.val % 32 = 31
        · rw [stepAt_E m c t _ _ h3]; dsimp only
          refine ⟨fun r k => ?_, fun r k => ?_, fun _ r k => ?_⟩
          · rw [sYE_eq]; exact later_chunk m c a w1 w2 wt R t xY r k (hY h1 r k)
          · rw [sOE_eq, hf]; exact fold_expert m c a w1 w2 wt R t xY xO r k h2 (hY (by omega) r k) (hO (by omega) r k)
          · rw [o5E_eq, fold_expert m c a w1 w2 wt R t xY xO r k h2 (hY (by omega) r k) (hO (by omega) r k)]
            have : (t.val / 4) % 8 + 1 = 8 := by omega
            rw [this]
        · rw [stepAt_D m c t _ _ h2 h3]; dsimp only
          refine ⟨fun r k => ?_, fun r k => ?_, fun h => absurd h h3⟩
          · rw [sYD_eq]; exact later_chunk m c a w1 w2 wt R t xY r k (hY h1 r k)
          · rw [sOD_eq, hf]; exact fold_expert m c a w1 w2 wt R t xY xO r k h2 (hY (by omega) r k) (hO (by omega) r k)
      · rw [stepAt_C m c t _ _ h1 h2]; dsimp only
        refine ⟨fun r k => ?_, fun r k => ?_, fun h => by omega⟩
        · rw [sYC_eq]; exact later_chunk m c a w1 w2 wt R t xY r k (hY h1 r k)
        · rw [hO (by omega) r k]
          have : foldedAt t.val = (t.val / 4) % 8 := by unfold foldedAt; rw [if_neg h2]
          rw [this]

include R in
/-- THE INVARIANT, at every position. -/
theorem inv : ∀ (n : ℕ) (hn : n < cfg0.N),
    (∀ (r : Fin 512) (k : Fin 1024), (outsAt m c n hn).2.1 (ix2 r k) = accY a w1 w2 (expOf ⟨n, hn⟩) (rowOf ⟨n, hn⟩ r) k (n % 4 + 1))
    ∧ (∀ (r : Fin 512) (k : Fin 1024), (outsAt m c n hn).2.2 (ix2 r k) = accO a w1 w2 wt (rowOf ⟨n, hn⟩ r) k (foldedAt n))
    ∧ (n % 32 = 31 → ∀ (r : Fin 512) (k : Fin 1024), (outsAt m c n hn).1 (ix2 r k) = accO a w1 w2 wt (rowOf ⟨n, hn⟩ r) k 8)
  | 0, hn => by
    have hs : outsAt m c 0 hn = stepAt m c ⟨0, hn⟩ junk5 junk5 := rfl
    rw [hs]
    exact step m c a w1 w2 wt R ⟨0, hn⟩ _ _ (fun h => absurd rfl h) (fun h => absurd rfl h)
  | n + 1, hn => by
    have ih := inv n (Nat.lt_of_succ_lt hn)
    have hN : n + 1 < 64 := lt_of_lt_of_eq hn (show cfg0.N = 64 from N_0)
    have hs : outsAt m c (n + 1) hn = stepAt m c ⟨n + 1, hn⟩ (outsAt m c n (Nat.lt_of_succ_lt hn)).2.1 (outsAt m c n (Nat.lt_of_succ_lt hn)).2.2 := rfl
    rw [hs]
    refine step m c a w1 w2 wt R ⟨n + 1, hn⟩ _ _ (fun h r k => ?_) (fun h r k => ?_)
    · have h' : ¬(n + 1) % 4 = 0 := h
      rw [ih.1 r k]
      have e1 : expOf ⟨n + 1, hn⟩ = expOf ⟨n, Nat.lt_of_succ_lt hn⟩ := Fin.ext (by show (n + 1) / 4 % 8 = n / 4 % 8; omega)
      have e2 : rowOf ⟨n + 1, hn⟩ r = rowOf ⟨n, Nat.lt_of_succ_lt hn⟩ r := Fin.ext (by show (n + 1) / 32 * 512 + r.val = n / 32 * 512 + r.val; omega)
      have e3 : (n + 1) % 4 = n % 4 + 1 := by omega
      rw [e1, e2]; show _ = accY _ _ _ _ _ _ ((n + 1) % 4); rw [e3]
    · have h' : ¬(n + 1) % 32 = 0 := h
      rw [ih.2.1 r k]
      have e2 : rowOf ⟨n + 1, hn⟩ r = rowOf ⟨n, Nat.lt_of_succ_lt hn⟩ r := Fin.ext (by show (n + 1) / 32 * 512 + r.val = n / 32 * 512 + r.val; omega)
      have e3 : foldedAt n = (n + 1) / 4 % 8 := by unfold foldedAt; split <;> omega
      rw [e2, e3]

include R in
/-- What the output block holds after a row tile's last point: the combine over all eight experts, at the tile's rows. -/
theorem out_block (t : Fin cfg0.N) (ht : t.val % 32 = 31) (r : Fin 512) (k : Fin 1024) :
    (outsAt m c t.val t.isLt).1 (ix2 r k) = outK a w1 w2 wt (ix2 (rowOf t r) k) :=
  (inv m c a w1 w2 wt R t.val t.isLt).2.2 ht r k

omit R in
/-- The blocks are read off the arrays as the call finds them. -/
theorem reads : Reads m c (arrA m c) (arrW1 m c) (arrW2 m c) (fun e r => arrWt m c (ix3 e r 0)) :=
  ⟨fun t r k' => blkA_apply m c t r k', fun t i k' => blkG_apply m c t i k', fun t i k' => blkU_apply m c t i k',
    fun t k i => blkW2_apply m c t k i, fun t r => blkWt_apply m c t r⟩

end Cert.KernelIdeal.KValue

end
-- ==== Proof.KI.Final.lean ====
/-
  From the output's blocks to the output array.  The output window's block at point t is rows
  (t / 32)·512 … (t / 32)·512 + 511 of the array, all 1024 columns, and the window is written back exactly at
  the points t with t % 32 = 31: at t = 31 (rows 0 … 511) and at t = 63 (rows 512 … 1023).  The two blocks tile
  the array.  So when what each of those two points leaves in the output block is its block of ONE whole-array
  function, the array ends holding that function.
-/
import proofs.«420278_j20899310863256_3_alg».proof.Proof.KI.Frame
import proofs.«420278_j20899310863256_3_alg».proof.Proof.KI.Blocks
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The output window's index map, decided once over the grid: the row tile, and column block 0. -/
theorem idx5 : ∀ t : Fin cfg0.N, win0_5.index t (0 : Fin 2) = t.val / 32 ∧ win0_5.index t (1 : Fin 2) = 0 :=
  (by decide +kernel : ∀ t : Fin grid0.N, _)

/-- Where entry (r, k) of point `t`'s output block sits in the array: row (t / 32)·512 + r, column k. -/
theorem emb5 (t : Fin cfg0.N) (r : Fin 512) (k : Fin 1024) :
    ((cfg0.win 5).blk t).view.emb (ix2 r k) = ix2 (rowOf t r) k := by
  obtain ⟨e0, e1⟩ := idx5 t
  funext a; apply Fin.ext
  match a with
  | ⟨0, _⟩ => show win0_5.index t (0 : Fin 2) * 512 + 1 * r.val = (t.val / 32) * 512 + r.val; omega
  | ⟨1, _⟩ => show win0_5.index t (1 : Fin 2) * 1024 + 1 * k.val = k.val; omega

/-- What a writing point writes back is its block of `G`, when the output block it leaves is. -/
theorem flushed5_eq (c : Dev nD) (G : Vec F S1024x1024 .f32)
    (hG : ∀ t : Fin cfg0.N, t.val % 32 = 31 → ∀ (r : Fin 512) (k : Fin 1024), (outsAt m c t.val t.isLt).1 (ix2 r k) = G (ix2 (rowOf t r) k))
    (t : Fin cfg0.N) (ht : t.val % 32 = 31) :
    (dats m 0 c).flushed 5 t = ((cfg0.win 5).blk t).view.read (Elt F) G := by
  show (cfg0.win 5).cut (grid0.coords t) ((dats m 0 c).after 5 t) = _
  rw [after5]
  funext j
  have e : j = ix2 (j 0) (j 1) := eq_ix2 j
  rw [e]
  show (outsAt m c t.val t.isLt).1 (ix2 (j 0) (j 1)) = G (((cfg0.win 5).blk t).view.emb (ix2 (j 0) (j 1)))
  rw [emb5 t (j 0) (j 1)]
  exact hG t ht (j 0) (j 1)

/-- An index of the array is in point `t`'s block iff each coordinate is in the block's range on its axis. -/
theorem mem_blk5 (t : Fin cfg0.N) (i : S1024x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v14).slice (win0_5.rect t)).set ↔ _
  rw [View.set_slice_whole, Rect.mem_set_unit]
  exact Iff.rfl

/-- Every index of the array is in a writing point's block: row i₀ is in the block of the last point of row
    tile i₀ / 512, the point (i₀ / 512)·32 + 31. -/
theorem cover5 (i : S1024x1024.Idx) :
    ∃ t : Fin cfg0.N, (cfg0.win 5).flush t = true ∧ i ∈ ((cfg0.win 5).blk t).view.set := by
  have hi0 : (i 0).val < 1024 := (i 0).isLt
  have hi1 : (i 1).val < 1024 := (i 1).isLt
  obtain ⟨t, tv⟩ : ∃ t : Fin cfg0.N, t.val = ((i 0).val / 512) * 32 + 31 :=
    ⟨⟨((i 0).val / 512) * 32 + 31, lt_of_lt_of_eq (by omega) (show cfg0.N = 64 from N_0).symm⟩, rfl⟩
  obtain ⟨e0, e1⟩ := idx5 t
  refine ⟨t, (flush0_5 t).mpr (by omega), ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE OUTPUT ARRAY after the run: when the output block each writing point leaves is that point's block of one
    whole-array function `G`, the array ends holding `G`. -/
theorem final5 (c : Dev nD) (G : Vec F S1024x1024 .f32)
    (hG : ∀ t : Fin cfg0.N, t.val % 32 = 31 → ∀ (r : Fin 512) (k : Fin 1024), (outsAt m c t.val t.isLt).1 (ix2 r k) = G (ix2 (rowOf t r) k)) :
    (dats m 0 c).arrAt 5 cfg0.N = G :=
  (dats m 0 c).arrAt_eq_of_cover 5 G (fun t hf => flushed5_eq m c G hG t ((flush0_5 t).mp hf)) cover5

end Cert.KernelIdeal.Fr

end
-- ==== Proof.KernelHost.lean ====
/-
  The table of routing weights the call reads, as a function of the two routing arguments.

  Before the call, host operations clip the routed expert ids into 0..7, compare them with the expert numbers 0..7,
  turn the one-bit answers into 1 or 0, multiply by the routing weights, add over the two slots of a token, and lay
  the result out as (expert, token, 1).  Here these operations are composed as stages, each stage is read at an
  index, and under the hypothesis that every routed id is below 8 (so the clip changes nothing) the entry for
  expert `e` and token `r` is the total routing weight `wtS` of the specification: the sum over the slots `t` of
  (1 if slot `t` of token `r` routes to `e`, else 0) times the slot's weight.
-/
import proofs.«420278_j20899310863256_3_alg».proof.Proof.KI.Entry
import proofs.«420278_j20899310863256_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.StableHlo.Predicate

noncomputable section

open scoped BigOperators

namespace Cert.KernelIdeal.HostValue

open Cert.KernelIdeal Cert.KernelIdeal.Gen Cert.KernelIdeal.Fr
open Idealize.ShloMosaic Idealize.ShloMosaic.TcCoe Idealize.ShloMosaic.ValueIdx Idealize.SL.Sem Idealize.ShloMosaic.StableHlo
  Idealize.ShloMosaic.StableHlo.Predicate

/-! ## Words -/

/-- A word below 8 is its own clip into 0..7 (the larger of 0 and it, then the smaller of 7 and that). -/
theorem clip_small (w : BitVec 32) (h : w.toNat < 8) : IntOp.minsi 7#32 (IntOp.maxsi 0#32 w) = w := by
  have hti : w.toInt = w.toNat := toInt_eq_toNat_of_lt (by omega)
  have h0 : (0#32 : BitVec 32).toInt = 0 := by decide
  have h7 : (7#32 : BitVec 32).toInt = 7 := by decide
  have hmax : IntOp.maxsi 0#32 w = w := by
    unfold IntOp.maxsi
    split <;> rename_i hc <;> simp only [BitVec.slt, hti, h0, decide_eq_true_eq] at hc
    · omega
    · rfl
  rw [hmax]
  unfold IntOp.minsi
  split <;> rename_i hc <;> simp only [BitVec.slt, hti, h7, decide_eq_true_eq] at hc
  · omega
  · rfl

/-- The one-bit answer of an equality test, converted unsigned to a float, is 1 or 0. -/
theorem uitofp_cmpi_eq (x y : BitVec 32) :
    (FloatOps.uitofp (F := Ideal) .f32 (IntOp.cmpi .eq x y) : EReal) = if x = y then 1 else 0 := by
  by_cases h : x = y
  · rw [if_pos h, cmpi_eq_iff.mpr h]
    show ((((1#1 : BitVec 1).toNat : ℕ) : ℝ) : EReal) = 1
    simp
  · rw [if_neg h, eq_zero_of_ne_one (mt cmpi_eq_iff.mp h)]
    show ((((0#1 : BitVec 1).toNat : ℕ) : ℝ) : EReal) = 0
    simp

/-- A word below 8 is the word of `e < 8` exactly when its value reduced into range is `e`. -/
theorem word_eq_iff (w : BitVec 32) (h : w.toNat < 8) (e : Fin 8) :
    w = BitVec.ofNat 32 e.val ↔ (⟨w.toNat % 8, Nat.mod_lt _ (by norm_num)⟩ : Fin 8) = e := by
  have he := e.isLt
  constructor
  · intro hw
    apply Fin.ext
    show w.toNat % 8 = e.val
    rw [hw, BitVec.toNat_ofNat]
    omega
  · intro hw
    have hv : w.toNat % 8 = e.val := congrArg Fin.val hw
    apply BitVec.eq_of_toNat_eq
    rw [BitVec.toNat_ofNat]
    omega

/-! ## The host operations before the call, as stages -/

/-- The expert ids clipped into 0..7. -/
def idsSafe (ids : S1024x2.Idx → BitVec 32) : S1024x2.Idx → BitVec 32 :=
  minsi (broadcastInDim S1024x2 ![] bcast_S_S1024x2 (constantI S_ 32 7#32))
    (maxsi (broadcastInDim S1024x2 ![] bcast_S_S1024x2 (constantI S_ 32 0#32)) ids)

/-- 1 where slot `t` of token `m` routes to expert `e`, else 0, over (token, slot, expert). -/
def onehot (ids : S1024x2.Idx → BitVec 32) : S1024x2x8.Idx → EReal :=
  uitofp (F := Ideal) .f32
    (cmpi .eq
      (broadcastInDim S1024x2x8 ![0, 1, 2] bcast_S1024x2x1_S1024x2x8_0_1_2
        (broadcastInDim S1024x2x1 ![0, 1] bcast_S1024x2_S1024x2x1_0_1 (idsSafe ids)))
      (broadcastInDim S1024x2x8 ![0, 1, 2] bcast_S1x1x8_S1024x2x8_0_1_2
        (broadcastInDim S1x1x8 ![2] bcast_S8_S1x1x8_2 (iotaInDim S8 32 0))))

/-- The routing weights repeated along the expert axis. -/
def twB (tw : S1024x2.Idx → EReal) : S1024x2x8.Idx → EReal :=
  broadcastInDim S1024x2x8 ![0, 1, 2] bcast_S1024x2x1_S1024x2x8_0_1_2
    (broadcastInDim S1024x2x1 ![0, 1] bcast_S1024x2_S1024x2x1_0_1 tw)

/-- The weighted one-hot table summed over the two slots: (token, expert). -/
def red (tw : S1024x2.Idx → EReal) (ids : S1024x2.Idx → BitVec 32) : S1024x8.Idx → EReal :=
  Host.reduceAdd (F := Ideal) (mulf (F := Ideal) (s := S1024x2x8) (φ := .f32) (onehot ids) (twB tw)) (constant (F := Ideal) S_ .f32 0x00000000#32)
    reducesTo_S1024x2x8_S1024x8_d1 h_S_

/-- The table the call reads: (expert, token, 1). -/
def wtab (tw : S1024x2.Idx → EReal) (ids : S1024x2.Idx → BitVec 32) : S8x1024x1.Idx → EReal :=
  broadcastInDim S8x1024x1 ![0, 1] bcast_S8x1024_S8x1024x1_0_1
    (transpose S8x1024 [1, 0] (red tw ids) transposes_S1024x8_S8x1024_1_0)

/-- When the call is entered the table's buffer holds the stages' composition of the two routing arguments. -/
theorem V_wtab (m : (ℓ : Loc nD τ sig) → Buf (Elt Ideal) ℓ) (c : Dev nD) :
    (V m c main_v13 : S8x1024x1.Idx → EReal)
      = wtab (m ((c : Thread nD τ).loc main_arg3)) (m ((c : Thread nD τ).loc main_arg4)) := by
  dsimp only [V]
  simp only [hostOps0, hostOps0_1, hostOps0_2, List.flatten_cons, List.flatten_nil, List.append_nil, List.cons_append, List.nil_append]
  after_results
  rfl

/-! ## The stages at an index -/

/-- A (token, slot) array repeated along a unit axis and then along the expert axis reads (token, slot). -/
theorem bcast_tok_slot {α : Type} (x : S1024x2.Idx → α) (r : Fin 1024) (t : Fin 2) (e : Fin 8) :
    broadcastInDim S1024x2x8 ![0, 1, 2] bcast_S1024x2x1_S1024x2x8_0_1_2
        (broadcastInDim S1024x2x1 ![0, 1] bcast_S1024x2_S1024x2x1_0_1 x) (ix3 r t e) = x (ix2 r t) :=
  (broadcastInDim_apply _ bcast_S1024x2x1_S1024x2x8_0_1_2 _ (ix3 r t e) (ix3 r t 0) (fun a => match a with
      | ⟨0, _⟩ => by show r.val = if (1024 : Nat) = 1 then 0 else r.val; rw [if_neg (by decide)]
      | ⟨1, _⟩ => by show t.val = if (2 : Nat) = 1 then 0 else t.val; rw [if_neg (by decide)]
      | ⟨2, _⟩ => by show 0 = if (1 : Nat) = 1 then 0 else e.val; rw [if_pos rfl])).trans
    (broadcastInDim_apply _ bcast_S1024x2_S1024x2x1_0_1 x (ix3 r t 0) (ix2 r t) (fun a => match a with
      | ⟨0, _⟩ => by show r.val = if (1024 : Nat) = 1 then 0 else r.val; rw [if_neg (by decide)]
      | ⟨1, _⟩ => by show t.val = if (2 : Nat) = 1 then 0 else t.val; rw [if_neg (by decide)]))

/-- The expert numbers 0..7 repeated over tokens and slots read the expert's word. -/
theorem bcast_iota (r : Fin 1024) (t : Fin 2) (e : Fin 8) :
    broadcastInDim S1024x2x8 ![0, 1, 2] bcast_S1x1x8_S1024x2x8_0_1_2
        (broadcastInDim S1x1x8 ![2] bcast_S8_S1x1x8_2 (iotaInDim S8 32 0)) (ix3 r t e) = BitVec.ofNat 32 e.val :=
  (broadcastInDim_apply _ bcast_S1x1x8_S1024x2x8_0_1_2 _ (ix3 r t e) (ix3 0 0 e) (fun a => match a with
      | ⟨0, _⟩ => by show 0 = if (1 : Nat) = 1 then 0 else r.val; rw [if_pos rfl]
      | ⟨1, _⟩ => by show 0 = if (1 : Nat) = 1 then 0 else t.val; rw [if_pos rfl]
      | ⟨2, _⟩ => by show e.val = if (8 : Nat) = 1 then 0 else e.val; rw [if_neg (by decide)])).trans
    (broadcastInDim_apply _ bcast_S8_S1x1x8_2 (iotaInDim S8 32 0) (ix3 0 0 e) (ix1 e) (fun a => match a with
      | ⟨0, _⟩ => by show e.val = if (8 : Nat) = 1 then 0 else e.val; rw [if_neg (by decide)]))

/-- Under the range hypothesis the clip changes no id. -/
theorem idsSafe_apply (ids : S1024x2.Idx → BitVec 32) (hr : ∀ j, (ids j).toNat < 8) (j : S1024x2.Idx) :
    idsSafe ids j = ids j := by
  show IntOp.minsi (broadcastInDim S1024x2 ![] bcast_S_S1024x2 (constantI S_ 32 7#32) j)
      (IntOp.maxsi (broadcastInDim S1024x2 ![] bcast_S_S1024x2 (constantI S_ 32 0#32) j) (ids j)) = ids j
  rw [broadcastInDim_scalar_apply, broadcastInDim_scalar_apply]
  exact clip_small _ (hr j)

theorem onehot_apply (ids : S1024x2.Idx → BitVec 32) (hr : ∀ j, (ids j).toNat < 8) (r : Fin 1024) (t : Fin 2) (e : Fin 8) :
    onehot ids (ix3 r t e) = if ids (ix2 r t) = BitVec.ofNat 32 e.val then 1 else 0 := by
  unfold onehot
  show FloatOps.uitofp (F := Ideal) .f32 (IntOp.cmpi .eq (broadcastInDim S1024x2x8 ![0, 1, 2] bcast_S1024x2x1_S1024x2x8_0_1_2
        (broadcastInDim S1024x2x1 ![0, 1] bcast_S1024x2_S1024x2x1_0_1 (idsSafe ids)) (ix3 r t e))
      (broadcastInDim S1024x2x8 ![0, 1, 2] bcast_S1x1x8_S1024x2x8_0_1_2
        (broadcastInDim S1x1x8 ![2] bcast_S8_S1x1x8_2 (iotaInDim S8 32 0)) (ix3 r t e))) = _
  rw [bcast_tok_slot, bcast_iota, idsSafe_apply ids hr, uitofp_cmpi_eq]

theorem twB_apply (tw : S1024x2.Idx → EReal) (r : Fin 1024) (t : Fin 2) (e : Fin 8) :
    twB tw (ix3 r t e) = tw (ix2 r t) := bcast_tok_slot tw r t e

/-- The sum over the two slots, onto the zero the reduction starts from. -/
theorem red_apply (tw : S1024x2.Idx → EReal) (ids : S1024x2.Idx → BitVec 32) (r : Fin 1024) (e : Fin 8) :
    red tw ids (ix2 r e) = 0 + ∑ t : Fin 2, onehot ids (ix3 r t e) * twB tw (ix3 r t e) := by
  have hinit : (constant (F := Ideal) S_ .f32 0x00000000#32) (Shape.Idx.first h_S_) = 0 := Ideal.ofBits_zero_f32
  unfold red
  generalize hy : mulf (F := Ideal) (s := S1024x2x8) (φ := .f32) (onehot ids) (twB tw) = y
  simp only [Host.reduceAdd, Ideal.hostReduceAdd_def]
  rw [Ideal.hostReduceAdd_single reducesTo_S1024x2x8_S1024x8_d1 (by decide), hinit]
  refine congrArg (_ + ·) (Finset.sum_congr rfl fun k _ => ?_)
  subst hy
  exact congrArg (fun j => onehot ids j * twB tw j)
    (funext fun a => Fin.ext (by match a with | ⟨0, _⟩ => rfl | ⟨1, _⟩ => rfl | ⟨2, _⟩ => rfl))

/-- The table at (expert, token, 0) is the slot sum at (token, expert). -/
theorem wtab_at (tw : S1024x2.Idx → EReal) (ids : S1024x2.Idx → BitVec 32) (e : Fin 8) (r : Fin 1024) :
    wtab tw ids (ix3 e r 0) = red tw ids (ix2 r e) :=
  (broadcastInDim_apply _ bcast_S8x1024_S8x1024x1_0_1 _ (ix3 e r 0) (ix2 e r) (fun a => match a with
      | ⟨0, _⟩ => by show e.val = if (8 : Nat) = 1 then 0 else e.val; rw [if_neg (by decide)]
      | ⟨1, _⟩ => by show r.val = if (1024 : Nat) = 1 then 0 else r.val; rw [if_neg (by decide)])).trans
    (transpose_apply [1, 0] (red tw ids) transposes_S1024x8_S8x1024_1_0 (ix2 e r) (ix2 r e) (fun b => match b with
      | ⟨0, _⟩ => rfl
      | ⟨1, _⟩ => rfl))

/-! ## The table is the total routing weight -/

theorem wtab_eq_wtS (tw : S1024x2.Idx → EReal) (ids : S1024x2.Idx → BitVec 32) (hr : ∀ j, (ids j).toNat < 8)
    (e : Fin 8) (r : Fin 1024) : wtab tw ids (ix3 e r 0) = Cert.MoeSpec.wtS tw ids e r := by
  rw [wtab_at, red_apply, zero_add]
  unfold Cert.MoeSpec.wtS
  refine Finset.sum_congr rfl fun t _ => ?_
  rw [onehot_apply ids hr, twB_apply]
  exact congrArg (· * tw (ix2 r t)) (if_congr (word_eq_iff _ (hr _) e) rfl rfl)

/-- When the call is entered, the table's entry for expert `e` and token `r` is the total routing weight the token
    gives the expert, provided every routed id is below 8. -/
theorem wtab_apply (m : (ℓ : Loc nD τ sig) → Buf (Elt Ideal) ℓ) (c : Dev nD)
    (hr : ∀ j, ((m ((c : Thread nD τ).loc main_arg4) : S1024x2.Idx → BitVec 32) j).toNat < 8) (e : Fin 8) (r : Fin 1024) :
    (V m c main_v13 : S8x1024x1.Idx → EReal) (ix3 e r 0)
      = Cert.MoeSpec.wtS (m ((c : Thread nD τ).loc main_arg3)) (m ((c : Thread nD τ).loc main_arg4)) e r := by
  rw [V_wtab]
  exact wtab_eq_wtS _ _ hr e r

end Cert.KernelIdeal.HostValue

end
-- ==== Proof.Algebra.lean ====
/-
  The tiled arrangement of the mixture-of-experts layer computes the layer itself.

  Three facts, over the extended reals:
  * the four chunk sums of 512 added left to right onto zero are the one sum over 2048 activations
    (regrouping `Fin 2048` as `Fin 4 × Fin 512`; addition is a commutative monoid, no finiteness needed);
  * the eight weighted terms added left to right onto zero are the sum over the eight experts;
  * when every input is a real number, so is every projection, activation and expert output, and then
    `∑ e, y e * (∑ t, [expert t = e] * tw t) = ∑ t, y (expert t) * tw t` is an identity of real numbers
    (distributivity, which fails at infinities in the extended reals, is where finiteness is used).
-/
import proofs.«420278_j20899310863256_3_alg».proof.Proof.Spec
import Mathlib.Algebra.BigOperators.Fin
import Mathlib.Data.EReal.Operations

noncomputable section

open scoped BigOperators

namespace Cert.MoeSpec

open Idealize.ShloMosaic Idealize.ShloMosaic.ValueIdx

/-! ## Real-valued extended reals -/

/-- An extended real that is a real number. -/
def IsReal (x : EReal) : Prop := ∃ r : ℝ, x = (r : EReal)

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.logistic {x : EReal} (hx : IsReal x) : IsReal (Ideal.logistic x) := by
  obtain ⟨r, rfl⟩ := hx
  exact ⟨_, Ideal.logistic_coe r⟩

theorem isReal_zero : IsReal 0 := ⟨0, EReal.coe_zero.symm⟩

theorem isReal_sum {ι : Type*} (s : Finset ι) (f : ι → EReal) (h : ∀ i, IsReal (f i)) :
    IsReal (∑ i ∈ s, f i) := by
  classical
  induction s using Finset.induction_on with
  | empty => simpa using isReal_zero
  | insert i s hi ih => rw [Finset.sum_insert hi]; exact (h i).add ih

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_ite_one_zero (c : Prop) [Decidable c] :
    (((if c then (1 : ℝ) else 0 : ℝ)) : EReal) = if c then (1 : EReal) else 0 := by
  split <;> simp

/-! ## Every intermediate value is real when the inputs are -/

section finite
variable (a : SA.Idx → EReal) (w1 : SW1.Idx → EReal) (w2 : SW2.Idx → EReal)
variable (ha : ∀ j, ∃ r : ℝ, a j = (r : EReal)) (hw1 : ∀ j, ∃ r : ℝ, w1 j = (r : EReal))
  (hw2 : ∀ j, ∃ r : ℝ, w2 j = (r : EReal))

include ha hw1 in
theorem isReal_proj (e : Fin 8) (m : Fin 1024) (n : Fin 4096) : IsReal (proj a w1 e m n) :=
  isReal_sum _ _ fun k => IsReal.mul (ha _) (hw1 _)

include ha hw1 in
theorem isReal_act (e : Fin 8) (m : Fin 1024) (i : Fin 2048) : IsReal (act a w1 e m i) :=
  ((isReal_proj a w1 ha hw1 e m _).mul (isReal_proj a w1 ha hw1 e m _).logistic).mul
    (isReal_proj a w1 ha hw1 e m _)

include ha hw1 hw2 in
theorem isReal_yE (e : Fin 8) (m : Fin 1024) (k : Fin 1024) : IsReal (yE a w1 w2 e m k) :=
  isReal_sum _ _ fun i => IsReal.mul (isReal_act a w1 ha hw1 e m i) (hw2 _)

end finite

/-! ## Four chunks of 512 are the 2048 -/

/-- `Fin 4 × Fin 512 ≃ Fin 2048`, chunk-major. -/
def chunkEquiv : Fin 4 × Fin 512 ≃ Fin 2048 where
  toFun p := chunkAt p.1 p.2
  invFun j := (⟨j.val / 512, by omega⟩, ⟨j.val % 512, Nat.mod_lt _ (by norm_num)⟩)
  left_inv p := by
    rcases p with ⟨c, i⟩
    apply Prod.ext <;> apply Fin.ext <;> simp only [chunkAt] <;> omega
  right_inv j := by
    apply Fin.ext
    simp only [chunkAt]
    omega

theorem sum_chunks {M : Type*} [AddCommMonoid M] (f : Fin 2048 → M) :
    ∑ c : Fin 4, ∑ i : Fin 512, f (chunkAt c i) = ∑ j : Fin 2048, f j := by
  rw [← Fintype.sum_prod_type' (fun c i => f (chunkAt c i))]
  exact Fintype.sum_equiv chunkEquiv _ _ fun _ => rfl

variable (a : SA.Idx → EReal) (w1 : SW1.Idx → EReal) (w2 : SW2.Idx → EReal) (tw : ST.Idx → EReal)
  (ids : ST.Idx → BitVec 32)

/-- The four chunk sums added left to right onto zero are the whole contraction. -/
theorem yK_eq_yE (e : Fin 8) (m : Fin 1024) (k : Fin 1024) : yK a w1 w2 e m k = yE a w1 w2 e m k := by
  have h := sum_chunks (fun i : Fin 2048 => act a w1 e m i * w2 (ix3 e k i))
  rw [Fin.sum_univ_four] at h
  simp only [yK, accY, partN, yE, part, zero_add, Nat.reduceLT, dite_true]
  exact h

/-- The eight weighted terms added left to right onto zero are the sum over the experts. -/
theorem accO_eight (wt : Fin 8 → Fin 1024 → EReal) (m : Fin 1024) (k : Fin 1024) :
    accO a w1 w2 wt m k 8 = ∑ e : Fin 8, yK a w1 w2 e m k * wt e m := by
  rw [Fin.sum_univ_eight]
  simp only [accO, termN, zero_add, Nat.reduceLT, dite_true]
  rfl

/-! ## The combine -/

/-- Summing each expert's output against the total weight routed to it is summing over the routed slots. -/
theorem real_combine (y : Fin 8 → ℝ) (w : Fin 2 → ℝ) (ex : Fin 2 → Fin 8) :
    ∑ e : Fin 8, y e * ∑ t : Fin 2, (if ex t = e then (1 : ℝ) else 0) * w t = ∑ t : Fin 2, y (ex t) * w t := by
  simp_rw [Finset.mul_sum]
  rw [Finset.sum_comm]
  refine Finset.sum_congr rfl fun t _ => ?_
  simp only [ite_mul, one_mul, zero_mul, mul_ite, mul_zero, Finset.sum_ite_eq, Finset.mem_univ, if_true]

theorem accO_wtS (ha : ∀ j, ∃ r : ℝ, a j = (r : EReal)) (hw1 : ∀ j, ∃ r : ℝ, w1 j = (r : EReal))
    (hw2 : ∀ j, ∃ r : ℝ, w2 j = (r : EReal)) (htw : ∀ j, ∃ r : ℝ, tw j = (r : EReal))
    (m : Fin 1024) (k : Fin 1024) :
    accO a w1 w2 (wtS tw ids) m k 8
      = ∑ t : Fin 2, yE a w1 w2 (expert ids m t) m k * tw (ix2 m t) := by
  rw [accO_eight]
  choose y hy using fun e => isReal_yE a w1 w2 ha hw1 hw2 e m k
  choose w hw using fun t : Fin 2 => htw (ix2 m t)
  simp only [yK_eq_yE, wtS, hy, hw]
  calc ∑ e : Fin 8, (y e : EReal) * ∑ t : Fin 2, (if expert ids m t = e then (1 : EReal) else 0) * (w t : EReal)
      = ((∑ e : Fin 8, y e * ∑ t : Fin 2, (if expert ids m t = e then (1 : ℝ) else 0) * w t : ℝ) : EReal) := by
        simp only [coe_sum, EReal.coe_mul, coe_ite_one_zero]
    _ = ((∑ t : Fin 2, y (expert ids m t) * w t : ℝ) : EReal) := by rw [real_combine]
    _ = ∑ t : Fin 2, (y (expert ids m t) : EReal) * (w t : EReal) := by
        simp only [coe_sum, EReal.coe_mul]

theorem outK_wtS_eq_G (a : SA.Idx → EReal) (w1 : SW1.Idx → EReal) (w2 : SW2.Idx → EReal) (tw : ST.Idx → EReal) (ids : ST.Idx → BitVec 32)
    (ha : ∀ j, ∃ r : ℝ, a j = (r : EReal)) (hw1 : ∀ j, ∃ r : ℝ, w1 j = (r : EReal)) (hw2 : ∀ j, ∃ r : ℝ, w2 j = (r : EReal)) (htw : ∀ j, ∃ r : ℝ, tw j = (r : EReal)) :
    outK a w1 w2 (wtS tw ids) = G a w1 w2 tw ids := by
  funext j
  exact accO_wtS a w1 w2 tw ids ha hw1 hw2 htw (j 0) (j 1)

end Cert.MoeSpec

end
-- ==== Proof.KernelIsG.lean ====
/-
  The kernel's result is the layer.  After the run the result array holds, tile by tile, the combine over all
  eight experts of the tiled contractions, weighted by the routing-weight table @main built; that table is the
  total routing weight of each token for each expert; and with every input a real number the tiled combine is the
  layer's plain form: each token's two routed expert outputs, weighted and added.
-/
import proofs.«420278_j20899310863256_3_alg».proof.Proof.KernelValue
import proofs.«420278_j20899310863256_3_alg».proof.Proof.KI.Final
import proofs.«420278_j20899310863256_3_alg».proof.Proof.KernelHost
import proofs.«420278_j20899310863256_3_alg».proof.Proof.Algebra

set_option maxRecDepth 16384

noncomputable section

namespace Cert.KernelIdeal.KValue

open Cert.KernelIdeal Cert.KernelIdeal.Gen Cert.KernelIdeal.Fr Cert.MoeSpec
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result array after the run, for inputs that are real numbers and expert ids in range. -/
theorem result_eq_G (c : Dev nD)
    (ha : ∀ j, ∃ r : ℝ, (m ((c : Thread nD τ).loc main_arg0) : SA.Idx → EReal) j = (r : EReal))
    (hw1 : ∀ j, ∃ r : ℝ, (m ((c : Thread nD τ).loc main_arg1) : SW1.Idx → EReal) j = (r : EReal))
    (hw2 : ∀ j, ∃ r : ℝ, (m ((c : Thread nD τ).loc main_arg2) : SW2.Idx → EReal) j = (r : EReal))
    (htw : ∀ j, ∃ r : ℝ, (m ((c : Thread nD τ).loc main_arg3) : ST.Idx → EReal) j = (r : EReal))
    (hr : ∀ j, ((m ((c : Thread nD τ).loc main_arg4) : S1024x2.Idx → BitVec 32) j).toNat < 8) :
    (dats m 0 c).arrAt 5 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) := by
  have h := final5 m c (outK (arrA m c) (arrW1 m c) (arrW2 m c) (fun e r => arrWt m c (ix3 e r 0)))
    (fun t ht r k => out_block m c _ _ _ _ (reads m c) t ht r k)
  have e0 : (arrA m c : SA.Idx → EReal) = m ((c : Thread nD τ).loc main_arg0) := V_main_arg0 m c
  have e1 : (arrW1 m c : SW1.Idx → EReal) = m ((c : Thread nD τ).loc main_arg1) := V_main_arg1 m c
  have e2 : (arrW2 m c : SW2.Idx → EReal) = m ((c : Thread nD τ).loc main_arg2) := V_main_arg2 m c
  have e3 : (fun (e : Fin 8) (r : Fin 1024) => (arrWt m c (ix3 e r 0) : EReal))
      = wtS (m ((c : Thread nD τ).loc main_arg3)) (m ((c : Thread nD τ).loc main_arg4)) :=
    funext fun e => funext fun r => HostValue.wtab_apply m c hr e r
  have e : outK (arrA m c) (arrW1 m c) (arrW2 m c) (fun e r => arrWt m c (ix3 e r 0))
      = outK (m ((c : Thread nD τ).loc main_arg0)) (m ((c : Thread nD τ).loc main_arg1)) (m ((c : Thread nD τ).loc main_arg2))
          (wtS (m ((c : Thread nD τ).loc main_arg3)) (m ((c : Thread nD τ).loc main_arg4))) := by
    rw [e0, e1, e2, e3]
  exact (h.trans e).trans (outK_wtS_eq_G _ _ _ _ _ ha hw1 hw2 htw)

/-- The run, read: the result array at what the proof data compute, the arguments unchanged. -/
theorem run_value : θ_run defs (onTc (τ := τ) (main (F := Ideal))) ⟨m, fun _ => 0, ρ⟩ (fun r => ∀ c : Dev nD,
      r.2.mem ((c.tc : Thread nD τ).loc main_v14) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.KValue

end
-- ==== Proof.RefIsG.lean ====
/-
  The reference computation is the dense mixture-of-experts layer of the specification.

  Reading the reference one operation at a time, at an index: the first contraction, transposed, is the projection of
  token `m` onto row `n` of expert `e`'s first weight (the factors in the other order: the extended reals' product
  commutes); its two halves along the rows are the gate and the up projections; `x * (1 / (1 + exp (-x)))` is
  `x * logistic x`, the word `0x3F800000` being one; the second contraction, transposed, is expert `e`'s output for token
  `m` at column `k`. The selection along the expert axis first wraps a negative index by adding 8, tests
  `0 ≤ idx ≤ 7`, gathers with the start index clamped into `[0, 7]`, and keeps the gathered value where the test holds:
  when every routing word is below 8 (read unsigned) the wrap and the clamp are the identity and the test holds
  everywhere, so slot `t` of token `m` reads the output of expert `ids m t`. The final sum over the two slots starts from
  the zero word.
-/
import proofs.«420278_j20899310863256_3_alg».proof.Proof.Gen.ReferenceIdeal.Read
import proofs.«420278_j20899310863256_3_alg».proof.Proof.Spec
import Idealize.ShloMosaic.Lib.StableHlo.Predicate
import Idealize.ShloMosaic.Lib.IdealHost
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo.Predicate

/-! ## Small index words

A routing word below 8 is non-negative and at most 7 when read as a signed integer. -/

theorem slt_zero_of_small (a : BitVec 32) (h : a.toNat < 8) : IntOp.cmpi .slt a 0#32 = 0#1 :=
  eq_zero_of_ne_one fun e => by
    have := (slt_iff_toNat (a := a) (b := 0#32) (by omega) (by decide)).mp e
    simp at this

theorem sge_zero_of_small (a : BitVec 32) (h : a.toNat < 8) : IntOp.cmpi .sge a 0#32 = 1#1 :=
  (sge_iff_toNat (a := a) (b := 0#32) (by omega) (by decide)).mpr (by simp)

theorem sle_seven_of_small (a : BitVec 32) (h : a.toNat < 8) : IntOp.cmpi .sle a 7#32 = 1#1 :=
  (sle_iff_toNat (a := a) (b := 7#32) (by omega) (by decide)).mpr (by show a.toNat ≤ 7; omega)

/-! ## The selection along the expert axis

The index is first wrapped (`idx + 8` where `idx < 0`), then tested for `0 ≤ idx' ≤ 7`; with every routing word below 8
the wrap is the identity and the test holds everywhere. -/

/-- The wrapped index is the routing word itself. -/
theorem take_idx_apply (x4 : (⟨S1024x2, .i32⟩ : BufTy).Contents (Elt Ideal)) (hr : ∀ j, (x4 j).toNat < 8) (i : S1024x2x1.Idx) :
    val_main_call1_v4 (F := Ideal) x4 i = x4 (idx_main_v8 i) := by
  rw [val_main_call1_v4_apply, val_main_call1_v1_apply, val_main_v8_apply, val_main_call1_v0_apply, val_main_call1_c_apply,
    slt_zero_of_small _ (hr _), select_zero]

/-- The range test holds at every element. -/
theorem take_inb_elem (x4 : (⟨S1024x2, .i32⟩ : BufTy).Contents (Elt Ideal)) (hr : ∀ j, (x4 j).toNat < 8) (i : S1024x2x1.Idx) :
    val_main_call1_v10 (F := Ideal) x4 i = 1#1 := by
  rw [val_main_call1_v10_apply, val_main_call1_v6_apply, val_main_call1_v9_apply, take_idx_apply x4 hr,
    val_main_call1_v5_apply, val_main_call1_c_2_apply, val_main_call1_v8_apply, val_main_call1_v7_apply, val_main_call1_c_1_apply,
    sge_zero_of_small _ (hr _), sle_seven_of_small _ (hr _)]
  rfl

/-- A conjunction of ones, from one, over any set, is one. -/
theorem fold_andi_ones {ι : Type} [DecidableEq ι] (S : Finset ι) :
    S.fold IntOp.andi (1#1) (fun _ : ι => (1#1 : BitVec 1)) = 1#1 := by
  induction S using Finset.induction_on with
  | empty => rfl
  | insert a S ha ih => rw [Finset.fold_insert ha, ih]; rfl

/-- The range test reduced over its size-one axis is still one everywhere. -/
theorem take_inb (x4 : (⟨S1024x2, .i32⟩ : BufTy).Contents (Elt Ideal)) (hr : ∀ j, (x4 j).toNat < 8) (j : S1024x2.Idx) :
    val_main_call1_v11 (F := Ideal) x4 j = 1#1 := by
  unfold val_main_call1_v11
  rw [show val_main_call1_v10 (F := Ideal) x4 = fun _ => 1#1 from funext (take_inb_elem x4 hr), Host.reduce_eq_fold]
  exact fold_andi_ones _

/-- The gather at `(m, t, k)`: token `m` is a batching coordinate on both sides, the expert axis is collapsed and addressed by
    the start index `idx[m, t, 0]` read signed and clamped into `[0, 7]`, and `k` is the one offset coordinate. -/
theorem gather_read {α : Type} (x : S1024x8x1024.Idx → α) (idx : IVec S1024x2x1 32) (m : Fin 1024) (t : Fin 2) (k : Fin 1024) :
    Host.gather gather_S1024x8x1024_S1024x2x1_S1024x2x1024_2_1_0_0_1_2_111024 x idx (ix3 m t k)
      = x (ix3 m (⟨min (idx (ix3 m t (0 : Fin 1))).toInt.toNat 7, by omega⟩ : Fin 8) k) := by
  unfold Host.gather
  refine congrArg x (funext fun a => Fin.ext ?_)
  have hsi : gather_S1024x8x1024_S1024x2x1_S1024x2x1024_2_1_0_0_1_2_111024.siIdx (ix3 m t k)
      ⟨List.idxOf (1 : Fin 3) gather_S1024x8x1024_S1024x2x1_S1024x2x1024_2_1_0_0_1_2_111024.startIndexMap,
        List.idxOf_lt_length_iff.2 (List.mem_singleton.mpr rfl)⟩ = ix3 m t (0 : Fin 1) := by
    funext b; refine Fin.ext ?_
    match b with
    | ⟨0, _⟩ => rfl
    | ⟨1, _⟩ => rfl
    | ⟨2, _⟩ => rfl
  match a with
  | ⟨0, _⟩ =>
    show gather_S1024x8x1024_S1024x2x1_S1024x2x1024_2_1_0_0_1_2_111024.start (ix3 m t k) idx 0
      + gather_S1024x8x1024_S1024x2x1_S1024x2x1024_2_1_0_0_1_2_111024.batchCoord (ix3 m t k) 0
      + gather_S1024x8x1024_S1024x2x1_S1024x2x1024_2_1_0_0_1_2_111024.offCoord (ix3 m t k) 0 = m.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S1024x8x1024_S1024x2x1_S1024x2x1024_2_1_0_0_1_2_111024.start (ix3 m t k) idx 1
      + gather_S1024x8x1024_S1024x2x1_S1024x2x1024_2_1_0_0_1_2_111024.batchCoord (ix3 m t k) 1
      + gather_S1024x8x1024_S1024x2x1_S1024x2x1024_2_1_0_0_1_2_111024.offCoord (ix3 m t k) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S1024x8x1024_S1024x2x1_S1024x2x1024_2_1_0_0_1_2_111024.startIndexMap from
      List.mem_singleton.mpr rfl), hsi]
    rfl
  | ⟨2, _⟩ =>
    show gather_S1024x8x1024_S1024x2x1_S1024x2x1024_2_1_0_0_1_2_111024.start (ix3 m t k) idx 2
      + gather_S1024x8x1024_S1024x2x1_S1024x2x1024_2_1_0_0_1_2_111024.batchCoord (ix3 m t k) 2
      + gather_S1024x8x1024_S1024x2x1_S1024x2x1024_2_1_0_0_1_2_111024.offCoord (ix3 m t k) 2 = k.val
    rw [GatherDims.batchCoord_eq_zero _ _ _ (by decide)]
    unfold GatherDims.start
    rw [dif_neg (by decide)]
    simp only [Nat.zero_add, Nat.add_zero]
    rfl

/-! ## The experts' outputs -/

/-- The first contraction, transposed to (expert, token, row): the reference multiplies weight by activation, the
    specification activation by weight. -/
theorem proj_read (x0 : (⟨S1024x1024, .f32⟩ : BufTy).Contents (Elt Ideal)) (x1 : (⟨S8x4096x1024, .f32⟩ : BufTy).Contents (Elt Ideal))
    (e : Fin 8) (m : Fin 1024) (n : Fin 4096) :
    val_main_v1 (F := Ideal) x0 x1 (ix3 e m n) = Cert.MoeSpec.proj x0 x1 e m n := by
  rw [val_main_v1_apply, val_main_v0_apply]
  unfold Cert.MoeSpec.proj
  refine Finset.sum_congr rfl fun k _ => ?_
  have e1 : lidx_main_v0 (idx_main_v1 (ix3 e m n)) k = ix3 e n k :=
    funext fun a => Fin.ext (by match a with | ⟨0, _⟩ => rfl | ⟨1, _⟩ => rfl | ⟨2, _⟩ => rfl)
  have e2 : ridx_main_v0 (idx_main_v1 (ix3 e m n)) k = ix2 m k :=
    funext fun a => Fin.ext (by match a with | ⟨0, _⟩ => rfl | ⟨1, _⟩ => rfl)
  rw [e1, e2]
  exact mul_comm (x1 (ix3 e n k) : EReal) (x0 (ix2 m k))

/-- The activation: the two halves of the projection's rows are the gate and the up rows, and
    `x * (1 / (1 + exp (-x)))` is `x * logistic x`. -/
theorem act_read (x0 : (⟨S1024x1024, .f32⟩ : BufTy).Contents (Elt Ideal)) (x1 : (⟨S8x4096x1024, .f32⟩ : BufTy).Contents (Elt Ideal))
    (e : Fin 8) (m : Fin 1024) (i : Fin 2048) :
    val_main_v5 (F := Ideal) x0 x1 (ix3 e m i) = Cert.MoeSpec.act x0 x1 e m i := by
  have hg : val_main_v2 (F := Ideal) x0 x1 (ix3 e m i) = Cert.MoeSpec.proj x0 x1 e m (Cert.MoeSpec.gateRow i) := by
    rw [val_main_v2_apply, show idx_main_v2 (ix3 e m i) = ix3 e m (Cert.MoeSpec.gateRow i) from
      funext fun a => Fin.ext (by match a with | ⟨0, _⟩ => rfl | ⟨1, _⟩ => rfl | ⟨2, _⟩ => rfl), proj_read]
  have hu : val_main_v3 (F := Ideal) x0 x1 (ix3 e m i) = Cert.MoeSpec.proj x0 x1 e m (Cert.MoeSpec.upRow i) := by
    rw [val_main_v3_apply, show idx_main_v3 (ix3 e m i) = ix3 e m (Cert.MoeSpec.upRow i) from
      funext fun a => Fin.ext (by match a with | ⟨0, _⟩ => rfl | ⟨1, _⟩ => rfl | ⟨2, _⟩ => rfl), proj_read]
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    hg, hu]
  simp only [Ideal.mulf_def, Ideal.hostDivf_def, Ideal.addf_def, Ideal.hostUnary_exp_def, Ideal.hostNegf_def, Ideal.negf_def,
    Ideal.ofBits_def, Ideal.ofBits_one_f32]
  rfl

/-- The second contraction, transposed to (token, expert, column). -/
theorem yE_read (x0 : (⟨S1024x1024, .f32⟩ : BufTy).Contents (Elt Ideal)) (x1 : (⟨S8x4096x1024, .f32⟩ : BufTy).Contents (Elt Ideal))
    (x2 : (⟨S8x1024x2048, .f32⟩ : BufTy).Contents (Elt Ideal)) (e : Fin 8) (m : Fin 1024) (k : Fin 1024) :
    val_main_v7 (F := Ideal) x0 x1 x2 (ix3 m e k) = Cert.MoeSpec.yE x0 x1 x2 e m k := by
  rw [val_main_v7_apply, val_main_v6_apply]
  unfold Cert.MoeSpec.yE
  refine Finset.sum_congr rfl fun i _ => ?_
  have e1 : lidx_main_v6 (idx_main_v7 (ix3 m e k)) i = ix3 e m i :=
    funext fun a => Fin.ext (by match a with | ⟨0, _⟩ => rfl | ⟨1, _⟩ => rfl | ⟨2, _⟩ => rfl)
  have e2 : ridx_main_v6 (idx_main_v7 (ix3 m e k)) i = ix3 e k i :=
    funext fun a => Fin.ext (by match a with | ⟨0, _⟩ => rfl | ⟨1, _⟩ => rfl | ⟨2, _⟩ => rfl)
  rw [e1, e2, act_read]

/-- Slot `t` of token `m` selects the output of the expert its routing word names. -/
theorem take_read (x0 : (⟨S1024x1024, .f32⟩ : BufTy).Contents (Elt Ideal)) (x1 : (⟨S8x4096x1024, .f32⟩ : BufTy).Contents (Elt Ideal))
    (x2 : (⟨S8x1024x2048, .f32⟩ : BufTy).Contents (Elt Ideal)) (x4 : (⟨S1024x2, .i32⟩ : BufTy).Contents (Elt Ideal))
    (hr : ∀ j, (x4 j).toNat < 8) (m : Fin 1024) (t : Fin 2) (k : Fin 1024) :
    val_main_v9 (F := Ideal) x0 x1 x2 x4 (ix3 m t k)
      = Cert.MoeSpec.yE x0 x1 x2 (Cert.MoeSpec.expert x4 m t) m k := by
  rw [val_main_v9_apply, val_main_call1_v13_apply, take_inb x4 hr, select_one]
  unfold val_main_call1_v12
  rw [gather_read, yE_read]
  refine congrArg (fun e => Cert.MoeSpec.yE x0 x1 x2 e m k) (Fin.ext ?_)
  show min (val_main_call1_v4 (F := Ideal) x4 (ix3 m t (0 : Fin 1))).toInt.toNat 7 = (x4 (ix2 m t)).toNat % 8
  rw [take_idx_apply x4 hr, show idx_main_v8 (ix3 m t (0 : Fin 1)) = ix2 m t from
    funext fun a => Fin.ext (by match a with | ⟨0, _⟩ => rfl | ⟨1, _⟩ => rfl)]
  have h := hr (ix2 m t)
  rw [toInt_eq_toNat_of_lt (by omega), Int.toNat_natCast, Nat.mod_eq_of_lt h]
  omega

/-! ## The reference is the layer -/

/-- Under routing words below 8 the reference's result is the specification's layer `G`, index by index: the sum over the
    two slots, from zero, of the selected expert's output times the slot's routing weight. -/
theorem val_main_v13_eq_G (x0 : (⟨Cert.ReferenceIdeal.S1024x1024, .f32⟩ : BufTy).Contents (Elt Ideal)) (x1 : (⟨Cert.ReferenceIdeal.S8x4096x1024, .f32⟩ : BufTy).Contents (Elt Ideal)) (x2 : (⟨Cert.ReferenceIdeal.S8x1024x2048, .f32⟩ : BufTy).Contents (Elt Ideal)) (x3 : (⟨Cert.ReferenceIdeal.S1024x2, .f32⟩ : BufTy).Contents (Elt Ideal)) (x4 : (⟨Cert.ReferenceIdeal.S1024x2, .i32⟩ : BufTy).Contents (Elt Ideal))
    (hr : ∀ j, (x4 j).toNat < 8) :
    Cert.ReferenceIdeal.Read.val_main_v13 (F := Ideal) x0 x1 x2 x3 x4 = Cert.MoeSpec.G x0 x1 x2 x3 x4 := by
  funext i
  obtain ⟨m, k, rfl⟩ : ∃ (m : Fin 1024) (k : Fin 1024), i = ix2 m k := ⟨i 0, i 1, eq_ix2 i⟩
  rw [val_main_v13_apply, val_main_cst_apply]
  unfold Cert.MoeSpec.G
  simp only [Ideal.ofBits_def, Ideal.ofBits_zero_f32, zero_add]
  refine Finset.sum_congr rfl fun t _ => ?_
  rw [show idx_main_v13 (ix2 m k) t = ix3 m t k from
      funext fun a => Fin.ext (by match a with | ⟨0, _⟩ => rfl | ⟨1, _⟩ => rfl | ⟨2, _⟩ => rfl),
    val_main_v12_apply, val_main_v11_apply, val_main_v10_apply, take_read x0 x1 x2 x4 hr,
    show idx_main_v10 (idx_main_v11 (ix3 m t k)) = ix2 m t from
      funext fun a => Fin.ext (by match a with | ⟨0, _⟩ => rfl | ⟨1, _⟩ => rfl)]
  rfl

end Cert.ReferenceIdeal.RefValue

end
-- ==== Proof.PreFacts.lean ====
import proofs.«420278_j20899310863256_3_alg».proof.Pre_finite_inputs
import proofs.«420278_j20899310863256_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

/-!
  The precondition read back. The printed predicate is a conjunction of six "for all" statements, each a
  reduction by `and` of an array of bits into one bit. That the whole is 1 gives: every entry of the four real
  arrays has absolute value below +∞, so is a real number; every entry of the integer array is, read signed,
  at least 0 and below 8, so its unsigned value is below 8.
-/

namespace Cert.PreFacts

open Idealize.ShloMosaic Idealize.ShloMosaic.ValueIdx

instance : Subsingleton Cert.Pre_finite_inputs.S_.Idx := ⟨fun a b => funext fun d => d.elim0⟩

/-- The pattern of +∞ denotes ⊤. -/
theorem ofBits_inf : Ideal.ofBits .f32 0x7F800000#32 = ⊤ := by simp [Ideal.ofBits, Ideal.ieee]

/-- An extended real whose absolute value max x (−x) is below +∞ is a real number:
    at ⊥ and at ⊤ the absolute value is ⊤. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One "all entries are finite" conjunct, at any shape: the reduction by `and` of the bits |x| < +∞ being 1
    makes every entry a real number. -/
theorem all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr h0 ix0 = 1#1) (j : s.Idx) : ∃ r : ℝ, x j = (r : EReal) :=
  real_of_abs_lt_inf (x j) (Host.reduce_andi_all _ init hr h0 ix0 e j)

/-- A 32-bit word that is, read signed, at least 0 and below 8 has unsigned value below 8. -/
theorem toNat_lt_eight (v : BitVec 32) (h0 : IntOp.cmpi .sge v 0#32 = 1#1) (h8 : IntOp.cmpi .slt v 8#32 = 1#1) :
    v.toNat < 8 := by
  rw [IntOp.cmpi_sge] at h0
  rw [IntOp.cmpi_slt] at h8
  have z : (0#32 : BitVec 32).toInt = 0 := by decide
  have e : (8#32 : BitVec 32).toInt = 8 := by decide
  rw [z] at h0
  rw [e] at h8
  have hn : 2 * v.toNat < 2 ^ 32 := BitVec.toInt_pos_iff.1 h0
  rw [BitVec.toInt_eq_toNat_of_lt hn] at h8
  omega

theorem of_pre [Cert.Pre_finite_inputs.Facts]
    (x0 : FVec Ideal Cert.Pre_finite_inputs.S1024x1024 .f32) (x1 : FVec Ideal Cert.Pre_finite_inputs.S8x4096x1024 .f32) (x2 : FVec Ideal Cert.Pre_finite_inputs.S8x1024x2048 .f32) (x3 : FVec Ideal Cert.Pre_finite_inputs.S1024x2 .f32) (x4 : IVec Cert.Pre_finite_inputs.S1024x2 32)
    (h : Cert.Pre_finite_inputs.fn (F := Ideal) x0 x1 x2 x3 x4 = fun _ => 1#1) :
    (∀ j, ∃ r : ℝ, x0 j = (r : EReal)) ∧ (∀ j, ∃ r : ℝ, x1 j = (r : EReal)) ∧ (∀ j, ∃ r : ℝ, x2 j = (r : EReal)) ∧ (∀ j, ∃ r : ℝ, x3 j = (r : EReal)) ∧ (∀ j, (x4 j).toNat < 8) := by
  have e := congrFun h ix0
  dsimp only [Cert.Pre_finite_inputs.fn, Cert.Pre_finite_inputs.fn_part1] at e
  obtain ⟨e5, e25⟩ := IntOp.andi_eq_one.1 e
  obtain ⟨e4, e21⟩ := IntOp.andi_eq_one.1 e5
  obtain ⟨e3, e17⟩ := IntOp.andi_eq_one.1 e4
  obtain ⟨e2, e12⟩ := IntOp.andi_eq_one.1 e3
  obtain ⟨e3', e7⟩ := IntOp.andi_eq_one.1 e2
  refine ⟨all_finite x0 _ _ _ _ e3', all_finite x1 _ _ _ _ e7, all_finite x2 _ _ _ _ e12, all_finite x3 _ _ _ _ e17, fun j => ?_⟩
  have g0 := Host.reduce_andi_all _ _ _ _ ix0 e21 j
  have g8 := Host.reduce_andi_all _ _ _ _ ix0 e25 j
  exact toNat_lt_eight (x4 j) g0 g8

end Cert.PreFacts
-- ==== Proof.lean ====
/-
  The certificate of a fused mixture-of-experts kernel against its dense jnp reference.

  The layer: every expert e projects each token onto its gate and up rows, applies silu(gate) · up, and contracts
  with its second weight; a token's result is the sum over its two routed experts of that expert's output times
  the routing weight (`Cert.MoeSpec.G`).  The reference computes exactly that with a take_along_axis over the
  experts' outputs.  The kernel instead builds, on the host, the total routing weight of every token for every
  expert (clip, one-hot, multiply, add), and in one pallas_call over (row tile, expert, chunk) accumulates each
  expert's output chunk by chunk and folds it, weighted by that table, into an output accumulator.

  The two agree where the expert ids index the expert axis: 0 ≤ id < 8.  Outside that range the reference's
  take_along_axis wraps a negative id and fills NaN past the end while the kernel clips, so the precondition
  carries that range beside the finiteness of the float inputs.  With every input a real number all quantities are
  real and the kernel's combine over all experts regroups into the reference's sum over the two routed slots
  (distributivity, which the extended reals lack at the infinities).

  Frames: the word-level kernel and its idealization by the same text at either instance — the body's run at each
  of five kinds of grid point, the accumulators tracked from point to point, the first weight array shared by
  its gate-rows and up-rows windows at half shares; the reference by its run.
-/
import proofs.«420278_j20899310863256_3_alg».proof.Defs
import proofs.«420278_j20899310863256_3_alg».proof.Proof.Gen.Kernel
import proofs.«420278_j20899310863256_3_alg».proof.Proof.Gen.KernelIdeal
import proofs.«420278_j20899310863256_3_alg».proof.Proof.Gen.ReferenceIdeal
import proofs.«420278_j20899310863256_3_alg».proof.Proof.Gen.ReferenceIdeal.Run
import proofs.«420278_j20899310863256_3_alg».proof.Proof.Gen.ReferenceIdeal.Read
import proofs.«420278_j20899310863256_3_alg».proof.Proof.Gen.Pre_finite_inputs
import proofs.«420278_j20899310863256_3_alg».proof.Proof.KB.Frame
import proofs.«420278_j20899310863256_3_alg».proof.Proof.KI.Frame
import proofs.«420278_j20899310863256_3_alg».proof.Proof.KernelIsG
import proofs.«420278_j20899310863256_3_alg».proof.Proof.RefIsG
import proofs.«420278_j20899310863256_3_alg».proof.Proof.PreFacts
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer `G` of the arguments: the kernel by its accumulation, the reference by its run
    read one operation at a time. -/
theorem algebraic : Cert.algebraic_KernelIdeal_ReferenceIdeal := by
  intro m ρ m' ρ' hpre hagree
  refine ⟨fun c => Cert.MoeSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.KValue.run_value m ρ)
    obtain ⟨ha, hw1, hw2, htw, hr⟩ := Cert.PreFacts.of_pre _ _ _ _ _ (hpre c)
    exact ⟨(h c).1.trans (Cert.KernelIdeal.KValue.result_eq_G m c ha hw1 hw2 htw hr), (h c).2⟩
  · refine (θ_run Cert.ReferenceIdeal.defs _ _).mono (fun r h c => ⟨?_, (h c).2⟩) (Cert.ReferenceIdeal.Value.run (F := Ideal) m' ρ')
    obtain ⟨ha, hw1, hw2, htw, hr⟩ := Cert.PreFacts.of_pre _ _ _ _ _ (hpre c)
    rw [(h c).1, Cert.ReferenceIdeal.Read.val_main_v13_eq, (hagree c).1, (hagree c).2.1, (hagree c).2.2.1, (hagree c).2.2.2.1, (hagree c).2.2.2.2]
    exact Cert.ReferenceIdeal.RefValue.val_main_v13_eq_G _ _ _ _ _ hr

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
